-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S32x64 : Shape := ⟨2, ![32, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_arg9 : FVec F S64x64 .f32) (main_arg10 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x64 .f32) (main_arg6 : FVec F S64 .f32) (main_arg7 : FVec F S64 .f32) (main_arg8 : FVec F S64 .f32) (main_arg9 : FVec F S64x64 .f32) (main_arg10 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_v33

def fn {F : FTy → Type} [FloatOps F] (main_arg0 : FVec F S50000x64 .f32) (main_arg1 : IVec S2x800000 32) (main_arg2 : FVec F S800000x32 .f32) (main_arg3 : FVec F S32x64 .f32) (main_arg4 : FVec F S64 .f32) (main_arg5 : FVec F S64x64 .f32) (main_arg6 : FVec F S64 .f32) (main_arg7 : FVec F S64 .f32) (main_arg8 : FVec F S64 .f32) (main_arg9 : FVec F S64x64 .f32) (main_arg10 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S32x64 .f32 := Host.absf main_arg3
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S32x64 : Shape := ⟨2, ![32, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩
abbrev S20000x32 : Shape := ⟨2, ![20000, 32]⟩
abbrev S20000x64 : Shape := ⟨2, ![20000, 64]⟩
abbrev S10000x64 : Shape := ⟨2, ![10000, 64]⟩

abbrev nBuf : Space → Nat
  | .hbm => 46
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S32x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S1x64, .f32⟩
  | .hbm, ⟨25, _⟩ => ⟨S800000x64, .f32⟩
  | .hbm, ⟨26, _⟩ => ⟨S_, .f32⟩
  | .hbm, ⟨27, _⟩ => ⟨S50000x64, .f32⟩
  | .hbm, ⟨28, _⟩ => ⟨S800000x1, .i32⟩
  | .hbm, ⟨29, _⟩ => ⟨S50000x64, .f32⟩
  | .hbm, ⟨30, _⟩ => ⟨S1x64, .f32⟩
  | .hbm, ⟨31, _⟩ => ⟨S50000x64, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | .hbm, ⟨37, _⟩ => ⟨S_, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S50000x64, .f32⟩
  | .local _ .vmem, ⟨0, _⟩ => ⟨S20000x32, .f32⟩
  | .local _ .vmem, ⟨1, _⟩ => ⟨S20000x32, .f32⟩
  | .local _ .vmem, ⟨2, _⟩ => ⟨S20000x64, .f32⟩
  | .local _ .vmem, ⟨3, _⟩ => ⟨S20000x64, .f32⟩
  | .local _ .vmem, ⟨4, _⟩ => ⟨S32x64, .f32⟩
  | .local _ .vmem, ⟨5, _⟩ => ⟨S1x64, .f32⟩
  | .local _ .vmem, ⟨6, _⟩ => ⟨S20000x64, .f32⟩
  | .local _ .vmem, ⟨7, _⟩ => ⟨S20000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S1x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem6_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S20000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S64_S1x64 : S64.ShapeCasts S1x64
  inb_S20000x32_S20000x32_0_0 : ∀ a, (![0, 0] : Fin 2 → Nat) a + S20000x32.size a ≤ S20000x32.size a
  h_S20000x32 : 0 < S20000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  bcast_S_S50000x64 : S_.BroadcastsInDim S50000x64 (![] : Fin 0 → Fin S50000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  broadcasts_S1x64_S10000x64 : S1x64.Broadcasts S10000x64
  reduces_S10000x64_S64 : S10000x64.Reduces [0] S64
  bcast_S_S1x64 : S_.BroadcastsInDim S1x64 (![] : Fin 0 → Fin S1x64.rank)
  gather_S50000x64_S800000x1_S800000x64_1_0_n_n_0_1_164_wf : GatherDims.WF S50000x64 S800000x1 S800000x64 [1] [0] [] [0] [] 1 ![1, 64]
  dot_S20000x32_S32x64_S20000x64_1_0_0_1_n_n_wf : DotDims.WF S20000x32 S32x64 S20000x64 [1] [0] [0] [1] [] []
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x32.size a ≤ S800000x32.size a
  hwx0_0 : ∀ i : grid0.Coords, EltTy.bits .f32 = 32 ∨ (Rect.block (s := S800000x32) S20000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x64.size a ≤ S800000x64.size a
  hwx0_1 : ∀ i : grid0.Coords, EltTy.bits .f32 = 32 ∨ (Rect.block (s := S800000x64) S20000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S20000x64.size a ≤ S800000x64.size a
  hwx0_4 : ∀ i : grid0.Coords, EltTy.bits .f32 = 32 ∨ (Rect.block (s := S800000x64) S20000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x64.size a ≤ S50000x64.size a
  hwx1_4 : ∀ i : grid1.Coords, EltTy.bits .f32 = 32 ∨ (Rect.block (s := S50000x64) S10000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S50000x64.size a
  hwx2_0 : ∀ i : grid2.Coords, EltTy.bits .f32 = 32 ∨ (Rect.block (s := S50000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x64.size a ≤ S50000x64.size a
  hwx2_7 : ∀ i : grid2.Coords, EltTy.bits .f32 = 32 ∨ (Rect.block (s := S50000x64) S10000x64.size (cc2_transform_7 i) (hinb2_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S20000x32_S32x64_S20000x64_1_0_0_1_n_n : DotDims S20000x32 S32x64 S20000x64 where
  lhsContracting := [1]
  rhsContracting := [0]
  lhsNonContracting := [0]
  rhsNonContracting := [1]
  lhsBatch := []
  rhsBatch := []
  wf := dot_S20000x32_S32x64_S20000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg2) S20000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S20000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S20000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17_0) S10000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17_1) S1x64.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17_2) S1x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v17_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v26) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v27) S10000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S32x64 : Shape := ⟨2, ![32, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S32x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x64, .f32⟩
  | .hbm, ⟨24, _⟩ => ⟨S800000x64, .f32⟩
  | .hbm, ⟨25, _⟩ => ⟨S1x64, .f32⟩
  | .hbm, ⟨26, _⟩ => ⟨S800000x64, .f32⟩
  | .hbm, ⟨27, _⟩ => ⟨S800000x64, .f32⟩
  | .hbm, ⟨28, _⟩ => ⟨S800000x64, .f32⟩
  | .hbm, ⟨29, _⟩ => ⟨S_, .f32⟩
  | .hbm, ⟨30, _⟩ => ⟨S50000x64, .f32⟩
  | .hbm, ⟨31, _⟩ => ⟨S800000x1, .i32⟩
  | .hbm, ⟨32, _⟩ => ⟨S50000x64, .f32⟩
  | .hbm, ⟨33, _⟩ => ⟨S_, .f32⟩
  | .hbm, ⟨34, _⟩ => ⟨S50000x64, .f32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S1x64, .f32⟩
  | .hbm, ⟨39, _⟩ => ⟨S50000x64, .f32⟩
  | .hbm, ⟨40, _⟩ => ⟨S50000x64, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .i32⟩
  | .hbm, ⟨47, _⟩ => ⟨S_, .f32⟩
  | .hbm, ⟨48, _⟩ => ⟨S64, .f32⟩
  | .hbm, ⟨49, _⟩ => ⟨S1x64, .f32⟩
  | .hbm, ⟨50, _⟩ => ⟨S_, .f32⟩
  | .hbm, ⟨51, _⟩ => ⟨S1x64, .f32⟩
  | .hbm, ⟨52, _⟩ => ⟨S1x64, .f32⟩
  | .hbm, ⟨53, _⟩ => ⟨S50000x64, .f32⟩
  | .hbm, ⟨54, _⟩ => ⟨S50000x64, .f32⟩
  | .hbm, ⟨55, _⟩ => ⟨S50000x64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S_, .i1⟩
  | .hbm, ⟨65, _⟩ => ⟨S_, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S1x64, .f32⟩
  | .hbm, ⟨70, _⟩ => ⟨S50000x64, .f32⟩
  | .hbm, ⟨71, _⟩ => ⟨S50000x64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S1x64, .f32⟩
  | .hbm, ⟨77, _⟩ => ⟨S50000x64, .f32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S50000x64, .f32⟩
  | .hbm, ⟨82, _⟩ => ⟨S1x64, .f32⟩
  | .hbm, ⟨83, _⟩ => ⟨S50000x64, .f32⟩
  | .hbm, ⟨84, _⟩ => ⟨S50000x64, .f32⟩
  | .hbm, ⟨85, _⟩ => ⟨S_, .f32⟩
  | .hbm, ⟨86, _⟩ => ⟨S50000x64, .f32⟩
  | .hbm, ⟨87, _⟩ => ⟨S50000x64, .f32⟩
  | .hbm, ⟨88, _⟩ => ⟨S50000x64, .f32⟩
  | .hbm, ⟨89, _⟩ => ⟨S1x64, .f32⟩
  | .hbm, ⟨90, _⟩ => ⟨S50000x64, .f32⟩
  | .hbm, ⟨91, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_cst_3 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_cst_3 : Ref sig .tc := ⟨.hbm, 63, rfl⟩
abbrev main_call0_v12 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_5 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_call1_cst : Ref sig .tc := ⟨.hbm, 85, rfl⟩
abbrev main_call1_v0 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  gather_S50000x64_S800000x1_S800000x64_1_0_n_n_0_1_164_wf : GatherDims.WF S50000x64 S800000x1 S800000x64 [1] [0] [] [0] [] 1 ![1, 64]
  dot_S800000x32_S32x64_S800000x64_1_0_0_1_n_n_wf : DotDims.WF S800000x32 S32x64 S800000x64 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x32_S32x64_S800000x64_1_0_0_1_n_n : DotDims S800000x32 S32x64 S800000x64 where
  lhsContracting := [1]
  rhsContracting := [0]
  lhsNonContracting := [0]
  rhsNonContracting := [1]
  lhsBatch := []
  rhsBatch := []
  wf := dot_S800000x32_S32x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  The layer as plain functions of row and column, on the extended reals.

  Nodes r < 50000, edges e < 800000, features j, k < 64, edge features k < 32.
    msg e j   = (x_src e j + Σ_k ea e k · We k j) + be j            -- the edge message
    hid r j   = Σ_k (agg r k + x r k) · W1 k j + b1 j               -- the first linear layer on agg + x
    mean h j  = (Σ_r h r j) / 50000
    varK h j  = (Σ_r h r j²) / 50000 − (mean h j)²                  -- the variance as "mean of squares minus square of mean"
    varR h j  = (Σ_r (h r j − mean h j)²) / 50000                   -- the variance as "mean of squared deviations"
    outF …    = Σ_k max(((h r k − μ k) · rsqrt(v k + ε)) · γ k + β k, 0) · W2 k j + b2 j
  The two variances agree when every h r j is a real number (Algebra.lean); every other step is the same
  expression on both sides.  The arrays of the programs are read through `mat`, `row`, `vec`.
-/
import Idealize.ShloMosaic.PureOps.Ideal
import Idealize.ShloMosaic.Lib.ValueIdx

noncomputable section

namespace Cert.Gin

open Idealize.ShloMosaic Idealize.ShloMosaic.ValueIdx

/-- A rank-2 array as a function of its row and its column. -/
abbrev mat {n0 n1 : Nat} (a : (⟨2, ![n0, n1]⟩ : Shape).Idx → EReal) : Fin n0 → Fin n1 → EReal := fun r j => a (ix2 r j)
/-- A [1, n] array as a function of its column. -/
abbrev row {n : Nat} (a : (⟨2, ![1, n]⟩ : Shape).Idx → EReal) : Fin n → EReal := fun j => a (ix2 0 j)
/-- A rank-1 array as a function of its coordinate. -/
abbrev vec {n : Nat} (a : (⟨1, ![n]⟩ : Shape).Idx → EReal) : Fin n → EReal := fun j => a (ix1 j)
/-- A function of row and column as a rank-2 array. -/
abbrev arr2 {n0 n1 : Nat} (f : Fin n0 → Fin n1 → EReal) : (⟨2, ![n0, n1]⟩ : Shape).Idx → EReal := fun i => f (i 0) (i 1)
/-- A function of the column as a [1, n] array. -/
abbrev arrRow {n : Nat} (f : Fin n → EReal) : (⟨2, ![1, n]⟩ : Shape).Idx → EReal := fun i => f (i 1)

theorem mat_arr2 {n0 n1 : Nat} (f : Fin n0 → Fin n1 → EReal) : mat (arr2 f) = f := rfl
theorem row_arrRow {n : Nat} (f : Fin n → EReal) : row (arrRow f) = f := rfl
theorem arr2_mat {n0 n1 : Nat} (a : (⟨2, ![n0, n1]⟩ : Shape).Idx → EReal) : arr2 (mat a) = a :=
  funext fun i => congrArg a (eq_ix2 i).symm

/-- The number of nodes as the programs' float constant (the word of 50000.0). -/
abbrev cN : EReal := Ideal.ofBits .f32 0x47435000#32
/-- The batch-norm epsilon as the programs' float constant (the word nearest 1e-5). -/
abbrev cEps : EReal := Ideal.ofBits .f32 0x3727C5AC#32
/-- The zero word. -/
abbrev cZero : EReal := Ideal.ofBits .f32 0x00000000#32

/-- The edge message: the gathered source row plus the edge features' linear image plus the bias. -/
def msg (xs : Fin 800000 → Fin 64 → EReal) (ea : Fin 800000 → Fin 32 → EReal) (We : Fin 32 → Fin 64 → EReal)
    (be : Fin 64 → EReal) : Fin 800000 → Fin 64 → EReal :=
  fun e j => (xs e j + ∑ k : Fin 32, ea e k * We k j) + be j

/-- The first linear layer applied to the aggregate plus the node's own features. -/
def hid (agg x : Fin 50000 → Fin 64 → EReal) (W1 : Fin 64 → Fin 64 → EReal) (b1 : Fin 64 → EReal) :
    Fin 50000 → Fin 64 → EReal :=
  fun r j => (∑ k : Fin 64, (agg r k + x r k) * W1 k j) + b1 j

/-- A feature's sum over all nodes. -/
def colsum (h : Fin 50000 → Fin 64 → EReal) : Fin 64 → EReal := fun j => ∑ r : Fin 50000, h r j
/-- A feature's sum of squares over all nodes. -/
def colsumsq (h : Fin 50000 → Fin 64 → EReal) : Fin 64 → EReal := fun j => ∑ r : Fin 50000, h r j * h r j
/-- A feature's mean over the nodes. -/
def mean (h : Fin 50000 → Fin 64 → EReal) : Fin 64 → EReal := fun j => Ideal.div (colsum h j) cN
/-- The variance as the mean of the squares minus the square of the mean. -/
def varK (h : Fin 50000 → Fin 64 → EReal) : Fin 64 → EReal :=
  fun j => Ideal.div (colsumsq h j) cN - mean h j * mean h j
/-- The variance as the mean of the squared deviations from the mean. -/
def varR (h : Fin 50000 → Fin 64 → EReal) : Fin 64 → EReal :=
  fun j => Ideal.div (∑ r : Fin 50000, (h r j - mean h j) * (h r j - mean h j)) cN

/-- Normalisation by a mean `mu` and a variance `v`, scale and shift, the positive part, the second linear layer. -/
def outF (h : Fin 50000 → Fin 64 → EReal) (mu v gamma beta : Fin 64 → EReal) (W2 : Fin 64 → Fin 64 → EReal)
    (b2 : Fin 64 → EReal) : Fin 50000 → Fin 64 → EReal :=
  fun r j => (∑ k : Fin 64, max ((((h r k - mu k) * Ideal.rsqrt (v k + cEps)) * gamma k) + beta k) cZero * W2 k j) + b2 j

/-- An extended real that is a real number. -/
def IsReal (x : EReal) : Prop := ∃ y : ℝ, x = (y : EReal)

end Cert.Gin

end
-- ==== Proof.Region0.lean ====
/-
  Region 0 (the edge-message kernel, 40 grid points of 20000 edges): after the region the output array holds
  the edge message of the whole arrays the region was entered with — block t of the output is rows
  20000·t … 20000·t + 19999 of `msg`, and the 40 blocks tile the 800000 rows.

  The steps. One entry of what the body stores, at row p and column q of a block: the bf16 roundings are the
  identity on the extended reals, the block product into the zero accumulator is the sum over the 32 edge
  features, the cast to the same shape is the identity and the broadcast bias row reads its entry at q; so
  the entry is (xs p q + Σ_k ea p k · We k q) + be q of the four blocks. Block t of each row-blocked array
  is rows 20000·t + p of it, the weights' and the bias row's blocks are the whole arrays, so the entry is
  `msg` at row 20000·t + p and column q. Row r lies in block r / 20000, so the blocks cover the array.
-/
import proofs.«141026_j7430293422227_1_alg».proof.Proof.Gen.KernelIdeal.Frame
import proofs.«141026_j7430293422227_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.Gin
open Idealize.ShloMosaic Idealize.ShloMosaic.TcCoe Idealize.ShloMosaic.ValueIdx
open Idealize.SL.Sem
open Idealize.ShloMosaic.Pipeline (Dat Cfg Window)
open scoped BigOperators

/- The TensorCore's buffer contents when the region is entered, at the ideal instance. -/
variable (V : (c : Dev nD) → (b : Ref sig .tc) → Buf (Elt Ideal) ((c : Thread nD τ).loc b))

namespace EdgeMsg

/-! ## The block product's operand indices, axis by axis -/

/-- On its rows axis the left operand of the block product reads the output's row. -/
theorem lhs_rows (j : S20000x64.Idx) (k : dot_S20000x32_S32x64_S20000x64_1_0_0_1_n_n.contr.Idx) :
    (dot_S20000x32_S32x64_S20000x64_1_0_0_1_n_n.lhsIdx j k 0).val = (j 0).val := by
  unfold DotDims.lhsIdx
  rw [dif_neg (show ¬(0 : Fin S20000x32.rank) ∈ dot_S20000x32_S32x64_S20000x64_1_0_0_1_n_n.lhsBatch by decide),
    dif_pos (show (0 : Fin S20000x32.rank) ∈ dot_S20000x32_S32x64_S20000x64_1_0_0_1_n_n.lhsNonContracting by decide)]
  rfl

/-- On its features axis the left operand reads the contraction position. -/
theorem lhs_contr (j : S20000x64.Idx) (k : dot_S20000x32_S32x64_S20000x64_1_0_0_1_n_n.contr.Idx) :
    (dot_S20000x32_S32x64_S20000x64_1_0_0_1_n_n.lhsIdx j k 1).val = (k ⟨0, by decide⟩).val :=
  dot_S20000x32_S32x64_S20000x64_1_0_0_1_n_n.lhsIdx_val_of_single rfl j k

/-- On its features axis the right operand reads the contraction position. -/
theorem rhs_contr (j : S20000x64.Idx) (k : dot_S20000x32_S32x64_S20000x64_1_0_0_1_n_n.contr.Idx) :
    (dot_S20000x32_S32x64_S20000x64_1_0_0_1_n_n.rhsIdx j k 0).val = (k ⟨0, by decide⟩).val :=
  dot_S20000x32_S32x64_S20000x64_1_0_0_1_n_n.rhsIdx_val_of_single rfl j k

/-- On its columns axis the right operand reads the output's column. -/
theorem rhs_cols (j : S20000x64.Idx) (k : dot_S20000x32_S32x64_S20000x64_1_0_0_1_n_n.contr.Idx) :
    (dot_S20000x32_S32x64_S20000x64_1_0_0_1_n_n.rhsIdx j k 1).val = (j 1).val := by
  unfold DotDims.rhsIdx
  rw [dif_neg (show ¬(1 : Fin S32x64.rank) ∈ dot_S20000x32_S32x64_S20000x64_1_0_0_1_n_n.rhsBatch by decide),
    dif_pos (show (1 : Fin S32x64.rank) ∈ dot_S20000x32_S32x64_S20000x64_1_0_0_1_n_n.rhsNonContracting by decide)]
  rfl

/-! ## One entry of what the body stores -/

/-- The block product into the zero accumulator, at row p and column q: the sum over the 32 edge features. -/
theorem blockProduct_apply (A : FVec Ideal S20000x32 .bf16) (B : FVec Ideal S32x64 .bf16) (p : Fin 20000) (q : Fin 64) :
    matmul dot_S20000x32_S32x64_S20000x64_1_0_0_1_n_n none A B (constant (F := Ideal) S20000x64 .f32 0x00000000#32) (ix2 p q)
      = ∑ k : Fin 32, A (ix2 p k) * B (ix2 k q) := by
  show FloatOps.matmul _ none A B _ (ix2 p q) = _
  rw [Ideal.matmul_constant_zero_apply,
    ← Equiv.sum_comp (contrEquiv1 dot_S20000x32_S32x64_S20000x64_1_0_0_1_n_n 32 rfl rfl).symm]
  refine Finset.sum_congr rfl fun k _ => ?_
  have hk := contrEquiv1_symm_val dot_S20000x32_S32x64_S20000x64_1_0_0_1_n_n 32 rfl rfl k
  have hl : dot_S20000x32_S32x64_S20000x64_1_0_0_1_n_n.lhsIdx (ix2 p q)
      ((contrEquiv1 dot_S20000x32_S32x64_S20000x64_1_0_0_1_n_n 32 rfl rfl).symm k) = ix2 p k := by
    funext ax; apply Fin.ext
    match ax with
    | ⟨0, _⟩ => exact lhs_rows _ _
    | ⟨1, _⟩ => exact (lhs_contr _ _).trans hk
  have hr : dot_S20000x32_S32x64_S20000x64_1_0_0_1_n_n.rhsIdx (ix2 p q)
      ((contrEquiv1 dot_S20000x32_S32x64_S20000x64_1_0_0_1_n_n 32 rfl rfl).symm k) = ix2 k q := by
    funext ax; apply Fin.ext
    match ax with
    | ⟨0, _⟩ => exact (rhs_contr _ _).trans hk
    | ⟨1, _⟩ => exact rhs_cols _ _
  rw [hl, hr]

/-- The bias row broadcast down the rows, at row p and column q, is the row's entry at q. -/
theorem biasRows_apply (b : FVec Ideal S1x64 .f32) (p : Fin 20000) (q : Fin 64) :
    broadcastTo S20000x64 b broadcasts_S1x64_S20000x64 (ix2 p q) = b (ix2 0 q) := by
  refine broadcastTo_apply b broadcasts_S1x64_S20000x64 (ix2 p q) (ix2 0 q) fun a => ?_
  match a with
  | ⟨0, _⟩ => rfl
  | ⟨1, _⟩ => rfl

/-- What the body stores, at row p and column q of the block: the gathered row's entry plus the edge
    features' linear image plus the bias (the roundings to bf16 are the identity on the extended reals). -/
theorem stored_apply (ea : Vec Ideal S20000x32 .f32) (We : Vec Ideal S32x64 .f32) (xs : Vec Ideal S20000x64 .f32)
    (be : Vec Ideal S1x64 .f32) (p : Fin 20000) (q : Fin 64) :
    (k0_pay1 (F := Ideal) ea We xs be) (ix2 p q)
      = (xs (ix2 p q) + ∑ k : Fin 32, ea (ix2 p k) * We (ix2 k q)) + be (ix2 0 q) := by
  unfold k0_pay1
  refine (addf_apply _ _ (ix2 p q)).trans ?_
  refine congrArg₂ (· + ·) ((addf_apply _ _ (ix2 p q)).trans (congrArg₂ (· + ·) ?_ ?_)) ?_
  · rw [shapeCast_self]
  · exact blockProduct_apply _ _ p q
  · rw [shapeCast_self]; exact biasRows_apply be p q

/-- The offsets (0, 0) of a whole-block access are zero on every axis. -/
theorem offsets_zero : (![0, 0] : Fin 2 → Nat) = fun _ => 0 := funext fun a => by fin_cases a <;> rfl

/-- What the body leaves in the output block, at row p and column q: its one store covers the block, and each
    of its loads reads a whole input block. -/
theorem left_apply (ea : Vec Ideal S20000x32 .f32) (xs : Vec Ideal S20000x64 .f32) (We : Vec Ideal S32x64 .f32)
    (be : Vec Ideal S1x64 .f32) (p : Fin 20000) (q : Fin 64) :
    out0_4 (F := Ideal) ea xs We be (ix2 p q)
      = (xs (ix2 p q) + ∑ k : Fin 32, ea (ix2 p k) * We (ix2 k q)) + be (ix2 0 q) := by
  unfold out0_4
  rw [View.canon_unit_zero offsets_zero]
  simp only [View.ld_unit_zero (S := S20000x32) offsets_zero, View.ld_unit_zero (S := S32x64) offsets_zero,
    View.ld_unit_zero (S := S20000x64) offsets_zero, View.ld_unit_zero (S := S1x64) offsets_zero]
  exact stored_apply ea We xs be p q

/-- One entry of the output block is the edge message at a row r and a column q' once the four blocks'
    entries it reads are the arrays' entries at r and q'. -/
theorem left_eq_msg (xs : Fin 800000 → Fin 64 → EReal) (ea : Fin 800000 → Fin 32 → EReal) (We : Fin 32 → Fin 64 → EReal)
    (be : Fin 64 → EReal)
    (x0 : Vec Ideal S20000x32 .f32) (x1 : Vec Ideal S20000x64 .f32) (x2 : Vec Ideal S32x64 .f32) (x3 : Vec Ideal S1x64 .f32)
    (p : Fin 20000) (q : Fin 64) (r : Fin 800000) (q' : Fin 64)
    (h0 : ∀ k : Fin 32, x0 (ix2 p k) = ea r k) (h1 : x1 (ix2 p q) = xs r q')
    (h2 : ∀ k : Fin 32, x2 (ix2 k q) = We k q') (h3 : x3 (ix2 0 q) = be q') :
    out0_4 (F := Ideal) x0 x1 x2 x3 (ix2 p q) = msg xs ea We be r q' := by
  rw [left_apply, h1, h3]
  unfold msg
  exact congrArg₂ (· + ·) (congrArg₂ (· + ·) rfl (Finset.sum_congr rfl fun k _ => by rw [h0 k, h2 k])) rfl

/-! ## The blocks as rows of the arrays -/

/-- The index maps over the 40 grid points: the three row-blocked windows sit at block t of the rows and block 0
    of the columns; the weights' and the bias row's windows at block (0, 0). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The edge features' block at point t, at row p and feature k, is the array's entry at row 20000·t + p. -/
theorem features_block (c : Dev nD) (t : Fin cfg0.N) (p : Fin 20000) (k : Fin 32) (r : Fin 800000)
    (hr : r.val = 20000 * t.val + p.val) :
    (iblk0 V c 0 t : Vec Ideal S20000x32 .f32) (ix2 p k) = mat (n0 := 800000) (n1 := 32) (V c main_arg2) r k := by
  obtain ⟨e0, e1, -⟩ := blockIndex t
  unfold iblk0
  show V c main_arg2 (((cfg0.win 0).blk t).view.emb (ix2 p k)) = V c main_arg2 (ix2 r k)
  refine congrArg (V c main_arg2) ?_
  funext a; apply Fin.ext
  match a with
  | ⟨0, _⟩ => show win0_0.index t (0 : Fin 2) * 20000 + 1 * p.val = r.val; omega
  | ⟨1, _⟩ => show win0_0.index t (1 : Fin 2) * 32 + 1 * k.val = k.val; omega

/-- The gathered rows' block at point t, at row p and column q, is the array's entry at row 20000·t + p. -/
theorem gathered_block (c : Dev nD) (t : Fin cfg0.N) (p : Fin 20000) (q : Fin 64) (r : Fin 800000) (q' : Fin 64)
    (hr : r.val = 20000 * t.val + p.val) (hq : q'.val = q.val) :
    (iblk0 V c 1 t : Vec Ideal S20000x64 .f32) (ix2 p q) = mat (n0 := 800000) (n1 := 64) (V c main_v10) r q' := by
  obtain ⟨-, -, e0, e1, -⟩ := blockIndex t
  unfold iblk0
  show V c main_v10 (((cfg0.win 1).blk t).view.emb (ix2 p q)) = V c main_v10 (ix2 r q')
  refine congrArg (V c main_v10) ?_
  funext a; apply Fin.ext
  match a with
  | ⟨0, _⟩ => show win0_1.index t (0 : Fin 2) * 20000 + 1 * p.val = r.val; omega
  | ⟨1, _⟩ => show win0_1.index t (1 : Fin 2) * 64 + 1 * q.val = q'.val; omega

/-- The weights' block at every point is the whole array. -/
theorem weights_block (c : Dev nD) (t : Fin cfg0.N) (k : Fin 32) (q : Fin 64) (q' : Fin 64) (hq : q'.val = q.val) :
    (iblk0 V c 2 t : Vec Ideal S32x64 .f32) (ix2 k q) = mat (n0 := 32) (n1 := 64) (V c main_arg3) k q' := by
  obtain ⟨-, -, -, -, e0, e1, -⟩ := blockIndex t
  unfold iblk0
  show V c main_arg3 (((cfg0.win 2).blk t).view.emb (ix2 k q)) = V c main_arg3 (ix2 k q')
  refine congrArg (V c main_arg3) ?_
  funext a; apply Fin.ext
  match a with
  | ⟨0, _⟩ => show win0_2.index t (0 : Fin 2) * 32 + 1 * k.val = k.val; omega
  | ⟨1, _⟩ => show win0_2.index t (1 : Fin 2) * 64 + 1 * q.val = q'.val; omega

/-- The bias row's block at every point is the whole row. -/
theorem bias_block (c : Dev nD) (t : Fin cfg0.N) (q : Fin 64) (q' : Fin 64) (hq : q'.val = q.val) :
    (iblk0 V c 3 t : Vec Ideal S1x64 .f32) (ix2 0 q) = row (n := 64) (V c main_v11) q' := by
  obtain ⟨-, -, -, -, -, -, e0, e1, -⟩ := blockIndex t
  unfold iblk0
  show V c main_v11 (((cfg0.win 3).blk t).view.emb (ix2 0 q)) = V c main_v11 (ix2 0 q')
  refine congrArg (V c main_v11) ?_
  funext a; apply Fin.ext
  match a with
  | ⟨0, _⟩ => show win0_3.index t (0 : Fin 2) * 1 + 1 * 0 = 0; omega
  | ⟨1, _⟩ => show win0_3.index t (1 : Fin 2) * 64 + 1 * q.val = q'.val; omega

/-! ## What a point writes back, and the cover -/

/-- What point t writes back is block t of the edge message of the arrays at entry: the entry at row p and
    column q of the block sits at row 20000·t + p and column q of the array. -/
theorem flushed_msg (c : Dev nD) (t : Fin cfg0.N) :
    (dat0 (F := Ideal) V c).flushed 4 t = ((cfg0.win 4).blk t).view.read (Elt Ideal)
      (arr2 (msg (mat (n0 := 800000) (n1 := 64) (V c main_v10)) (mat (n0 := 800000) (n1 := 32) (V c main_arg2))
          (mat (n0 := 32) (n1 := 64) (V c main_arg3)) (row (n := 64) (V c main_v11))) : FVec Ideal S800000x64 .f32) := by
  show (cfg0.win 4).cut (grid0.coords t) ((dat0 (F := Ideal) V c).after 4 t) = _
  rw [after0_4]
  funext j
  obtain ⟨p, q, rfl⟩ : ∃ (p : Fin 20000) (q : Fin 64), j = ix2 p q := ⟨j 0, j 1, eq_ix2 j⟩
  show out0_4 (F := Ideal) (iblk0 V c 0 t) (iblk0 V c 1 t) (iblk0 V c 2 t) (iblk0 V c 3 t) (ix2 p q)
    = msg (mat (n0 := 800000) (n1 := 64) (V c main_v10)) (mat (n0 := 800000) (n1 := 32) (V c main_arg2))
          (mat (n0 := 32) (n1 := 64) (V c main_arg3)) (row (n := 64) (V c main_v11))
        ((((cfg0.win 4).blk t).view.emb (ix2 p q)) 0) ((((cfg0.win 4).blk t).view.emb (ix2 p q)) 1)
  obtain ⟨-, -, -, -, -, -, -, -, e0, e1⟩ := blockIndex t
  have hr : ((((cfg0.win 4).blk t).view.emb (ix2 p q)) 0 : Fin 800000).val = 20000 * t.val + p.val := by
    show win0_4.index t (0 : Fin 2) * 20000 + 1 * p.val = _; omega
  have hq : ((((cfg0.win 4).blk t).view.emb (ix2 p q)) 1 : Fin 64).val = q.val := by
    show win0_4.index t (1 : Fin 2) * 64 + 1 * q.val = _; omega
  exact left_eq_msg (mat (n0 := 800000) (n1 := 64) (V c main_v10)) (mat (n0 := 800000) (n1 := 32) (V c main_arg2))
    (mat (n0 := 32) (n1 := 64) (V c main_arg3)) (row (n := 64) (V c main_v11))
    (iblk0 V c 0 t) (iblk0 V c 1 t) (iblk0 V c 2 t) (iblk0 V c 3 t) p q
    ((((cfg0.win 4).blk t).view.emb (ix2 p q)) 0) ((((cfg0.win 4).blk t).view.emb (ix2 p q)) 1)
    (fun k => features_block V c t p k _ hr) (gathered_block V c t p q _ _ hr hq)
    (fun k => weights_block V c t k q _ hq) (bias_block V c t q _ hq)

/-- An index of the output array is in point t's block iff each coordinate is in the block's range on its axis. -/
theorem mem_block (t : Fin cfg0.N) (i : S800000x64.Idx) :
    i ∈ ((cfg0.win 4).blk t).view.set ↔ ∀ a : Fin 2, win0_4.index t a * S20000x64.size a ≤ (i a).val
      ∧ (i a).val < win0_4.index t a * S20000x64.size a + S20000x64.size a := by
  show i ∈ ((View.whole main_v12).slice (win0_4.rect t)).set ↔ _
  rw [View.set_slice_whole, Rect.mem_set_unit]
  exact Iff.rfl

/-- Every index of the output array is in some point's block: row r is in block r / 20000. -/
theorem covered (i : S800000x64.Idx) :
    ∃ t : Fin cfg0.N, (cfg0.win 4).flush t = true ∧ i ∈ ((cfg0.win 4).blk t).view.set := by
  have hi0 : (i 0).val < 800000 := (i 0).isLt
  have hi1 : (i 1).val < 64 := (i 1).isLt
  have hN : cfg0.N = 40 := N_0
  obtain ⟨t, ht⟩ : ∃ t : Fin cfg0.N, t.val = (i 0).val / 20000 := ⟨⟨(i 0).val / 20000, by omega⟩, rfl⟩
  obtain ⟨-, -, -, -, -, -, -, -, e0, e1⟩ := blockIndex t
  refine ⟨t, flush0_4 t, ?_⟩
  rw [mem_block]
  intro a
  match a with
  | ⟨0, _⟩ =>
    show win0_4.index t (0 : Fin 2) * 20000 ≤ (i 0).val ∧ (i 0).val < win0_4.index t (0 : Fin 2) * 20000 + 20000
    omega
  | ⟨1, _⟩ =>
    show win0_4.index t (1 : Fin 2) * 64 ≤ (i 1).val ∧ (i 1).val < win0_4.index t (1 : Fin 2) * 64 + 64
    omega

end EdgeMsg

/-- After region 0 its output array (window 4, `main_v12`) is the edge message of the arrays at entry:
    the gathered rows `main_v10`, the edge features `main_arg2`, the weights `main_arg3`, the bias row `main_v11`. -/
theorem arr0_4 (c : Dev nD) :
    (dat0 (F := Ideal) V c).arrAt 4 cfg0.N
      = (arr2 (msg (mat (n0 := 800000) (n1 := 64) (V c main_v10)) (mat (n0 := 800000) (n1 := 32) (V c main_arg2))
          (mat (n0 := 32) (n1 := 64) (V c main_arg3)) (row (n := 64) (V c main_v11))) : FVec Ideal S800000x64 .f32) :=
  (dat0 (F := Ideal) V c).arrAt_eq_of_cover 4 _ (fun t _ => EdgeMsg.flushed_msg V c t) EdgeMsg.covered

end Cert.KernelIdeal.Val

end
-- ==== Proof.Region1a.lean ====
/-
  Region 1's kernel body, point by point (the first linear layer with the column statistics): what each of the two
  control cases leaves in the three output blocks, as the body's arithmetic of the blocks it loads — generic in the
  float instance —, and that arithmetic read entry by entry on the extended reals: the stored block at (p, j) is
  Σ_k (agg p k + x p k) · W k j + b j (the format changes are the identity there, the product accumulates into zero),
  and each carried row at j is its previous value plus the sum over the block's 10000 rows of the stored block, or of
  its square; the reset stores zero.
-/
import proofs.«141026_j7430293422227_1_alg».proof.Proof.Gen.KernelIdeal.Frame
import Idealize.ShloMosaic.Lib.Pipeline.Value
import Idealize.ShloMosaic.Lib.ValueLayout
import Idealize.ShloMosaic.PureOps.Ideal.Laws

set_option maxRecDepth 16384

noncomputable section

namespace Cert.KernelIdeal.Val.R1

open Cert.KernelIdeal Cert.KernelIdeal.Gen
open Idealize.ShloMosaic Idealize.ShloMosaic.TcCoe Idealize.ShloMosaic.ValueIdx
open Idealize.SL.Sem

/-! ## What each control case leaves in each output block: the body's arithmetic of the loaded blocks

Case A is the first point (the two carried rows are reset, then read back and added into), case B the later points
(the carried rows are read as the point before left them). -/

section Pieces
variable {F : FTy → Type} [FloatOps F]

/-- The zero offset, as the constant function. -/
theorem hz2 : (![0, 0] : Fin 2 → Nat) = fun _ => 0 := funext fun a => by fin_cases a <;> rfl

/-- Case A, output 4: the stored block. -/
theorem out_A_4 (c : Dev nD) (i : grid1.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S10000x64 .f32) (h5 : a5.IsWhole) (a6 : Memref sig .tc .vmem S1x64 .f32) (h6 : a6.IsWhole) (a7 : Memref sig .tc .vmem S1x64 .f32) (h7 : a7.IsWhole) (hc : cond1_0 i) (x0 : Vec F S10000x64 .f32) (x1 : Vec F S10000x64 .f32) (x2 : Vec F S64x64 .f32) (x3 : Vec F S1x64 .f32) :
    out1_A_4 c i a1 h1 a2 h2 a3 h3 a4 h4 a5 h5 a6 h6 a7 h7 hc x0 x1 x2 x3 = k1_pay3 x0 x1 x2 x3 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  sl_unfold_words
  rw [View.canon_unit_zero hz2]
  simp only [View.readAt_eq_ld, h1.read_unread, h2.read_unread, h3.read_unread, h4.read_unread,
    View.ld_unit_zero (S := S10000x64) hz2, View.ld_unit_zero (S := S64x64) hz2, View.ld_unit_zero (S := S1x64) hz2]

/-- Case B, output 4: the stored block. -/
theorem out_B_4 (c : Dev nD) (i : grid1.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S10000x64 .f32) (h5 : a5.IsWhole) (a6 : Memref sig .tc .vmem S1x64 .f32) (h6 : a6.IsWhole) (a7 : Memref sig .tc .vmem S1x64 .f32) (h7 : a7.IsWhole) (hc : ¬cond1_0 i) (x0 : Vec F S10000x64 .f32) (x1 : Vec F S10000x64 .f32) (x2 : Vec F S64x64 .f32) (x3 : Vec F S1x64 .f32) (xo5 xo6 : Vec F S1x64 .f32) :
    out1_B_4 c i a1 h1 a2 h2 a3 h3 a4 h4 a5 h5 a6 h6 a7 h7 hc x0 x1 x2 x3 xo5 xo6 = k1_pay3 x0 x1 x2 x3 := by
  unfold out1_B_4
  rw [View.read_writes_eq_canon _ _ _ (cover1_B_4 c i a1 h1 a2 h2 a3 h3 a4 h4 a5 h5 a6 h6 a7 h7 hc x0 x1 x2 x3 xo5 xo6)]
  unfold kernelRun1_B
  dsimp only
  sl_unfold_words
  rw [View.canon_unit_zero hz2]
  simp only [View.readAt_eq_ld, h1.read_unread, h2.read_unread, h3.read_unread, h4.read_unread, h6.read_unread, h7.read_unread,
    View.ld_unit_zero (S := S10000x64) hz2, View.ld_unit_zero (S := S64x64) hz2, View.ld_unit_zero (S := S1x64) hz2]

/-- Case A, output 5: the carried row added into from the reset value. -/
theorem out_A_5 (c : Dev nD) (i : grid1.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S10000x64 .f32) (h5 : a5.IsWhole) (a6 : Memref sig .tc .vmem S1x64 .f32) (h6 : a6.IsWhole) (a7 : Memref sig .tc .vmem S1x64 .f32) (h7 : a7.IsWhole) (hc : cond1_0 i) (x0 : Vec F S10000x64 .f32) (x1 : Vec F S10000x64 .f32) (x2 : Vec F S64x64 .f32) (x3 : Vec F S1x64 .f32) :
    out1_A_5 c i a1 h1 a2 h2 a3 h3 a4 h4 a5 h5 a6 h6 a7 h7 hc x0 x1 x2 x3 = k1_pay4 x0 x1 x2 x3 (k1_pay1 (F := F)) := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  sl_unfold_words
  rw [View.canon_cons_unit_zero (S := S1x64) hz2, View.readCov_unit_zero (S := S1x64) _ hz2]
  simp only [View.readAt_eq_ld, h1.read_unread, h2.read_unread, h3.read_unread, h4.read_unread,
    View.ld_unit_zero (S := S10000x64) hz2, View.ld_unit_zero (S := S64x64) hz2, View.ld_unit_zero (S := S1x64) hz2]

/-- Case B, output 5: the carried row added into from what it held. -/
theorem out_B_5 (c : Dev nD) (i : grid1.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S10000x64 .f32) (h5 : a5.IsWhole) (a6 : Memref sig .tc .vmem S1x64 .f32) (h6 : a6.IsWhole) (a7 : Memref sig .tc .vmem S1x64 .f32) (h7 : a7.IsWhole) (hc : ¬cond1_0 i) (x0 : Vec F S10000x64 .f32) (x1 : Vec F S10000x64 .f32) (x2 : Vec F S64x64 .f32) (x3 : Vec F S1x64 .f32) (xo5 xo6 : Vec F S1x64 .f32) :
    out1_B_5 c i a1 h1 a2 h2 a3 h3 a4 h4 a5 h5 a6 h6 a7 h7 hc x0 x1 x2 x3 xo5 xo6 = k1_pay4 x0 x1 x2 x3 xo5 := by
  unfold out1_B_5
  rw [View.read_writes_eq_canon _ _ _ (cover1_B_5 c i a1 h1 a2 h2 a3 h3 a4 h4 a5 h5 a6 h6 a7 h7 hc x0 x1 x2 x3 xo5 xo6)]
  unfold kernelRun1_B
  dsimp only
  sl_unfold_words
  rw [View.canon_unit_zero hz2]
  simp only [View.readAt_eq_ld, h1.read_unread, h2.read_unread, h3.read_unread, h4.read_unread, h6.read_unread, h7.read_unread,
    View.ld_unit_zero (S := S10000x64) hz2, View.ld_unit_zero (S := S64x64) hz2, View.ld_unit_zero (S := S1x64) hz2]

/-- Case A, output 6: the carried row added into from the reset value. -/
theorem out_A_6 (c : Dev nD) (i : grid1.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S10000x64 .f32) (h5 : a5.IsWhole) (a6 : Memref sig .tc .vmem S1x64 .f32) (h6 : a6.IsWhole) (a7 : Memref sig .tc .vmem S1x64 .f32) (h7 : a7.IsWhole) (hc : cond1_0 i) (x0 : Vec F S10000x64 .f32) (x1 : Vec F S10000x64 .f32) (x2 : Vec F S64x64 .f32) (x3 : Vec F S1x64 .f32) :
    out1_A_6 c i a1 h1 a2 h2 a3 h3 a4 h4 a5 h5 a6 h6 a7 h7 hc x0 x1 x2 x3 = k1_pay5 x0 x1 x2 x3 (k1_pay2 (F := F)) := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_cons_unit_zero (S := S1x64) hz2, View.readCov_unit_zero (S := S1x64) _ hz2]
  simp only [View.readAt_eq_ld, h1.read_unread, h2.read_unread, h3.read_unread, h4.read_unread,
    View.ld_unit_zero (S := S10000x64) hz2, View.ld_unit_zero (S := S64x64) hz2, View.ld_unit_zero (S := S1x64) hz2]

/-- Case B, output 6: the carried row added into from what it held. -/
theorem out_B_6 (c : Dev nD) (i : grid1.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S10000x64 .f32) (h5 : a5.IsWhole) (a6 : Memref sig .tc .vmem S1x64 .f32) (h6 : a6.IsWhole) (a7 : Memref sig .tc .vmem S1x64 .f32) (h7 : a7.IsWhole) (hc : ¬cond1_0 i) (x0 : Vec F S10000x64 .f32) (x1 : Vec F S10000x64 .f32) (x2 : Vec F S64x64 .f32) (x3 : Vec F S1x64 .f32) (xo5 xo6 : Vec F S1x64 .f32) :
    out1_B_6 c i a1 h1 a2 h2 a3 h3 a4 h4 a5 h5 a6 h6 a7 h7 hc x0 x1 x2 x3 xo5 xo6 = k1_pay5 x0 x1 x2 x3 xo6 := by
  unfold out1_B_6
  rw [View.read_writes_eq_canon _ _ _ (cover1_B_6 c i a1 h1 a2 h2 a3 h3 a4 h4 a5 h5 a6 h6 a7 h7 hc x0 x1 x2 x3 xo5 xo6)]
  unfold kernelRun1_B
  dsimp only
  sl_unfold_words
  rw [View.canon_unit_zero hz2]
  simp only [View.readAt_eq_ld, h1.read_unread, h2.read_unread, h3.read_unread, h4.read_unread, h6.read_unread, h7.read_unread,
    View.ld_unit_zero (S := S10000x64) hz2, View.ld_unit_zero (S := S64x64) hz2, View.ld_unit_zero (S := S1x64) hz2]

end Pieces

/-! ## The body's arithmetic entry by entry, on the extended reals -/

section AtIdeal

/-- The block product at an entry: the sum over the contracted coordinate of the entries' products. -/
theorem matmul1_apply (A : FVec Ideal S10000x64 .bf16) (B : FVec Ideal S64x64 .bf16) (p : Fin 10000) (j : Fin 64) :
    matmul dot_S10000x64_S64x64_S10000x64_1_0_0_1_n_n none A B (constant (F := Ideal) S10000x64 .f32 0x00000000#32) (ix2 p j)
      = ∑ k : Fin 64, A (ix2 p k) * B (ix2 k j) := by
  show FloatOps.matmul dot_S10000x64_S64x64_S10000x64_1_0_0_1_n_n none A B (constant S10000x64 .f32 0x00000000#32) (ix2 p j) = _
  rw [Ideal.matmul_constant_zero_apply, ← Equiv.sum_comp (contrEquiv1 dot_S10000x64_S64x64_S10000x64_1_0_0_1_n_n 64 rfl rfl).symm]
  refine Finset.sum_congr rfl fun k _ => ?_
  have c2 := contrEquiv1_symm_val dot_S10000x64_S64x64_S10000x64_1_0_0_1_n_n 64 rfl rfl k
  have l2 : (dot_S10000x64_S64x64_S10000x64_1_0_0_1_n_n).lhsIdx (ix2 p j) ((contrEquiv1 _ 64 rfl rfl).symm k) = ix2 p k := by
    funext ax; apply Fin.ext
    match ax with
    | ⟨0, _⟩ => simp [DotDims.lhsIdx, dot_S10000x64_S64x64_S10000x64_1_0_0_1_n_n]; rfl
    | ⟨1, _⟩ => simp [DotDims.lhsIdx, dot_S10000x64_S64x64_S10000x64_1_0_0_1_n_n]; exact c2
  have r2 : (dot_S10000x64_S64x64_S10000x64_1_0_0_1_n_n).rhsIdx (ix2 p j) ((contrEquiv1 _ 64 rfl rfl).symm k) = ix2 k j := by
    funext ax; apply Fin.ext
    match ax with
    | ⟨0, _⟩ => simp [DotDims.rhsIdx, dot_S10000x64_S64x64_S10000x64_1_0_0_1_n_n]; exact c2
    | ⟨1, _⟩ => simp [DotDims.rhsIdx, dot_S10000x64_S64x64_S10000x64_1_0_0_1_n_n]; rfl
  rw [l2, r2]

/-- The stored block at an entry: the product's sum plus the bias. -/
theorem pay3_apply (x0 x1 : Vec Ideal S10000x64 .f32) (x2 : Vec Ideal S64x64 .f32) (x3 : Vec Ideal S1x64 .f32) (p : Fin 10000) (j : Fin 64) :
    (k1_pay3 (F := Ideal) x0 x1 x2 x3) (ix2 p j)
      = (∑ k : Fin 64, (x0 (ix2 p k) + x1 (ix2 p k)) * x2 (ix2 k j)) + x3 (ix2 (0 : Fin 1) j) := by
  unfold k1_pay3
  refine (addf_apply _ _ _).trans ?_
  refine congrArg₂ (· + ·) ((matmul1_apply _ _ p j).trans ?_) ((broadcastTo_1b_ab_apply _ _ p j).trans ?_)
  · refine Finset.sum_congr rfl fun k _ => ?_
    rw [shapeCast_self]
    rfl
  · rw [shapeCast_self]

/-- A column sum of a block, laid as a one-row array, at an entry. -/
theorem rowsum_apply (h : FVec Ideal S10000x64 .f32) (j : Fin 64) :
    shapeCast S1x64 (multiReduction .add [0] S64 h 0x00000000#32 reduces_S10000x64_S64 (.inl rfl) rfl) shapeCasts_S64_S1x64
        (ix2 (0 : Fin 1) j) = ∑ p : Fin 10000, h (ix2 p j) := by
  refine (shapeCast_apply _ shapeCasts_S64_S1x64 (ix2 (0 : Fin 1) j) (ix1 j) (by
    rw [Shape.rowMajor_val_two, Shape.rowMajor_val_one]; show j.val = 0 * 64 + j.val; omega)).trans ?_
  refine (Ideal.multiReduction_add_single h 0x00000000#32 reduces_S10000x64_S64 (.inl rfl) rfl (ix1 j)).trans ?_
  show ∑ p : Fin 10000, h (reduces_S10000x64_S64.lift (ix1 j) p) = _
  refine Finset.sum_congr rfl fun p _ => congrArg h ?_
  funext ax
  match ax with
  | ⟨0, _⟩ => rfl
  | ⟨1, _⟩ => rfl

/-- The carried row of sums at an entry: its previous value plus the stored block's column sum. -/
theorem pay4_apply (x0 x1 : Vec Ideal S10000x64 .f32) (x2 : Vec Ideal S64x64 .f32) (x3 acc : Vec Ideal S1x64 .f32) (j : Fin 64) :
    (k1_pay4 (F := Ideal) x0 x1 x2 x3 acc) (ix2 (0 : Fin 1) j)
      = acc (ix2 (0 : Fin 1) j) + ∑ p : Fin 10000, (k1_pay3 (F := Ideal) x0 x1 x2 x3) (ix2 p j) := by
  unfold k1_pay4
  refine (addf_apply _ _ _).trans ?_
  refine congrArg₂ (· + ·) ?_ (rowsum_apply _ j)
  rw [shapeCast_self]

/-- The carried row of sums of squares at an entry: its previous value plus the column sum of the stored block's squares. -/
theorem pay5_apply (x0 x1 : Vec Ideal S10000x64 .f32) (x2 : Vec Ideal S64x64 .f32) (x3 acc : Vec Ideal S1x64 .f32) (j : Fin 64) :
    (k1_pay5 (F := Ideal) x0 x1 x2 x3 acc) (ix2 (0 : Fin 1) j)
      = acc (ix2 (0 : Fin 1) j)
        + ∑ p : Fin 10000, (k1_pay3 (F := Ideal) x0 x1 x2 x3) (ix2 p j) * (k1_pay3 (F := Ideal) x0 x1 x2 x3) (ix2 p j) := by
  unfold k1_pay5
  refine (addf_apply _ _ _).trans ?_
  refine congrArg₂ (· + ·) ?_ ((rowsum_apply _ j).trans (Finset.sum_congr rfl fun p _ => mulf_apply _ _ _))
  rw [shapeCast_self]

/-- The reset value of the row of sums is zero. -/
theorem pay1_apply (j : Fin 64) : (k1_pay1 (F := Ideal)) (ix2 (0 : Fin 1) j) = 0 := by
  unfold k1_pay1
  show Ideal.ofBits .f32 0x00000000#32 = 0
  exact Ideal.ofBits_zero_f32

/-- The reset value of the row of sums of squares is zero. -/
theorem pay2_apply (j : Fin 64) : (k1_pay2 (F := Ideal)) (ix2 (0 : Fin 1) j) = 0 := by
  unfold k1_pay2
  show Ideal.ofBits .f32 0x00000000#32 = 0
  exact Ideal.ofBits_zero_f32

end AtIdeal

end Cert.KernelIdeal.Val.R1

end
-- ==== Proof.Region1.lean ====
/-
  Region 1 (the first linear layer with the column statistics, 5 grid points of 10000 nodes): after the region
  window 4 (`main_v17_0`) holds `hid` of the arrays at entry, window 5 (`main_v17_1`) its column sums and
  window 6 (`main_v17_2`) its column sums of squares — the two [1, 64] outputs are reset at point 0 and added
  into at every point, so after the last point they hold the sum over all five blocks of 10000 rows, which is the
  sum over all 50000 rows.
-/
import proofs.«141026_j7430293422227_1_alg».proof.Proof.Gen.KernelIdeal.Frame
import proofs.«141026_j7430293422227_1_alg».proof.Proof.Spec
import proofs.«141026_j7430293422227_1_alg».proof.Proof.Region1a
import Idealize.ShloMosaic.Lib.Pipeline.Value

set_option maxRecDepth 16384

noncomputable section

namespace Cert.KernelIdeal.Val

open Cert.KernelIdeal Cert.KernelIdeal.Gen Cert.Gin
open Idealize.ShloMosaic Idealize.ShloMosaic.TcCoe Idealize.ShloMosaic.ValueIdx
open Idealize.SL.Sem
open Idealize.ShloMosaic.Pipeline (Dat Cfg Window)

/- The TensorCore's buffer contents when the region is entered, at the ideal instance. -/
variable (V : (c : Dev nD) → (b : Ref sig .tc) → Buf (Elt Ideal) ((c : Thread nD τ).loc b))

/-- `hid` of the arrays region 1 is entered with: the aggregate `main_v15`, the node features `main_arg0`,
    the weights `main_arg5`, the bias row `main_v16`. -/
def hid1 (c : Dev nD) : Fin 50000 → Fin 64 → EReal :=
  hid (mat (n0 := 50000) (n1 := 64) (V c main_v15)) (mat (n0 := 50000) (n1 := 64) (V c main_arg0))
    (mat (n0 := 64) (n1 := 64) (V c main_arg5)) (row (n := 64) (V c main_v16))

namespace R1

/-! ## The blocks the body loads at a point, read off the arrays at entry -/

/-- The aggregate's block of 10000 rows at a point. -/
abbrev aggB (c : Dev nD) (t : Fin cfg1.N) : Vec Ideal S10000x64 .f32 := iblk1 V c 0 t
/-- The node features' block of 10000 rows at a point. -/
abbrev xB (c : Dev nD) (t : Fin cfg1.N) : Vec Ideal S10000x64 .f32 := iblk1 V c 1 t
/-- The weights' one block at a point: the whole matrix. -/
abbrev wB (c : Dev nD) (t : Fin cfg1.N) : Vec Ideal S64x64 .f32 := iblk1 V c 2 t
/-- The bias row's one block at a point: the whole row. -/
abbrev bB (c : Dev nD) (t : Fin cfg1.N) : Vec Ideal S1x64 .f32 := iblk1 V c 3 t

/-- Row `p` of the block of point `s` is row `10000 s + p` of the array. -/
def rowOf (s : Fin 5) (p : Fin 10000) : Fin 50000 := ⟨10000 * s.val + p.val, by have := s.isLt; have := p.isLt; omega⟩

/-- A grid point as a number below 5. -/
def pt (t : Fin cfg1.N) : Fin 5 := ⟨t.val, lt_of_lt_of_eq t.isLt N_1⟩

/-- The block indices of the seven windows at a point: the three row-blocked ones move with the point, the others stay at 0. -/
theorem idx1 : ∀ t : Fin cfg1.N,
    (win1_0.index t 0 = t.val ∧ win1_0.index t 1 = 0) ∧ (win1_1.index t 0 = t.val ∧ win1_1.index t 1 = 0)
    ∧ (win1_2.index t 0 = 0 ∧ win1_2.index t 1 = 0) ∧ (win1_3.index t 0 = 0 ∧ win1_3.index t 1 = 0)
    ∧ (win1_4.index t 0 = t.val ∧ win1_4.index t 1 = 0) ∧ (win1_5.index t 0 = 0 ∧ win1_5.index t 1 = 0)
    ∧ (win1_6.index t 0 = 0 ∧ win1_6.index t 1 = 0) :=
  (by decide +kernel : ∀ t : Fin grid1.N,
    (win1_0.index t 0 = t.val ∧ win1_0.index t 1 = 0) ∧ (win1_1.index t 0 = t.val ∧ win1_1.index t 1 = 0)
    ∧ (win1_2.index t 0 = 0 ∧ win1_2.index t 1 = 0) ∧ (win1_3.index t 0 = 0 ∧ win1_3.index t 1 = 0)
    ∧ (win1_4.index t 0 = t.val ∧ win1_4.index t 1 = 0) ∧ (win1_5.index t 0 = 0 ∧ win1_5.index t 1 = 0)
    ∧ (win1_6.index t 0 = 0 ∧ win1_6.index t 1 = 0))

theorem aggB_apply (c : Dev nD) (t : Fin cfg1.N) (p : Fin 10000) (k : Fin 64) :
    aggB V c t (ix2 p k) = V c main_v15 (ix2 (rowOf (pt t) p) k) := by
  show iblk1 V c 0 t (ix2 p k) = _
  unfold iblk1
  rw [View.read_apply]
  show V c main_v15 _ = V c main_v15 _
  refine congrArg (V c main_v15) (funext fun a => Fin.ext ?_)
  match a with
  | ⟨0, _⟩ => show win1_0.index t 0 * 10000 + 1 * p.val = 10000 * t.val + p.val; rw [(idx1 t).1.1]; omega
  | ⟨1, _⟩ => show win1_0.index t 1 * 64 + 1 * k.val = k.val; rw [(idx1 t).1.2]; omega

theorem xB_apply (c : Dev nD) (t : Fin cfg1.N) (p : Fin 10000) (k : Fin 64) :
    xB V c t (ix2 p k) = V c main_arg0 (ix2 (rowOf (pt t) p) k) := by
  show iblk1 V c 1 t (ix2 p k) = _
  unfold iblk1
  rw [View.read_apply]
  show V c main_arg0 _ = V c main_arg0 _
  refine congrArg (V c main_arg0) (funext fun a => Fin.ext ?_)
  match a with
  | ⟨0, _⟩ => show win1_1.index t 0 * 10000 + 1 * p.val = 10000 * t.val + p.val; rw [(idx1 t).2.1.1]; omega
  | ⟨1, _⟩ => show win1_1.index t 1 * 64 + 1 * k.val = k.val; rw [(idx1 t).2.1.2]; omega

theorem wB_apply (c : Dev nD) (t : Fin cfg1.N) (k j : Fin 64) :
    wB V c t (ix2 k j) = V c main_arg5 (ix2 k j) := by
  show iblk1 V c 2 t (ix2 k j) = _
  unfold iblk1
  rw [View.read_apply]
  show V c main_arg5 _ = V c main_arg5 _
  refine congrArg (V c main_arg5) (funext fun a => Fin.ext ?_)
  match a with
  | ⟨0, _⟩ => show win1_2.index t 0 * 64 + 1 * k.val = k.val; rw [(idx1 t).2.2.1.1]; omega
  | ⟨1, _⟩ => show win1_2.index t 1 * 64 + 1 * j.val = j.val; rw [(idx1 t).2.2.1.2]; omega

theorem bB_apply (c : Dev nD) (t : Fin cfg1.N) (j : Fin 64) :
    bB V c t (ix2 (0 : Fin 1) j) = V c main_v16 (ix2 (0 : Fin 1) j) := by
  show iblk1 V c 3 t (ix2 (0 : Fin 1) j) = _
  unfold iblk1
  rw [View.read_apply]
  show V c main_v16 _ = V c main_v16 _
  refine congrArg (V c main_v16) (funext fun a => Fin.ext ?_)
  match a with
  | ⟨0, _⟩ => show win1_3.index t 0 * 1 + 1 * 0 = 0; rw [(idx1 t).2.2.2.1.1]
  | ⟨1, _⟩ => show win1_3.index t 1 * 64 + 1 * j.val = j.val; rw [(idx1 t).2.2.2.1.2]; omega

/-- What a point stores into its block of the first output, at an entry: `hid` at the block's row of the array. -/
theorem blockval (c : Dev nD) (t : Fin cfg1.N) (p : Fin 10000) (j : Fin 64) :
    (k1_pay3 (F := Ideal) (aggB V c t) (xB V c t) (wB V c t) (bB V c t)) (ix2 p j) = hid1 V c (rowOf (pt t) p) j := by
  refine (pay3_apply _ _ _ _ p j).trans ?_
  unfold hid1 hid
  refine congrArg₂ (· + ·) (Finset.sum_congr rfl fun k _ => ?_) (bB_apply V c t j)
  rw [aggB_apply V c t p k, xB_apply V c t p k, wB_apply V c t k j]

/-! ## The first output: every point writes back its block of `hid`, and the five blocks fill the array -/

/-- After any point the first output's staging block holds `hid` at the point's rows. -/
theorem out4_eq (c : Dev nD) (t : Fin cfg1.N) (p : Fin 10000) (j : Fin 64) :
    (outsAt1 V c t.val t.isLt).1 (ix2 p j) = hid1 V c (rowOf (pt t) p) j := by
  by_cases h0 : t.val % 5 = 0
  · rw [outsAt1_A V c t h0]
    dsimp only
    refine (congrFun (out_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (aggB V c t) (xB V c t) (wB V c t) (bB V c t)) (ix2 p j)).trans ?_
    exact blockval V c t p j
  · rw [outsAt1_B V c t h0]
    dsimp only
    refine (congrFun (out_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (aggB V c t) (xB V c t) (wB V c t) (bB V c t) (outsAt1 V c (t.val - 1) (Nat.lt_of_le_of_lt (Nat.sub_le _ _) t.isLt)).2.1 (outsAt1 V c (t.val - 1) (Nat.lt_of_le_of_lt (Nat.sub_le _ _) t.isLt)).2.2) (ix2 p j)).trans ?_
    exact blockval V c t p j

/-- What a point writes back of the first output is its block of `hid` laid as an array. -/
theorem flushed4_eq (c : Dev nD) (t : Fin cfg1.N) :
    (dat1 (F := Ideal) V c).flushed 4 t
      = ((cfg1.win 4).blk t).view.read (Elt Ideal) (arr2 (hid1 V c) : FVec Ideal S50000x64 .f32) := by
  show (cfg1.win 4).cut (grid1.coords t) ((dat1 V c).after 4 t) = _
  rw [after1_4]
  funext y
  obtain ⟨p, j, rfl⟩ : ∃ (p : Fin 10000) (j : Fin 64), y = ix2 p j := ⟨y 0, y 1, eq_ix2 y⟩
  rw [View.read_apply]
  show (outsAt1 V c t.val t.isLt).1 (ix2 p j)
    = hid1 V c (((cfg1.win 4).blk t).view.emb (ix2 p j) 0) (((cfg1.win 4).blk t).view.emb (ix2 p j) 1)
  rw [out4_eq V c t p j]
  have e0 : ((cfg1.win 4).blk t).view.emb (ix2 p j) 0 = rowOf (pt t) p := Fin.ext (by
    show win1_4.index t 0 * 10000 + 1 * p.val = 10000 * t.val + p.val; rw [(idx1 t).2.2.2.2.1.1]; omega)
  have e1 : ((cfg1.win 4).blk t).view.emb (ix2 p j) 1 = j := Fin.ext (by
    show win1_4.index t 1 * 64 + 1 * j.val = j.val; rw [(idx1 t).2.2.2.2.1.2]; omega)
  rw [e0, e1]

/-- An index of the first output's array is in a point's block when its row is in the point's 10000 rows. -/
theorem mem_blk4 (t : Fin cfg1.N) (i : S50000x64.Idx) :
    i ∈ ((cfg1.win 4).blk t).view.set ↔ ∀ a : Fin 2, win1_4.index t a * S10000x64.size a ≤ (i a).val
      ∧ (i a).val < win1_4.index t a * S10000x64.size a + S10000x64.size a := by
  show i ∈ ((View.whole main_v17_0).slice (win1_4.rect t)).set ↔ _
  rw [View.set_slice_whole, Rect.mem_set_unit]
  exact Iff.rfl

/-- Row `r` is in the block of point `r / 10000`: the five blocks fill the array. -/
theorem cover4 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 5 := N_1
  obtain ⟨t, ht⟩ : ∃ t : Fin cfg1.N, t.val = (i 0).val / 10000 := ⟨⟨(i 0).val / 10000, by omega⟩, rfl⟩
  refine ⟨t, flush1_4 t, ?_⟩
  rw [mem_blk4]
  have e0 := (idx1 t).2.2.2.2.1.1
  have e1 := (idx1 t).2.2.2.2.1.2
  intro a
  match a with
  | ⟨0, _⟩ =>
    show win1_4.index t 0 * 10000 ≤ (i 0).val ∧ (i 0).val < win1_4.index t 0 * 10000 + 10000
    rw [e0]; omega
  | ⟨1, _⟩ =>
    show win1_4.index t 1 * 64 ≤ (i 1).val ∧ (i 1).val < win1_4.index t 1 * 64 + 64
    rw [e1]; omega

/-! ## The two carried rows: the running sums over the points, and the sum over all rows after the last -/

/-- The running sum, from zero, of a per-point addend over the points up to `n`. -/
def accS (g : Fin 5 → EReal) : (n : ℕ) → n < 5 → EReal
  | 0, h => 0 + g ⟨0, h⟩
  | n + 1, h => accS g n (Nat.lt_of_succ_lt h) + g ⟨n + 1, h⟩

/-- After the last of the five points the running sum is the sum over the five points. -/
theorem accS_four (g : Fin 5 → EReal) : accS g 4 (by decide) = ∑ s : Fin 5, g s := by
  rw [Fin.sum_univ_five]
  show 0 + g 0 + g 1 + g 2 + g 3 + g 4 = _
  rw [zero_add]

/-- Five blocks of 10000 rows are the 50000 rows: the double sum over (point, row of the block) is the sum over the rows. -/
theorem sum_rows (f : Fin 50000 → EReal) : ∑ s : Fin 5, ∑ p : Fin 10000, f (rowOf s p) = ∑ r : Fin 50000, f r := by
  rw [← Equiv.sum_comp (finProdFinEquiv : Fin 5 × Fin 10000 ≃ Fin 50000) f, Fintype.sum_prod_type]
  refine Finset.sum_congr rfl fun s _ => Finset.sum_congr rfl fun p _ => congrArg f (Fin.ext ?_)
  show 10000 * s.val + p.val = p.val + 10000 * s.val
  omega

/-- At the first point the carried row of sums is reset and then added into: zero plus the point's block sum. -/
theorem out5_first (c : Dev nD) (t : Fin cfg1.N) (h0 : t.val % 5 = 0) (j : Fin 64) :
    (outsAt1 V c t.val t.isLt).2.1 (ix2 (0 : Fin 1) j) = 0 + ∑ p : Fin 10000, hid1 V c (rowOf (pt t) p) j := by
  rw [outsAt1_A V c t h0]
  dsimp only
  refine (congrFun (out_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (aggB V c t) (xB V c t) (wB V c t) (bB V c t)) (ix2 (0 : Fin 1) j)).trans ?_
  refine (pay4_apply _ _ _ _ _ j).trans ?_
  rw [pay1_apply]
  refine congrArg (0 + ·) (Finset.sum_congr rfl fun p _ => ?_)
  rw [blockval V c t p j]

/-- At a later point the carried row is what the point before left plus the point's block sum. -/
theorem out5_later (c : Dev nD) (t : Fin cfg1.N) (h0 : ¬t.val % 5 = 0) (j : Fin 64) :
    (outsAt1 V c t.val t.isLt).2.1 (ix2 (0 : Fin 1) j)
      = (outsAt1 V c (t.val - 1) (Nat.lt_of_le_of_lt (Nat.sub_le _ _) t.isLt)).2.1 (ix2 (0 : Fin 1) j)
        + ∑ p : Fin 10000, hid1 V c (rowOf (pt t) p) j := by
  rw [outsAt1_B V c t h0]
  dsimp only
  refine (congrFun (out_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (aggB V c t) (xB V c t) (wB V c t) (bB V c t) (outsAt1 V c (t.val - 1) (Nat.lt_of_le_of_lt (Nat.sub_le _ _) t.isLt)).2.1 (outsAt1 V c (t.val - 1) (Nat.lt_of_le_of_lt (Nat.sub_le _ _) t.isLt)).2.2) (ix2 (0 : Fin 1) j)).trans ?_
  refine (pay4_apply _ _ _ _ _ j).trans ?_
  refine congrArg (_ + ·) (Finset.sum_congr rfl fun p _ => ?_)
  rw [blockval V c t p j]

/-- After point `n` the carried row holds the running sum of the block sums of the points up to `n`. -/
theorem out5_eq (c : Dev nD) (j : Fin 64) : ∀ (n : ℕ) (h : n < cfg1.N),
    (outsAt1 V c n h).2.1 (ix2 (0 : Fin 1) j)
      = accS (fun s => ∑ p : Fin 10000, hid1 V c (rowOf s p) j) n (lt_of_lt_of_eq h N_1)
  | 0, h => out5_first V c ⟨0, h⟩ rfl j
  | n + 1, h => by
    have hN : cfg1.N = 5 := N_1
    have hB : ¬(⟨n + 1, h⟩ : Fin cfg1.N).val % 5 = 0 := by dsimp only; omega
    refine (out5_later V c ⟨n + 1, h⟩ hB j).trans ?_
    show (outsAt1 V c n _).2.1 (ix2 (0 : Fin 1) j) + _ = accS _ n _ + _
    rw [out5_eq c j n]
    rfl

/-- After the last point the carried row holds the sum over all 50000 rows. -/
theorem out5_last (c : Dev nD) (t : Fin cfg1.N) (h4 : t.val = 4) (j : Fin 64) :
    (outsAt1 V c t.val t.isLt).2.1 (ix2 (0 : Fin 1) j) = colsum (hid1 V c) j := by
  rw [out5_eq V c j t.val t.isLt]
  unfold colsum
  rw [← sum_rows (fun r => hid1 V c r j)]
  have key : ∀ (g : Fin 5 → EReal) (n : ℕ) (h5 : n < 5), n = 4 → accS g n h5 = ∑ s : Fin 5, g s := by
    rintro g n h5 rfl; exact accS_four g
  exact key _ t.val _ h4

/-- The one write-back of the second output, at the last point, writes the sum over all rows. -/
theorem flushed5_eq (c : Dev nD) (t : Fin cfg1.N) (hf : (cfg1.win 5).flush t = true) :
    (dat1 (F := Ideal) V c).flushed 5 t
      = ((cfg1.win 5).blk t).view.read (Elt Ideal) (arrRow (colsum (hid1 V c)) : FVec Ideal S1x64 .f32) := by
  have hN : cfg1.N = 5 := N_1
  have h4 : t.val = 4 := by have := (flush1_5 t).mp hf; have := t.isLt; omega
  have hsum := out5_last V c t h4
  generalize colsum (hid1 V c) = G at hsum ⊢
  have hrow : (outsAt1 V c t.val t.isLt).2.1 = (arrRow G : FVec Ideal S1x64 .f32) := by
    funext y
    obtain ⟨u, j, rfl⟩ : ∃ (u : Fin 1) (j : Fin 64), y = ix2 u j := ⟨y 0, y 1, eq_ix2 y⟩
    obtain rfl : u = 0 := Subsingleton.elim _ _
    exact hsum j
  show (cfg1.win 5).cut (grid1.coords t) ((dat1 V c).after 5 t) = _
  rw [after1_5, hrow]
  have hz' : (fun a => win1_5.index t a * main_v17_1.ty.shape.size a) = fun _ => 0 := funext fun a => by
    match a with
    | ⟨0, _⟩ => show win1_5.index t 0 * 1 = 0; rw [(idx1 t).2.2.2.2.2.1.1]
    | ⟨1, _⟩ => show win1_5.index t 1 * 64 = 0; rw [(idx1 t).2.2.2.2.2.1.2]
  exact (Memref.read_access_unit_zero (Elt Ideal) main_v17_1 hz' (fun a => by rw [congrFun hz' a]; simp) (arrRow G)).symm

/-- An index of the second output's one-row array is in every point's block: the block is the array. -/
theorem mem_blk5 (t : Fin cfg1.N) (i : S1x64.Idx) :
    i ∈ ((cfg1.win 5).blk t).view.set ↔ ∀ a : Fin 2, win1_5.index t a * S1x64.size a ≤ (i a).val
      ∧ (i a).val < win1_5.index t a * S1x64.size a + S1x64.size a := by
  show i ∈ ((View.whole main_v17_1).slice (win1_5.rect t)).set ↔ _
  rw [View.set_slice_whole, Rect.mem_set_unit]
  exact Iff.rfl

/-- The last point writes back, and its block is the whole one-row array. -/
theorem cover5 (i : S1x64.Idx) :
    ∃ t : Fin cfg1.N, (cfg1.win 5).flush t = true ∧ i ∈ ((cfg1.win 5).blk t).view.set := by
  have hi0 : (i 0).val < 1 := (i 0).isLt
  have hi1 : (i 1).val < 64 := (i 1).isLt
  have hN : cfg1.N = 5 := N_1
  obtain ⟨t, ht⟩ : ∃ t : Fin cfg1.N, t.val = 4 := ⟨⟨4, by omega⟩, rfl⟩
  refine ⟨t, (flush1_5 t).mpr (by rw [ht]), ?_⟩
  rw [mem_blk5]
  have e0 := (idx1 t).2.2.2.2.2.1.1
  have e1 := (idx1 t).2.2.2.2.2.1.2
  intro a
  match a with
  | ⟨0, _⟩ =>
    show win1_5.index t 0 * 1 ≤ (i 0).val ∧ (i 0).val < win1_5.index t 0 * 1 + 1
    rw [e0]; omega
  | ⟨1, _⟩ =>
    show win1_5.index t 1 * 64 ≤ (i 1).val ∧ (i 1).val < win1_5.index t 1 * 64 + 64
    rw [e1]; omega

/-- At the first point the carried row of sums of squares is reset and then added into: zero plus the point's block sum. -/
theorem out6_first (c : Dev nD) (t : Fin cfg1.N) (h0 : t.val % 5 = 0) (j : Fin 64) :
    (outsAt1 V c t.val t.isLt).2.2 (ix2 (0 : Fin 1) j) = 0 + ∑ p : Fin 10000, hid1 V c (rowOf (pt t) p) j * hid1 V c (rowOf (pt t) p) j := by
  rw [outsAt1_A V c t h0]
  dsimp only
  refine (congrFun (out_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (aggB V c t) (xB V c t) (wB V c t) (bB V c t)) (ix2 (0 : Fin 1) j)).trans ?_
  refine (pay5_apply _ _ _ _ _ j).trans ?_
  rw [pay2_apply]
  refine congrArg (0 + ·) (Finset.sum_congr rfl fun p _ => ?_)
  rw [blockval V c t p j]

/-- At a later point the carried row is what the point before left plus the point's block sum. -/
theorem out6_later (c : Dev nD) (t : Fin cfg1.N) (h0 : ¬t.val % 5 = 0) (j : Fin 64) :
    (outsAt1 V c t.val t.isLt).2.2 (ix2 (0 : Fin 1) j)
      = (outsAt1 V c (t.val - 1) (Nat.lt_of_le_of_lt (Nat.sub_le _ _) t.isLt)).2.2 (ix2 (0 : Fin 1) j)
        + ∑ p : Fin 10000, hid1 V c (rowOf (pt t) p) j * hid1 V c (rowOf (pt t) p) j := by
  rw [outsAt1_B V c t h0]
  dsimp only
  refine (congrFun (out_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (aggB V c t) (xB V c t) (wB V c t) (bB V c t) (outsAt1 V c (t.val - 1) (Nat.lt_of_le_of_lt (Nat.sub_le _ _) t.isLt)).2.1 (outsAt1 V c (t.val - 1) (Nat.lt_of_le_of_lt (Nat.sub_le _ _) t.isLt)).2.2) (ix2 (0 : Fin 1) j)).trans ?_
  refine (pay5_apply _ _ _ _ _ j).trans ?_
  refine congrArg (_ + ·) (Finset.sum_congr rfl fun p _ => ?_)
  rw [blockval V c t p j]

/-- After point `n` the carried row holds the running sum of the block sums of the points up to `n`. -/
theorem out6_eq (c : Dev nD) (j : Fin 64) : ∀ (n : ℕ) (h : n < cfg1.N),
    (outsAt1 V c n h).2.2 (ix2 (0 : Fin 1) j)
      = accS (fun s => ∑ p : Fin 10000, hid1 V c (rowOf s p) j * hid1 V c (rowOf s p) j) n (lt_of_lt_of_eq h N_1)
  | 0, h => out6_first V c ⟨0, h⟩ rfl j
  | n + 1, h => by
    have hN : cfg1.N = 5 := N_1
    have hB : ¬(⟨n + 1, h⟩ : Fin cfg1.N).val % 5 = 0 := by dsimp only; omega
    refine (out6_later V c ⟨n + 1, h⟩ hB j).trans ?_
    show (outsAt1 V c n _).2.2 (ix2 (0 : Fin 1) j) + _ = accS _ n _ + _
    rw [out6_eq c j n]
    rfl

/-- After the last point the carried row holds the sum over all 50000 rows. -/
theorem out6_last (c : Dev nD) (t : Fin cfg1.N) (h4 : t.val = 4) (j : Fin 64) :
    (outsAt1 V c t.val t.isLt).2.2 (ix2 (0 : Fin 1) j) = colsumsq (hid1 V c) j := by
  rw [out6_eq V c j t.val t.isLt]
  unfold colsumsq
  rw [← sum_rows (fun r => hid1 V c r j * hid1 V c r j)]
  have key : ∀ (g : Fin 5 → EReal) (n : ℕ) (h5 : n < 5), n = 4 → accS g n h5 = ∑ s : Fin 5, g s := by
    rintro g n h5 rfl; exact accS_four g
  exact key _ t.val _ h4

/-- The one write-back of the third output, at the last point, writes the sum over all rows. -/
theorem flushed6_eq (c : Dev nD) (t : Fin cfg1.N) (hf : (cfg1.win 6).flush t = true) :
    (dat1 (F := Ideal) V c).flushed 6 t
      = ((cfg1.win 6).blk t).view.read (Elt Ideal) (arrRow (colsumsq (hid1 V c)) : FVec Ideal S1x64 .f32) := by
  have hN : cfg1.N = 5 := N_1
  have h4 : t.val = 4 := by have := (flush1_6 t).mp hf; have := t.isLt; omega
  have hsum := out6_last V c t h4
  generalize colsumsq (hid1 V c) = G at hsum ⊢
  have hrow : (outsAt1 V c t.val t.isLt).2.2 = (arrRow G : FVec Ideal S1x64 .f32) := by
    funext y
    obtain ⟨u, j, rfl⟩ : ∃ (u : Fin 1) (j : Fin 64), y = ix2 u j := ⟨y 0, y 1, eq_ix2 y⟩
    obtain rfl : u = 0 := Subsingleton.elim _ _
    exact hsum j
  show (cfg1.win 6).cut (grid1.coords t) ((dat1 V c).after 6 t) = _
  rw [after1_6, hrow]
  have hz' : (fun a => win1_6.index t a * main_v17_2.ty.shape.size a) = fun _ => 0 := funext fun a => by
    match a with
    | ⟨0, _⟩ => show win1_6.index t 0 * 1 = 0; rw [(idx1 t).2.2.2.2.2.2.1]
    | ⟨1, _⟩ => show win1_6.index t 1 * 64 = 0; rw [(idx1 t).2.2.2.2.2.2.2]
  exact (Memref.read_access_unit_zero (Elt Ideal) main_v17_2 hz' (fun a => by rw [congrFun hz' a]; simp) (arrRow G)).symm

/-- An index of the third output's one-row array is in every point's block: the block is the array. -/
theorem mem_blk6 (t : Fin cfg1.N) (i : S1x64.Idx) :
    i ∈ ((cfg1.win 6).blk t).view.set ↔ ∀ a : Fin 2, win1_6.index t a * S1x64.size a ≤ (i a).val
      ∧ (i a).val < win1_6.index t a * S1x64.size a + S1x64.size a := by
  show i ∈ ((View.whole main_v17_2).slice (win1_6.rect t)).set ↔ _
  rw [View.set_slice_whole, Rect.mem_set_unit]
  exact Iff.rfl

/-- The last point writes back, and its block is the whole one-row array. -/
theorem cover6 (i : S1x64.Idx) :
    ∃ t : Fin cfg1.N, (cfg1.win 6).flush t = true ∧ i ∈ ((cfg1.win 6).blk t).view.set := by
  have hi0 : (i 0).val < 1 := (i 0).isLt
  have hi1 : (i 1).val < 64 := (i 1).isLt
  have hN : cfg1.N = 5 := N_1
  obtain ⟨t, ht⟩ : ∃ t : Fin cfg1.N, t.val = 4 := ⟨⟨4, by omega⟩, rfl⟩
  refine ⟨t, (flush1_6 t).mpr (by rw [ht]), ?_⟩
  rw [mem_blk6]
  have e0 := (idx1 t).2.2.2.2.2.2.1
  have e1 := (idx1 t).2.2.2.2.2.2.2
  intro a
  match a with
  | ⟨0, _⟩ =>
    show win1_6.index t 0 * 1 ≤ (i 0).val ∧ (i 0).val < win1_6.index t 0 * 1 + 1
    rw [e0]; omega
  | ⟨1, _⟩ =>
    show win1_6.index t 1 * 64 ≤ (i 1).val ∧ (i 1).val < win1_6.index t 1 * 64 + 64
    rw [e1]; omega

end R1

/-- After region 1 window 4's array is `hid` of the arrays at entry. -/
theorem arr1_4 (c : Dev nD) :
    (dat1 (F := Ideal) V c).arrAt 4 cfg1.N = (arr2 (hid1 V c) : FVec Ideal S50000x64 .f32) :=
  (dat1 (F := Ideal) V c).arrAt_eq_of_cover 4 (arr2 (hid1 V c)) (fun t _ => R1.flushed4_eq V c t) R1.cover4

/-- After region 1 window 5's array is the column sums of `hid`. -/
theorem arr1_5 (c : Dev nD) :
    (dat1 (F := Ideal) V c).arrAt 5 cfg1.N = (arrRow (colsum (hid1 V c)) : FVec Ideal S1x64 .f32) :=
  (dat1 (F := Ideal) V c).arrAt_eq_of_cover 5 (arrRow (colsum (hid1 V c))) (fun t hf => R1.flushed5_eq V c t hf) R1.cover5

/-- After region 1 window 6's array is the column sums of squares of `hid`. -/
theorem arr1_6 (c : Dev nD) :
    (dat1 (F := Ideal) V c).arrAt 6 cfg1.N = (arrRow (colsumsq (hid1 V c)) : FVec Ideal S1x64 .f32) :=
  (dat1 (F := Ideal) V c).arrAt_eq_of_cover 6 (arrRow (colsumsq (hid1 V c))) (fun t hf => R1.flushed6_eq V c t hf) R1.cover6

end Cert.KernelIdeal.Val

end
-- ==== Proof.Region2.lean ====
/-
  Region 2 (normalisation, positive part and the second linear layer, 5 grid points of 10000 nodes): after the
  region the output array (window 7, `main_v27`) holds `outF` of the arrays at entry — block t is rows
  10000·t … 10000·t + 9999, and the five blocks tile the 50000 rows.
-/
import proofs.«141026_j7430293422227_1_alg».proof.Proof.Gen.KernelIdeal.Frame
import proofs.«141026_j7430293422227_1_alg».proof.Proof.Spec
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.Gin
open Idealize.ShloMosaic Idealize.ShloMosaic.TcCoe Idealize.ShloMosaic.ValueIdx
open Idealize.SL.Sem
open Idealize.ShloMosaic.Pipeline (Dat Cfg Window)

/- The TensorCore's buffer contents when the region is entered, at the ideal instance. -/
variable (V : (c : Dev nD) → (b : Ref sig .tc) → Buf (Elt Ideal) ((c : Thread nD τ).loc b))

/-! The lemmas of this region are kept in a namespace of their own; the region's result `arr2_7` follows it. -/
namespace R2

/-! ## The second linear layer's product, read at a row and a column

The product contracts the left operand's columns with the right operand's rows: at output index (p, q) and
contraction position k the left operand is read at (p, k) and the right at (k, q). -/

/-- The left operand's row is the output's row. -/
theorem prodL_row (i : S10000x64.Idx) (k : dot_S10000x64_S64x64_S10000x64_1_0_0_1_n_n.contr.Idx) :
    (dot_S10000x64_S64x64_S10000x64_1_0_0_1_n_n.lhsIdx i k 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- The left operand's column is the contraction position. -/
theorem prodL_col (i : S10000x64.Idx) (k : dot_S10000x64_S64x64_S10000x64_1_0_0_1_n_n.contr.Idx) :
    (dot_S10000x64_S64x64_S10000x64_1_0_0_1_n_n.lhsIdx i k 1).val = (k ⟨0, by decide⟩).val :=
  dot_S10000x64_S64x64_S10000x64_1_0_0_1_n_n.lhsIdx_val_of_single rfl i k

/-- The right operand's row is the contraction position. -/
theorem prodR_row (i : S10000x64.Idx) (k : dot_S10000x64_S64x64_S10000x64_1_0_0_1_n_n.contr.Idx) :
    (dot_S10000x64_S64x64_S10000x64_1_0_0_1_n_n.rhsIdx i k 0).val = (k ⟨0, by decide⟩).val :=
  dot_S10000x64_S64x64_S10000x64_1_0_0_1_n_n.rhsIdx_val_of_single rfl i k

/-- The right operand's column is the output's column. -/
theorem prodR_col (i : S10000x64.Idx) (k : dot_S10000x64_S64x64_S10000x64_1_0_0_1_n_n.contr.Idx) :
    (dot_S10000x64_S64x64_S10000x64_1_0_0_1_n_n.rhsIdx i k 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The product into the zero accumulator at (p, q) is the sum over k of left (p, k) times right (k, q). -/
theorem prod_apply {φ₁ φ₂ : FTy} (A : FVec Ideal S10000x64 φ₁) (B : FVec Ideal S64x64 φ₂) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact prodL_row _ _
      | ⟨1, _⟩ => exact (prodL_col _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (prodR_row _ _).trans hk
      | ⟨1, _⟩ => exact prodR_col _ _)
  rw [el, er]

/-! ## The body's stored value at a row and a column of the block -/

/-- The reciprocal square root at an index is the extended reals'. -/
theorem rsqrt_apply {s : Shape} {φ : FTy} (a : FVec Ideal s φ) (i : s.Idx) : rsqrt a i = Ideal.rsqrt (a i) := rfl

/-- The value the body stores, at row p and column q of its block: the hidden row p, normalised column by column
    by the mean row and the variance row, scaled and shifted, its positive part taken, multiplied into the weights'
    column q, plus the bias at q. -/
theorem pay_apply (h : FVec Ideal S10000x64 .f32) (v mu ga be : FVec Ideal S1x64 .f32) (w : FVec Ideal S64x64 .f32)
    (b2 : FVec Ideal S1x64 .f32) (p : Fin 10000) (q : Fin 64) :
    k2_pay1 (F := Ideal) h v mu ga be w b2 (ix2 p q)
      = (∑ k : Fin 64, max ((((h (ix2 p k) - mu (ix2 0 k)) * Ideal.rsqrt (v (ix2 0 k) + cEps)) * ga (ix2 0 k)) + be (ix2 0 k)) cZero
            * w (ix2 k q)) + b2 (ix2 0 q) := by
  unfold k2_pay1
  refine (addf_apply _ _ _).trans (congrArg₂ (· + ·) ?_ ?_)
  · refine (prod_apply _ _ p q).trans (Finset.sum_congr rfl fun k _ => congrArg₂ (· * ·) ?_ rfl)
    simp only [truncf_apply, maximumf_apply, addf_apply, mulf_apply, subf_apply, broadcast_apply, rsqrt_apply,
      shapeCast_self, broadcastTo_1b_ab_apply]
    rfl
  · exact (broadcastTo_1b_ab_apply _ _ p q).trans (congrFun (shapeCast_self b2 _) _)

/-! ## The blocks a grid point reads and the block it writes

Grid point t reads rows 10000·t … 10000·t + 9999 of the hidden layer and the whole of every row vector and of the
weights, and writes rows 10000·t … 10000·t + 9999 of the output. -/

theorem hz : (![0, 0] : Fin 2 → Nat) = fun _ => 0 := funext fun a => by fin_cases a <;> rfl

/-- The printed index maps, decided over the five grid points: the hidden layer's and the output's block index is
    (t, 0); every other window's is (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- A row of block t sits below row 50000 of the array. -/
theorem row_lt (t : Fin cfg2.N) (p : Fin 10000) : t.val * 10000 + p.val < 50000 := by
  have hN : cfg2.N = 5 := N_2
  have := t.isLt; have := p.isLt; omega

/-- The hidden layer's block at point t, at (p, k), is the hidden layer at (10000·t + p, k). -/
theorem hidden_block (c : Dev nD) (t : Fin cfg2.N) (p : Fin 10000) (k : Fin 64) :
    (iblk2 V c 0 t : FVec Ideal S10000x64 .f32) (ix2 p k)
      = (V c main_v17_0 : FVec Ideal S50000x64 .f32) (ix2 ⟨t.val * 10000 + p.val, row_lt t p⟩ k) := by
  have e := idx_facts t
  unfold iblk2
  rw [View.read_apply]
  show V c main_v17_0 _ = V c main_v17_0 _
  congr 1
  funext a; apply Fin.ext
  match a with
  | ⟨0, _⟩ => show win2_0.index t (0 : Fin 2) * 10000 + 1 * p.val = t.val * 10000 + p.val; omega
  | ⟨1, _⟩ => show win2_0.index t (1 : Fin 2) * 64 + 1 * k.val = k.val; omega

/-- The mean row's block at any point is the mean row. -/
theorem mean_block (c : Dev nD) (t : Fin cfg2.N) (k : Fin 64) :
    (iblk2 V c 1 t : FVec Ideal S1x64 .f32) (ix2 0 k) = (V c main_v19 : FVec Ideal S1x64 .f32) (ix2 0 k) := by
  have e := idx_facts t
  unfold iblk2
  rw [View.read_apply]
  show V c main_v19 _ = V c main_v19 _
  congr 1
  funext a; apply Fin.ext
  match a with
  | ⟨0, _⟩ => show win2_1.index t (0 : Fin 2) * 1 + 1 * 0 = 0; omega
  | ⟨1, _⟩ => show win2_1.index t (1 : Fin 2) * 64 + 1 * k.val = k.val; omega

/-- The variance row's block at any point is the variance row. -/
theorem var_block (c : Dev nD) (t : Fin cfg2.N) (k : Fin 64) :
    (iblk2 V c 2 t : FVec Ideal S1x64 .f32) (ix2 0 k) = (V c main_v23 : FVec Ideal S1x64 .f32) (ix2 0 k) := by
  have e := idx_facts t
  unfold iblk2
  rw [View.read_apply]
  show V c main_v23 _ = V c main_v23 _
  congr 1
  funext a; apply Fin.ext
  match a with
  | ⟨0, _⟩ => show win2_2.index t (0 : Fin 2) * 1 + 1 * 0 = 0; omega
  | ⟨1, _⟩ => show win2_2.index t (1 : Fin 2) * 64 + 1 * k.val = k.val; omega

/-- The scale row's block at any point is the scale row. -/
theorem scale_block (c : Dev nD) (t : Fin cfg2.N) (k : Fin 64) :
    (iblk2 V c 3 t : FVec Ideal S1x64 .f32) (ix2 0 k) = (V c main_v24 : FVec Ideal S1x64 .f32) (ix2 0 k) := by
  have e := idx_facts t
  unfold iblk2
  rw [View.read_apply]
  show V c main_v24 _ = V c main_v24 _
  congr 1
  funext a; apply Fin.ext
  match a with
  | ⟨0, _⟩ => show win2_3.index t (0 : Fin 2) * 1 + 1 * 0 = 0; omega
  | ⟨1, _⟩ => show win2_3.index t (1 : Fin 2) * 64 + 1 * k.val = k.val; omega

/-- The shift row's block at any point is the shift row. -/
theorem shift_block (c : Dev nD) (t : Fin cfg2.N) (k : Fin 64) :
    (iblk2 V c 4 t : FVec Ideal S1x64 .f32) (ix2 0 k) = (V c main_v25 : FVec Ideal S1x64 .f32) (ix2 0 k) := by
  have e := idx_facts t
  unfold iblk2
  rw [View.read_apply]
  show V c main_v25 _ = V c main_v25 _
  congr 1
  funext a; apply Fin.ext
  match a with
  | ⟨0, _⟩ => show win2_4.index t (0 : Fin 2) * 1 + 1 * 0 = 0; omega
  | ⟨1, _⟩ => show win2_4.index t (1 : Fin 2) * 64 + 1 * k.val = k.val; omega

/-- The weights' block at any point is the weights. -/
theorem weight_block (c : Dev nD) (t : Fin cfg2.N) (k q : Fin 64) :
    (iblk2 V c 5 t : FVec Ideal S64x64 .f32) (ix2 k q) = (V c main_arg9 : FVec Ideal S64x64 .f32) (ix2 k q) := by
  have e := idx_facts t
  unfold iblk2
  rw [View.read_apply]
  show V c main_arg9 _ = V c main_arg9 _
  congr 1
  funext a; apply Fin.ext
  match a with
  | ⟨0, _⟩ => show win2_5.index t (0 : Fin 2) * 64 + 1 * k.val = k.val; omega
  | ⟨1, _⟩ => show win2_5.index t (1 : Fin 2) * 64 + 1 * q.val = q.val; omega

/-- The bias row's block at any point is the bias row. -/
theorem bias_block (c : Dev nD) (t : Fin cfg2.N) (k : Fin 64) :
    (iblk2 V c 6 t : FVec Ideal S1x64 .f32) (ix2 0 k) = (V c main_v26 : FVec Ideal S1x64 .f32) (ix2 0 k) := by
  have e := idx_facts t
  unfold iblk2
  rw [View.read_apply]
  show V c main_v26 _ = V c main_v26 _
  congr 1
  funext a; apply Fin.ext
  match a with
  | ⟨0, _⟩ => show win2_6.index t (0 : Fin 2) * 1 + 1 * 0 = 0; omega
  | ⟨1, _⟩ => show win2_6.index t (1 : Fin 2) * 64 + 1 * k.val = k.val; omega

/-- ONE BLOCK OF THE OUTPUT. If a block of the hidden layer holds rows n·10000 + p of the array H, and the row
    vectors and the weights read are the whole arrays, then what the body stores at a block index is `outF` of the
    arrays at the array index n·10000 rows further down. -/
theorem block_value (H : FVec Ideal S50000x64 .f32) (MU VA GA BE B2 : FVec Ideal S1x64 .f32) (W : FVec Ideal S64x64 .f32)
    (x0 : FVec Ideal S10000x64 .f32) (x1 x2 x3 x4 x6 : FVec Ideal S1x64 .f32) (x5 : FVec Ideal S64x64 .f32) (n : ℕ)
    (h0 : ∀ (p : Fin 10000) (k : Fin 64) (hp : n * 10000 + p.val < 50000), x0 (ix2 p k) = H (ix2 ⟨n * 10000 + p.val, hp⟩ k))
    (h1 : ∀ k : Fin 64, x1 (ix2 0 k) = MU (ix2 0 k)) (h2 : ∀ k : Fin 64, x2 (ix2 0 k) = VA (ix2 0 k))
    (h3 : ∀ k : Fin 64, x3 (ix2 0 k) = GA (ix2 0 k)) (h4 : ∀ k : Fin 64, x4 (ix2 0 k) = BE (ix2 0 k))
    (h5 : ∀ k q : Fin 64, x5 (ix2 k q) = W (ix2 k q)) (h6 : ∀ q : Fin 64, x6 (ix2 0 q) = B2 (ix2 0 q))
    (j : S10000x64.Idx) (i : S50000x64.Idx) (hi0 : (i 0).val = n * 10000 + (j 0).val) (hi1 : (i 1).val = (j 1).val) :
    k2_pay1 (F := Ideal) x0 x2 x1 x3 x4 x5 x6 j
      = (arr2 (outF (mat (n0 := 50000) (n1 := 64) H) (row (n := 64) MU) (row (n := 64) VA)
          (row (n := 64) GA) (row (n := 64) BE) (mat (n0 := 64) (n1 := 64) W) (row (n := 64) B2)) : FVec Ideal S50000x64 .f32) i := by
  obtain ⟨p, q, rfl⟩ : ∃ (p : Fin 10000) (q : Fin 64), j = ix2 p q := ⟨j 0, j 1, eq_ix2 j⟩
  have hp : n * 10000 + p.val < 50000 := by
    have hlt : (i 0).val < 50000 := idx2_lt0 i
    have e0 : (i 0).val = n * 10000 + p.val := hi0
    omega
  obtain rfl : i = ix2 ⟨n * 10000 + p.val, hp⟩ q := Shape.idx_ext₂ hi0 hi1
  rw [pay_apply]
  show _ = (∑ k : Fin 64, max ((((H (ix2 ⟨n * 10000 + p.val, hp⟩ k) - MU (ix2 0 k)) * Ideal.rsqrt (VA (ix2 0 k) + cEps)) * GA (ix2 0 k))
      + BE (ix2 0 k)) cZero * W (ix2 k q)) + B2 (ix2 0 q)
  simp only [h0 _ _ hp, h1, h2, h3, h4, h5, h6]

/-- WHAT POINT t WRITES BACK is block t of `outF` of the arrays as the region finds them. -/
theorem flushed_eq (c : Dev nD) (t : Fin cfg2.N) :
    (dat2 (F := Ideal) V c).flushed 7 t = ((cfg2.win 7).blk t).view.read (Elt Ideal) (arr2 (outF (mat (n0 := 50000) (n1 := 64) (V c main_v17_0)) (row (n := 64) (V c main_v19)) (row (n := 64) (V c main_v23))
          (row (n := 64) (V c main_v24)) (row (n := 64) (V c main_v25)) (mat (n0 := 64) (n1 := 64) (V c main_arg9))
          (row (n := 64) (V c main_v26))) : FVec Ideal S50000x64 .f32) := by
  show (cfg2.win 7).cut (grid2.coords t) ((dat2 V c).after 7 t) = _
  rw [after2_7]
  unfold out2_7
  rw [View.canon_unit_zero hz]
  simp only [View.ld_unit_zero (S := S10000x64) hz, View.ld_unit_zero (S := S1x64) hz, View.ld_unit_zero (S := S64x64) hz]
  funext j
  have e := idx_facts t
  exact block_value (V c main_v17_0) (V c main_v19) (V c main_v23) (V c main_v24) (V c main_v25) (V c main_v26) (V c main_arg9)
    (iblk2 V c 0 t) (iblk2 V c 1 t) (iblk2 V c 2 t) (iblk2 V c 3 t) (iblk2 V c 4 t) (iblk2 V c 6 t) (iblk2 V c 5 t) t.val
    (fun p k _ => hidden_block V c t p k) (mean_block V c t) (var_block V c t) (scale_block V c t) (shift_block V c t)
    (weight_block V c t) (bias_block V c t) j (((cfg2.win 7).blk t).view.emb j)
    (by show win2_7.index t (0 : Fin 2) * 10000 + 1 * (j 0).val = t.val * 10000 + (j 0).val; omega)
    (by show win2_7.index t (1 : Fin 2) * 64 + 1 * (j 1).val = (j 1).val; omega)

/-! ## From the blocks to the array

Row r of the output lies in block r / 10000, so the five blocks cover the 50000 rows. -/

/-- An index of the output is in point t's block iff each coordinate is in the block's range on its axis. -/
theorem mem_blk (t : Fin cfg2.N) (i : S50000x64.Idx) :
    i ∈ ((cfg2.win 7).blk t).view.set
      ↔ ∀ a : Fin 2, win2_7.index t a * S10000x64.size a ≤ (i a).val
          ∧ (i a).val < win2_7.index t a * S10000x64.size a + S10000x64.size a := by
  show i ∈ ((View.whole main_v27).slice (win2_7.rect t)).set ↔ _
  rw [View.set_slice_whole, Rect.mem_set_unit]
  exact Iff.rfl

/-- Every index of the output is in the block of some point that writes back: the point r / 10000 for row r. -/
theorem covered (i : S50000x64.Idx) :
    ∃ t : Fin cfg2.N, (cfg2.win 7).flush t = true ∧ i ∈ ((cfg2.win 7).blk t).view.set := by
  have hN : cfg2.N = 5 := N_2
  have h0 : (i 0).val < 50000 := idx2_lt0 i
  have h1 : (i 1).val < 64 := idx2_lt1 i
  have ht : (i 0).val / 10000 < cfg2.N := by omega
  have e := idx_facts ⟨(i 0).val / 10000, ht⟩
  refine ⟨⟨(i 0).val / 10000, ht⟩, flush2_7 _, ?_⟩
  rw [mem_blk]
  intro a
  match a with
  | ⟨0, _⟩ =>
    show win2_7.index ⟨(i 0).val / 10000, ht⟩ (0 : Fin 2) * 10000 ≤ (i 0).val
      ∧ (i 0).val < win2_7.index ⟨(i 0).val / 10000, ht⟩ (0 : Fin 2) * 10000 + 10000
    have e7 : win2_7.index ⟨(i 0).val / 10000, ht⟩ (0 : Fin 2) = (i 0).val / 10000 := e.2.2.2.2.2.2.2.2.2.2.2.2.2.2.1
    omega
  | ⟨1, _⟩ =>
    show win2_7.index ⟨(i 0).val / 10000, ht⟩ (1 : Fin 2) * 64 ≤ (i 1).val
      ∧ (i 1).val < win2_7.index ⟨(i 0).val / 10000, ht⟩ (1 : Fin 2) * 64 + 64
    have e7 : win2_7.index ⟨(i 0).val / 10000, ht⟩ (1 : Fin 2) = 0 := e.2.2.2.2.2.2.2.2.2.2.2.2.2.2.2
    omega

end R2

/-- After region 2 its output array is `outF` of the arrays at entry: the hidden layer `main_v17_0`, the mean row
    `main_v19`, the variance row `main_v23`, the scale row `main_v24`, the shift row `main_v25`, the weights
    `main_arg9`, the bias row `main_v26`. -/
theorem arr2_7 (c : Dev nD) :
    (dat2 (F := Ideal) V c).arrAt 7 cfg2.N
      = (arr2 (outF (mat (n0 := 50000) (n1 := 64) (V c main_v17_0)) (row (n := 64) (V c main_v19)) (row (n := 64) (V c main_v23))
          (row (n := 64) (V c main_v24)) (row (n := 64) (V c main_v25)) (mat (n0 := 64) (n1 := 64) (V c main_arg9))
          (row (n := 64) (V c main_v26))) : FVec Ideal S50000x64 .f32) :=
  (dat2 (F := Ideal) V c).arrAt_eq_of_cover 7 _ (fun t _ => R2.flushed_eq V c t) R2.covered

end Cert.KernelIdeal.Val

end
-- ==== Proof.KernelHost.lean ====
/-
  The kernel's program as a function of its arguments: the host operations before and between the three
  regions read back (the index chains, the gather of the source rows, the scatter-add into the target nodes, the
  [64] -> [1, 64] reshapes, mean = sum / 50000 and var = sumsq / 50000 − mean²), each region's output array by its
  value lemma, and the result array `main_v27` at the last boundary as `outF` of the hidden layer, its mean and
  its variance in the "mean of squares minus square of mean" form.
-/
import proofs.«141026_j7430293422227_1_alg».proof.Proof.Gen.KernelIdeal.Frame
import proofs.«141026_j7430293422227_1_alg».proof.Proof.Spec
import proofs.«141026_j7430293422227_1_alg».proof.Proof.Region0
import proofs.«141026_j7430293422227_1_alg».proof.Proof.Region1
import proofs.«141026_j7430293422227_1_alg».proof.Proof.Region2
import Idealize.ShloMosaic.Lib.StableHlo.Run
import Idealize.ShloMosaic.Lib.ValueLayout
import Idealize.ShloMosaic.Lib.IdealHost

set_option maxRecDepth 16384

noncomputable section

namespace Cert.KernelIdeal.Val

open Cert.KernelIdeal Cert.Gin
open Idealize.ShloMosaic Idealize.ShloMosaic.TcCoe Idealize.ShloMosaic.ValueIdx
open Idealize.SL.Sem

/-- The source node of every edge as the gather's start indices: row 0 of the edge index, a negative entry counted
    from the end (plus 50000), as a column. -/
def srcIdx (ei : IVec S2x800000 32) : IVec S800000x1 32 :=
  broadcastInDim S800000x1 ![0] Facts₀.bcast_S800000_S800000x1_0
    (select
      (cmpi .slt (shapeCast S800000 (extractStridedSlice S1x800000 ![0, 0] ei Facts₀.slices_S2x800000_S1x800000_0_0) Facts₀.shapeCasts_S1x800000_S800000)
        (broadcastInDim S800000 ![] Facts₀.bcast_S_S800000 (constantI S_ 32 0#32)))
      (addi (shapeCast S800000 (extractStridedSlice S1x800000 ![0, 0] ei Facts₀.slices_S2x800000_S1x800000_0_0) Facts₀.shapeCasts_S1x800000_S800000)
        (broadcastInDim S800000 ![] Facts₀.bcast_S_S800000 (constantI S_ 32 50000#32)))
      (shapeCast S800000 (extractStridedSlice S1x800000 ![0, 0] ei Facts₀.slices_S2x800000_S1x800000_0_0) Facts₀.shapeCasts_S1x800000_S800000))

/-- The target node of every edge as the scatter's indices: row 1 of the edge index, as a column. -/
def dstIdx (ei : IVec S2x800000 32) : IVec S800000x1 32 :=
  broadcastInDim S800000x1 ![0] Facts₀.bcast_S800000_S800000x1_0
    (shapeCast S800000 (extractStridedSlice S1x800000 ![1, 0] ei Facts₀.slices_S2x800000_S1x800000_1_0) Facts₀.shapeCasts_S1x800000_S800000)

/-- The source rows of the node features, one per edge. -/
def gathered (x : FVec Ideal S50000x64 .f32) (ei : IVec S2x800000 32) : FVec Ideal S800000x64 .f32 :=
  Host.gather gather_S50000x64_S800000x1_S800000x64_1_0_n_n_0_1_164 x (srcIdx ei)

/-- The per-edge rows `upd` summed into their target nodes, from zero. -/
def aggregate (ei : IVec S2x800000 32) (upd : FVec Ideal S800000x64 .f32) : FVec Ideal S50000x64 .f32 :=
  Host.scatterAdd scatter_S50000x64_S800000x1_S800000x64_1_0_0_1
    (broadcastInDim S50000x64 ![] Facts₀.bcast_S_S50000x64 (constant (F := Ideal) S_ .f32 0x00000000#32)) (dstIdx ei) upd

/-- The hidden layer as a function of the argument arrays: the edge messages of the gathered rows, aggregated
    into their target nodes, plus the node's own features, through the first linear layer. -/
def hidOf (x : FVec Ideal S50000x64 .f32) (ei : IVec S2x800000 32) (ea : FVec Ideal S800000x32 .f32)
    (We : FVec Ideal S32x64 .f32) (be : FVec Ideal S64 .f32) (W1 : FVec Ideal S64x64 .f32) (b1 : FVec Ideal S64 .f32) :
    Fin 50000 → Fin 64 → EReal :=
  hid (mat (n0 := 50000) (n1 := 64) (aggregate ei (arr2 (msg (mat (n0 := 800000) (n1 := 64) (gathered x ei))
        (mat (n0 := 800000) (n1 := 32) ea) (mat (n0 := 32) (n1 := 64) We) (vec (n := 64) be)))))
    (mat (n0 := 50000) (n1 := 64) x) (mat (n0 := 64) (n1 := 64) W1) (vec (n := 64) b1)

variable (m : (ℓ : Loc nD τ sig) → Buf (Elt Ideal) ℓ) (ρ : Dev nD → PrngReg)

/-- The hidden layer of the launch memory's argument arrays. -/
def hK (c : Dev nD) : Fin 50000 → Fin 64 → EReal :=
  hidOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-! # The buffers read back through the run, boundary by boundary

Each boundary's contents are the boundary before with one stretch of host operations applied, or with one region's
arrays replaced by what the region leaves. A buffer is read by walking back: through a stretch, to the operation that
wrote it (applied to the buffers it read) or, if none did, to the same buffer one boundary earlier; through a region,
to the region's value for an output array and to the same buffer at entry for anything else. -/

namespace Walk

/-! ## Region 0's entry: the gathered rows, the edge features, the weights and the bias row -/

theorem V1_v10 (c : Dev nD) :
    (Gen.V1 (F := Ideal) m ρ c main_v10 : FVec Ideal S800000x64 .f32)
      = gathered (m ((c.tc : Thread nD τ).loc main_arg0)) (m ((c.tc : Thread nD τ).loc main_arg1)) := by
  dsimp only [Gen.V1, Gen.W1]
  simp only [Gen.hostOps0]
  after_results
  rfl

theorem V1_arg2 (c : Dev nD) :
    Gen.V1 (F := Ideal) m ρ c main_arg2 = m ((c.tc : Thread nD τ).loc main_arg2) := by
  dsimp only [Gen.V1, Gen.W1]
  simp only [Gen.hostOps0]
  after_results

theorem V1_arg3 (c : Dev nD) :
    Gen.V1 (F := Ideal) m ρ c main_arg3 = m ((c.tc : Thread nD τ).loc main_arg3) := by
  dsimp only [Gen.V1, Gen.W1]
  simp only [Gen.hostOps0]
  after_results

theorem V1_v11 (c : Dev nD) :
    (Gen.V1 (F := Ideal) m ρ c main_v11 : FVec Ideal S1x64 .f32)
      = shapeCast S1x64 (m ((c.tc : Thread nD τ).loc main_arg4)) Facts₀.shapeCasts_S64_S1x64 := by
  dsimp only [Gen.V1, Gen.W1]
  simp only [Gen.hostOps0]
  after_results
  rfl

/-- A [64] array recast as [1, 64], read as a row, is the array read as a vector. -/
theorem row_shapeCast (x : FVec Ideal S64 .f32) :
    row (n := 64) (shapeCast S1x64 x Facts₀.shapeCasts_S64_S1x64) = vec (n := 64) x :=
  funext fun j => shapeCast_a_1a_apply x Facts₀.shapeCasts_S64_S1x64 0 j

/-- At region 0's exit its output array is the edge message of the gathered rows and the arguments. -/
theorem W2_v12 (c : Dev nD) :
    (Gen.W2 (F := Ideal) m ρ c (Proc.devRef .tc main_v12) : FVec Ideal S800000x64 .f32)
      = arr2 (msg (mat (n0 := 800000) (n1 := 64)
            (gathered (m ((c.tc : Thread nD τ).loc main_arg0)) (m ((c.tc : Thread nD τ).loc main_arg1))))
          (mat (n0 := 800000) (n1 := 32) (m ((c.tc : Thread nD τ).loc main_arg2)))
          (mat (n0 := 32) (n1 := 64) (m ((c.tc : Thread nD τ).loc main_arg3)))
          (vec (n := 64) (m ((c.tc : Thread nD τ).loc main_arg4)))) := by
  refine (Gen.W2_arr m ρ c 4).trans ?_
  rw [arr0_4 (Gen.V1 m ρ) c, V1_v10, V1_arg2, V1_arg3, V1_v11, row_shapeCast]

/-! ## Region 0's exit: the buffers region 0 does not touch are as the first stretch of host operations left them -/

/-- Row 1 of the edge index as a vector, where the second stretch reads it. -/
theorem W2_v3 (c : Dev nD) :
    (Gen.W2 (F := Ideal) m ρ c (Proc.devRef .tc main_v3) : IVec S800000 32)
      = shapeCast S800000 (extractStridedSlice S1x800000 ![1, 0] (m ((c.tc : Thread nD τ).loc main_arg1))
          Facts₀.slices_S2x800000_S1x800000_1_0) Facts₀.shapeCasts_S1x800000_S800000 := by
  rw [Gen.W2_of_ne m ρ c main_v3 (by decide)]
  dsimp only [Gen.W1]
  simp only [Gen.hostOps0]
  after_results
  rfl

theorem W2_arg0 (c : Dev nD) :
    Gen.W2 (F := Ideal) m ρ c (Proc.devRef .tc main_arg0) = m ((c.tc : Thread nD τ).loc main_arg0) := by
  rw [Gen.W2_of_ne m ρ c main_arg0 (by decide)]
  dsimp only [Gen.W1]
  simp only [Gen.hostOps0]
  after_results

theorem W2_arg5 (c : Dev nD) :
    Gen.W2 (F := Ideal) m ρ c (Proc.devRef .tc main_arg5) = m ((c.tc : Thread nD τ).loc main_arg5) := by
  rw [Gen.W2_of_ne m ρ c main_arg5 (by decide)]
  dsimp only [Gen.W1]
  simp only [Gen.hostOps0]
  after_results

theorem W2_arg6 (c : Dev nD) :
    Gen.W2 (F := Ideal) m ρ c (Proc.devRef .tc main_arg6) = m ((c.tc : Thread nD τ).loc main_arg6) := by
  rw [Gen.W2_of_ne m ρ c main_arg6 (by decide)]
  dsimp only [Gen.W1]
  simp only [Gen.hostOps0]
  after_results

theorem W2_arg7 (c : Dev nD) :
    Gen.W2 (F := Ideal) m ρ c (Proc.devRef .tc main_arg7) = m ((c.tc : Thread nD τ).loc main_arg7) := by
  rw [Gen.W2_of_ne m ρ c main_arg7 (by decide)]
  dsimp only [Gen.W1]
  simp only [Gen.hostOps0]
  after_results

theorem W2_arg8 (c : Dev nD) :
    Gen.W2 (F := Ideal) m ρ c (Proc.devRef .tc main_arg8) = m ((c.tc : Thread nD τ).loc main_arg8) := by
  rw [Gen.W2_of_ne m ρ c main_arg8 (by decide)]
  dsimp only [Gen.W1]
  simp only [Gen.hostOps0]
  after_results

theorem W2_arg9 (c : Dev nD) :
    Gen.W2 (F := Ideal) m ρ c (Proc.devRef .tc main_arg9) = m ((c.tc : Thread nD τ).loc main_arg9) := by
  rw [Gen.W2_of_ne m ρ c main_arg9 (by decide)]
  dsimp only [Gen.W1]
  simp only [Gen.hostOps0]
  after_results

theorem W2_arg10 (c : Dev nD) :
    Gen.W2 (F := Ideal) m ρ c (Proc.devRef .tc main_arg10) = m ((c.tc : Thread nD τ).loc main_arg10) := by
  rw [Gen.W2_of_ne m ρ c main_arg10 (by decide)]
  dsimp only [Gen.W1]
  simp only [Gen.hostOps0]
  after_results

/-! ## Region 1's entry: the aggregate, the node features, the weights and the bias row -/

theorem V3_v15 (c : Dev nD) :
    (Gen.V3 (F := Ideal) m ρ c main_v15 : FVec Ideal S50000x64 .f32)
      = aggregate (m ((c.tc : Thread nD τ).loc main_arg1)) (Gen.W2 (F := Ideal) m ρ c (Proc.devRef .tc main_v12)) := by
  dsimp only [Gen.V3, Gen.W3]
  simp only [Gen.hostOps1]
  after_results
  rw [W2_v3]
  rfl

theorem V3_arg0 (c : Dev nD) :
    Gen.V3 (F := Ideal) m ρ c main_arg0 = m ((c.tc : Thread nD τ).loc main_arg0) := by
  dsimp only [Gen.V3, Gen.W3]
  simp only [Gen.hostOps1]
  after_results
  exact W2_arg0 m ρ c

theorem V3_arg5 (c : Dev nD) :
    Gen.V3 (F := Ideal) m ρ c main_arg5 = m ((c.tc : Thread nD τ).loc main_arg5) := by
  dsimp only [Gen.V3, Gen.W3]
  simp only [Gen.hostOps1]
  after_results
  exact W2_arg5 m ρ c

theorem V3_v16 (c : Dev nD) :
    (Gen.V3 (F := Ideal) m ρ c main_v16 : FVec Ideal S1x64 .f32)
      = shapeCast S1x64 (m ((c.tc : Thread nD τ).loc main_arg6)) Facts₀.shapeCasts_S64_S1x64 := by
  dsimp only [Gen.V3, Gen.W3]
  simp only [Gen.hostOps1]
  after_results
  rw [W2_arg6]
  rfl

/-- The hidden layer region 1 computes from its entry contents is the hidden layer of the launch memory's arguments. -/
theorem hid1_eq (c : Dev nD) : hid1 (Gen.V3 (F := Ideal) m ρ) c = hK m c := by
  unfold hid1 hK hidOf
  rw [V3_v15, V3_arg0, V3_arg5, V3_v16, row_shapeCast, W2_v12]

/-! ## Region 1's exit: the hidden layer, its column sums and its column sums of squares -/

theorem W4_v17_0 (c : Dev nD) :
    (Gen.W4 (F := Ideal) m ρ c (Proc.devRef .tc main_v17_0) : FVec Ideal S50000x64 .f32) = arr2 (hK m c) := by
  refine (Gen.W4_arr m ρ c 4).trans ?_
  rw [arr1_4 (Gen.V3 m ρ) c, hid1_eq]

theorem W4_v17_1 (c : Dev nD) :
    (Gen.W4 (F := Ideal) m ρ c (Proc.devRef .tc main_v17_1) : FVec Ideal S1x64 .f32) = arrRow (colsum (hK m c)) := by
  refine (Gen.W4_arr m ρ c 5).trans ?_
  rw [arr1_5 (Gen.V3 m ρ) c, hid1_eq]

theorem W4_v17_2 (c : Dev nD) :
    (Gen.W4 (F := Ideal) m ρ c (Proc.devRef .tc main_v17_2) : FVec Ideal S1x64 .f32) = arrRow (colsumsq (hK m c)) := by
  refine (Gen.W4_arr m ρ c 6).trans ?_
  rw [arr1_6 (Gen.V3 m ρ) c, hid1_eq]

theorem W4_arg7 (c : Dev nD) :
    Gen.W4 (F := Ideal) m ρ c (Proc.devRef .tc main_arg7) = m ((c.tc : Thread nD τ).loc main_arg7) := by
  rw [Gen.W4_of_ne m ρ c main_arg7 (by decide)]
  dsimp only [Gen.W3]
  simp only [Gen.hostOps1]
  after_results
  exact W2_arg7 m ρ c

theorem W4_arg8 (c : Dev nD) :
    Gen.W4 (F := Ideal) m ρ c (Proc.devRef .tc main_arg8) = m ((c.tc : Thread nD τ).loc main_arg8) := by
  rw [Gen.W4_of_ne m ρ c main_arg8 (by decide)]
  dsimp only [Gen.W3]
  simp only [Gen.hostOps1]
  after_results
  exact W2_arg8 m ρ c

theorem W4_arg9 (c : Dev nD) :
    Gen.W4 (F := Ideal) m ρ c (Proc.devRef .tc main_arg9) = m ((c.tc : Thread nD τ).loc main_arg9) := by
  rw [Gen.W4_of_ne m ρ c main_arg9 (by decide)]
  dsimp only [Gen.W3]
  simp only [Gen.hostOps1]
  after_results
  exact W2_arg9 m ρ c

theorem W4_arg10 (c : Dev nD) :
    Gen.W4 (F := Ideal) m ρ c (Proc.devRef .tc main_arg10) = m ((c.tc : Thread nD τ).loc main_arg10) := by
  rw [Gen.W4_of_ne m ρ c main_arg10 (by decide)]
  dsimp only [Gen.W3]
  simp only [Gen.hostOps1]
  after_results
  exact W2_arg10 m ρ c

/-! ## Region 2's entry: the hidden layer, the mean row, the variance row, the scale, shift and bias rows, the weights -/

/-- The number of nodes as a [1, 64] array: the constant's word broadcast. -/
def nRow : FVec Ideal S1x64 .f32 :=
  broadcastInDim S1x64 ![] Facts₀.bcast_S_S1x64 (constant (F := Ideal) S_ .f32 0x47435000#32)

theorem nRow_apply (i : S1x64.Idx) : nRow i = cN := by
  unfold nRow
  rw [broadcastInDim_scalar_apply, constant_apply]

theorem V5_v17_0 (c : Dev nD) :
    (Gen.V5 (F := Ideal) m ρ c main_v17_0 : FVec Ideal S50000x64 .f32) = arr2 (hK m c) := by
  dsimp only [Gen.V5, Gen.W5]
  simp only [Gen.hostOps2]
  after_results
  exact W4_v17_0 m ρ c

theorem V5_v19 (c : Dev nD) :
    (Gen.V5 (F := Ideal) m ρ c main_v19 : FVec Ideal S1x64 .f32)
      = Host.divf (F := Ideal) (arrRow (colsum (hK m c)) : FVec Ideal S1x64 .f32) nRow := by
  dsimp only [Gen.V5, Gen.W5]
  simp only [Gen.hostOps2]
  after_results
  rw [W4_v17_1]
  rfl

theorem V5_v23 (c : Dev nD) :
    (Gen.V5 (F := Ideal) m ρ c main_v23 : FVec Ideal S1x64 .f32)
      = subf (Host.divf (F := Ideal) (arrRow (colsumsq (hK m c)) : FVec Ideal S1x64 .f32) nRow)
          (mulf (Host.divf (F := Ideal) (arrRow (colsum (hK m c)) : FVec Ideal S1x64 .f32) nRow)
            (Host.divf (F := Ideal) (arrRow (colsum (hK m c)) : FVec Ideal S1x64 .f32) nRow)) := by
  dsimp only [Gen.V5, Gen.W5]
  simp only [Gen.hostOps2]
  after_results
  rw [W4_v17_1, W4_v17_2]
  rfl

theorem V5_v24 (c : Dev nD) :
    (Gen.V5 (F := Ideal) m ρ c main_v24 : FVec Ideal S1x64 .f32)
      = shapeCast S1x64 (m ((c.tc : Thread nD τ).loc main_arg7)) Facts₀.shapeCasts_S64_S1x64 := by
  dsimp only [Gen.V5, Gen.W5]
  simp only [Gen.hostOps2]
  after_results
  rw [W4_arg7]
  rfl

theorem V5_v25 (c : Dev nD) :
    (Gen.V5 (F := Ideal) m ρ c main_v25 : FVec Ideal S1x64 .f32)
      = shapeCast S1x64 (m ((c.tc : Thread nD τ).loc main_arg8)) Facts₀.shapeCasts_S64_S1x64 := by
  dsimp only [Gen.V5, Gen.W5]
  simp only [Gen.hostOps2]
  after_results
  rw [W4_arg8]
  rfl

theorem V5_v26 (c : Dev nD) :
    (Gen.V5 (F := Ideal) m ρ c main_v26 : FVec Ideal S1x64 .f32)
      = shapeCast S1x64 (m ((c.tc : Thread nD τ).loc main_arg10)) Facts₀.shapeCasts_S64_S1x64 := by
  dsimp only [Gen.V5, Gen.W5]
  simp only [Gen.hostOps2]
  after_results
  rw [W4_arg10]
  rfl

theorem V5_arg9 (c : Dev nD) :
    Gen.V5 (F := Ideal) m ρ c main_arg9 = m ((c.tc : Thread nD τ).loc main_arg9) := by
  dsimp only [Gen.V5, Gen.W5]
  simp only [Gen.hostOps2]
  after_results
  exact W4_arg9 m ρ c

/-- The mean row is the column sums divided by the number of nodes. -/
theorem row_V5_v19 (c : Dev nD) : row (n := 64) (Gen.V5 (F := Ideal) m ρ c main_v19) = mean (hK m c) := by
  rw [V5_v19]
  funext j
  show Host.divf (F := Ideal) (arrRow (colsum (hK m c)) : FVec Ideal S1x64 .f32) nRow (ix2 0 j) = _
  rw [hostDivf_apply, nRow_apply]
  rfl

/-- The variance row is the column sums of squares divided by the number of nodes, minus the square of the mean. -/
theorem row_V5_v23 (c : Dev nD) : row (n := 64) (Gen.V5 (F := Ideal) m ρ c main_v23) = varK (hK m c) := by
  rw [V5_v23]
  funext j
  show subf _ _ (ix2 0 j) = _
  rw [subf_apply, mulf_apply, hostDivf_apply, hostDivf_apply, nRow_apply]
  rfl

end Walk

open Walk

/-- The result array at the last boundary of the run is `outF` of the hidden layer, its mean, its variance as the
    mean of squares minus the square of the mean, and the remaining arguments. -/
theorem kernel_value (c : Dev nD) :
    Gen.W6 (F := Ideal) m ρ c (Proc.devRef .tc main_v27)
      = (arr2 (outF (hK m c) (mean (hK m c)) (varK (hK m c))
          (vec (n := 64) (m ((c.tc : Thread nD τ).loc main_arg7))) (vec (n := 64) (m ((c.tc : Thread nD τ).loc main_arg8)))
          (mat (n0 := 64) (n1 := 64) (m ((c.tc : Thread nD τ).loc main_arg9)))
          (vec (n := 64) (m ((c.tc : Thread nD τ).loc main_arg10)))) : FVec Ideal S50000x64 .f32) := by
  refine (Gen.W6_arr m ρ c 7).trans ?_
  rw [arr2_7 (Gen.V5 m ρ) c, V5_v17_0, row_V5_v19, row_V5_v23, V5_v24, V5_v25, V5_v26, V5_arg9,
    row_shapeCast, row_shapeCast, row_shapeCast, mat_arr2]

end Cert.KernelIdeal.Val

end
-- ==== Proof.RefStages.lean ====
/-
  The reference's @main as functions of its argument arrays, stage by stage in its own operations: the edge
  message x[src] + (ea·We + be), its scatter-add into the target nodes, the hidden layer (agg + 1·x)·W1 + b1, the
  mean sum/50000, jnp.var's body (the mean of the squared deviations, its divisor 50000 − ddof with ddof = 0 and the
  guard "divisor > 0, else NaN"), and normalisation, scale, shift, positive part and the second linear layer.
  The first five definitions are, word for word, the ones the kernel's side states over its own program.
-/
import proofs.«141026_j7430293422227_1_alg».proof.ReferenceIdeal
import proofs.«141026_j7430293422227_1_alg».proof.Proof.Gen.ReferenceIdeal
import proofs.«141026_j7430293422227_1_alg».proof.Proof.Spec

noncomputable section

namespace Cert.ReferenceIdeal.Val

open Cert.ReferenceIdeal Cert.Gin
open Idealize.ShloMosaic Idealize.ShloMosaic.ValueIdx

/-- The source node of every edge as the gather's start indices: row 0 of the edge index, a negative entry counted
    from the end (plus 50000), as a column. -/
def srcIdx (ei : IVec S2x800000 32) : IVec S800000x1 32 :=
  broadcastInDim S800000x1 ![0] Facts₀.bcast_S800000_S800000x1_0
    (select
      (cmpi .slt (shapeCast S800000 (extractStridedSlice S1x800000 ![0, 0] ei Facts₀.slices_S2x800000_S1x800000_0_0) Facts₀.shapeCasts_S1x800000_S800000)
        (broadcastInDim S800000 ![] Facts₀.bcast_S_S800000 (constantI S_ 32 0#32)))
      (addi (shapeCast S800000 (extractStridedSlice S1x800000 ![0, 0] ei Facts₀.slices_S2x800000_S1x800000_0_0) Facts₀.shapeCasts_S1x800000_S800000)
        (broadcastInDim S800000 ![] Facts₀.bcast_S_S800000 (constantI S_ 32 50000#32)))
      (shapeCast S800000 (extractStridedSlice S1x800000 ![0, 0] ei Facts₀.slices_S2x800000_S1x800000_0_0) Facts₀.shapeCasts_S1x800000_S800000))

/-- The target node of every edge as the scatter's indices: row 1 of the edge index, as a column. -/
def dstIdx (ei : IVec S2x800000 32) : IVec S800000x1 32 :=
  broadcastInDim S800000x1 ![0] Facts₀.bcast_S800000_S800000x1_0
    (shapeCast S800000 (extractStridedSlice S1x800000 ![1, 0] ei Facts₀.slices_S2x800000_S1x800000_1_0) Facts₀.shapeCasts_S1x800000_S800000)

/-- The source rows of the node features, one per edge. -/
def gathered (x : FVec Ideal S50000x64 .f32) (ei : IVec S2x800000 32) : FVec Ideal S800000x64 .f32 :=
  Host.gather gather_S50000x64_S800000x1_S800000x64_1_0_n_n_0_1_164 x (srcIdx ei)

/-- The per-edge rows `upd` summed into their target nodes, from zero. -/
def aggregate (ei : IVec S2x800000 32) (upd : FVec Ideal S800000x64 .f32) : FVec Ideal S50000x64 .f32 :=
  Host.scatterAdd scatter_S50000x64_S800000x1_S800000x64_1_0_0_1
    (broadcastInDim S50000x64 ![] Facts₀.bcast_S_S50000x64 (constant (F := Ideal) S_ .f32 0x00000000#32)) (dstIdx ei) upd

/-- The hidden layer as a function of the argument arrays: the edge messages of the gathered rows, aggregated
    into their target nodes, plus the node's own features, through the first linear layer. -/
def hidOf (x : FVec Ideal S50000x64 .f32) (ei : IVec S2x800000 32) (ea : FVec Ideal S800000x32 .f32)
    (We : FVec Ideal S32x64 .f32) (be : FVec Ideal S64 .f32) (W1 : FVec Ideal S64x64 .f32) (b1 : FVec Ideal S64 .f32) :
    Fin 50000 → Fin 64 → EReal :=
  hid (mat (n0 := 50000) (n1 := 64) (aggregate ei (arr2 (msg (mat (n0 := 800000) (n1 := 64) (gathered x ei))
        (mat (n0 := 800000) (n1 := 32) ea) (mat (n0 := 32) (n1 := 64) We) (vec (n := 64) be)))))
    (mat (n0 := 50000) (n1 := 64) x) (mat (n0 := 64) (n1 := 64) W1) (vec (n := 64) b1)

/-- A [64] array as every row of a [50000, 64] array (through [1, 64]). -/
def rows50000 (v : FVec Ideal S64 .f32) : FVec Ideal S50000x64 .f32 :=
  broadcastInDim S50000x64 ![0, 1] Facts₀.bcast_S1x64_S50000x64_0_1 (broadcastInDim S1x64 ![1] Facts₀.bcast_S64_S1x64_1 v)

/-- The float zero as a scalar array. -/
def zero0 : FVec Ideal S_ .f32 := constant (F := Ideal) S_ .f32 0x00000000#32
/-- The float 50000 as a scalar array. -/
def n0 : FVec Ideal S_ .f32 := constant (F := Ideal) S_ .f32 0x47435000#32

/-- %15: the edge message, x[src] + (ea·We + be). -/
def stMsg (x : FVec Ideal S50000x64 .f32) (ei : IVec S2x800000 32) (ea : FVec Ideal S800000x32 .f32)
    (We : FVec Ideal S32x64 .f32) (be : FVec Ideal S64 .f32) : FVec Ideal S800000x64 .f32 :=
  addf (gathered x ei)
    (addf (Host.dotGeneral dot_S800000x32_S32x64_S800000x64_1_0_0_1_n_n none ea We)
      (broadcastInDim S800000x64 ![0, 1] Facts₀.bcast_S1x64_S800000x64_0_1 (broadcastInDim S1x64 ![1] Facts₀.bcast_S64_S1x64_1 be)))

/-- %25: the hidden layer, (agg + 1·x)·W1 + b1. -/
def stH (x : FVec Ideal S50000x64 .f32) (ei : IVec S2x800000 32) (ea : FVec Ideal S800000x32 .f32)
    (We : FVec Ideal S32x64 .f32) (be : FVec Ideal S64 .f32) (W1 : FVec Ideal S64x64 .f32) (b1 : FVec Ideal S64 .f32) :
    FVec Ideal S50000x64 .f32 :=
  addf
    (Host.dotGeneral dot_S50000x64_S64x64_S50000x64_1_0_0_1_n_n none
      (addf (aggregate ei (stMsg x ei ea We be))
        (mulf (broadcastInDim S50000x64 ![] Facts₀.bcast_S_S50000x64 (constant (F := Ideal) S_ .f32 0x3F800000#32)) x)) W1)
    (rows50000 b1)

/-- %28: the mean over the nodes, sum / 50000. -/
def stMean (h : FVec Ideal S50000x64 .f32) : FVec Ideal S64 .f32 :=
  Host.divf (Host.reduceAdd h zero0 Facts₀.reducesTo_S50000x64_S64_d0 Facts₀.h_S_)
    (broadcastInDim S64 ![] Facts₀.bcast_S_S64 n0)

/-- jnp.var's divisor: 50000 − float(ddof), ddof the integer 0. -/
def varDiv : FVec Ideal S_ .f32 := subf n0 (sitofp .f32 (constantI S_ 32 0#32 : IVec S_ 32))

/-- %29: jnp.var's body: the squared deviations from the mean (the mean kept as a [1, 64] row), summed over the
    nodes, divided by `varDiv`; NaN instead where the divisor is not positive. -/
def stVar (h : FVec Ideal S50000x64 .f32) : FVec Ideal S64 .f32 :=
  select
    (broadcastInDim S64 ![] Facts₀.bcast_S_S64 (cmpf .ogt varDiv zero0))
    (Host.divf
      (Host.reduceAdd
        (mulf
          (subf h (broadcastInDim S50000x64 ![0, 1] Facts₀.bcast_S1x64_S50000x64_0_1
            (Host.divf (broadcastInDim S1x64 ![1] Facts₀.bcast_S64_S1x64_1
                (Host.reduceAdd h zero0 Facts₀.reducesTo_S50000x64_S64_d0 Facts₀.h_S_))
              (broadcastInDim S1x64 ![] Facts₀.bcast_S_S1x64 n0))))
          (subf h (broadcastInDim S50000x64 ![0, 1] Facts₀.bcast_S1x64_S50000x64_0_1
            (Host.divf (broadcastInDim S1x64 ![1] Facts₀.bcast_S64_S1x64_1
                (Host.reduceAdd h zero0 Facts₀.reducesTo_S50000x64_S64_d0 Facts₀.h_S_))
              (broadcastInDim S1x64 ![] Facts₀.bcast_S_S1x64 n0)))))
        zero0 Facts₀.reducesTo_S50000x64_S64_d0 Facts₀.h_S_)
      (broadcastInDim S64 ![] Facts₀.bcast_S_S64 varDiv))
    (broadcastInDim S64 ![] Facts₀.bcast_S_S64 (id (constant (F := Ideal) S_ .f32 0x7FC00000#32)))

/-- %49: normalisation by `mu` and `v`, scale, shift, positive part, the second linear layer. -/
def stOut (h : FVec Ideal S50000x64 .f32) (mu v gamma beta : FVec Ideal S64 .f32) (W2 : FVec Ideal S64x64 .f32)
    (b2 : FVec Ideal S64 .f32) : FVec Ideal S50000x64 .f32 :=
  addf
    (Host.dotGeneral dot_S50000x64_S64x64_S50000x64_1_0_0_1_n_n none
      (maximumf
        (addf
          (mulf
            (mulf (subf h (rows50000 mu))
              (rows50000 (Host.rsqrt (addf v (broadcastInDim S64 ![] Facts₀.bcast_S_S64 (constant (F := Ideal) S_ .f32 0x3727C5AC#32))))))
            (rows50000 gamma))
          (rows50000 beta))
        (broadcastInDim S50000x64 ![] Facts₀.bcast_S_S50000x64 zero0))
      W2)
    (rows50000 b2)

/-- The reference's result as a function of its eleven arguments. -/
def refOut (x : FVec Ideal S50000x64 .f32) (ei : IVec S2x800000 32) (ea : FVec Ideal S800000x32 .f32)
    (We : FVec Ideal S32x64 .f32) (be : FVec Ideal S64 .f32) (W1 : FVec Ideal S64x64 .f32) (b1 gamma beta : FVec Ideal S64 .f32)
    (W2 : FVec Ideal S64x64 .f32) (b2 : FVec Ideal S64 .f32) : FVec Ideal S50000x64 .f32 :=
  stOut (stH x ei ea We be W1 b1) (stMean (stH x ei ea We be W1 b1)) (stVar (stH x ei ea We be W1 b1)) gamma beta W2 b2

end Cert.ReferenceIdeal.Val

end
-- ==== Proof.RefRun.lean ====
/-
  The reference's run: @main is a straight line of host operations (the callees `_var`, `_where` and `relu` inlined
  at their call sites over the calls' buffer records), so every weakly fair execution terminates, nothing faulting,
  with the result array at the operations' composed term of the argument arrays, `refOut`, and the arguments unchanged.
-/
import proofs.«141026_j7430293422227_1_alg».proof.Proof.RefStages
import Idealize.ShloMosaic.Lib.StableHlo.Run

noncomputable section

namespace Cert.ReferenceIdeal.Val

open Cert.ReferenceIdeal Cert.Gin
open Idealize.ShloMosaic Idealize.ShloMosaic.TcCoe Idealize.SL.Sem Idealize.ShloMosaic.StableHlo
open Cert.ReferenceIdeal.Facts₀

section Line

variable {F : FTy → Type} [FloatOps F]

/-- Operations 1–30: the edge index's two rows, the source index made non-negative, the gathered rows, the edge
    message, its scatter-add from zero, plus the node's own features, through the first linear layer: `%0` … `%25`. -/
abbrev ops1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_arg2 main_arg3 main_v11 ((fun l r => Host.dotGeneral dot_S800000x32_S32x64_S800000x64_1_0_0_1_n_n none l r) : (⟨S800000x32, .f32⟩ : BufTy).Contents (Elt F) → (⟨S32x64, .f32⟩ : BufTy).Contents (Elt F) → (⟨S800000x64, .f32⟩ : BufTy).Contents (Elt F)),
    unary main_arg4 main_v12 (broadcastInDim S1x64 ![1] bcast_S64_S1x64_1 : (⟨S64, .f32⟩ : BufTy).Contents (Elt F) → (⟨S1x64, .f32⟩ : BufTy).Contents (Elt F)),
    unary main_v12 main_v13 (broadcastInDim S800000x64 ![0, 1] bcast_S1x64_S800000x64_0_1 : (⟨S1x64, .f32⟩ : BufTy).Contents (Elt F) → (⟨S800000x64, .f32⟩ : BufTy).Contents (Elt F)),
    binary main_v11 main_v13 main_v14 (addf : (⟨S800000x64, .f32⟩ : BufTy).Contents (Elt F) → (⟨S800000x64, .f32⟩ : BufTy).Contents (Elt F) → (⟨S800000x64, .f32⟩ : BufTy).Contents (Elt F)),
    binary main_v10 main_v14 main_v15 (addf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v16 (broadcastInDim S50000x64 ![] bcast_S_S50000x64 : (⟨S_, .f32⟩ : BufTy).Contents (Elt F) → (⟨S50000x64, .f32⟩ : BufTy).Contents (Elt F)),
    unary main_v3 main_v17 (broadcastInDim S800000x1 ![0] bcast_S800000_S800000x1_0 : (⟨S800000, .i32⟩ : BufTy).Contents (Elt F) → (⟨S800000x1, .i32⟩ : BufTy).Contents (Elt F)),
    ternary main_v16 main_v17 main_v15 main_v18 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_1 (constant S_ .f32 0x3F800000#32),
    unary main_cst_1 main_v19 (broadcastInDim S50000x64 ![] bcast_S_S50000x64 : (⟨S_, .f32⟩ : BufTy).Contents (Elt F) → (⟨S50000x64, .f32⟩ : BufTy).Contents (Elt F)),
    binary main_v19 main_arg0 main_v20 (mulf : (⟨S50000x64, .f32⟩ : BufTy).Contents (Elt F) → (⟨S50000x64, .f32⟩ : BufTy).Contents (Elt F) → (⟨S50000x64, .f32⟩ : BufTy).Contents (Elt F)),
    binary main_v18 main_v20 main_v21 (addf : (⟨S50000x64, .f32⟩ : BufTy).Contents (Elt F) → (⟨S50000x64, .f32⟩ : BufTy).Contents (Elt F) → (⟨S50000x64, .f32⟩ : BufTy).Contents (Elt F)),
    binary main_v21 main_arg5 main_v22 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v23 (broadcastInDim S1x64 ![1] bcast_S64_S1x64_1 : (⟨S64, .f32⟩ : BufTy).Contents (Elt F) → (⟨S1x64, .f32⟩ : BufTy).Contents (Elt F)),
    unary main_v23 main_v24 (broadcastInDim S50000x64 ![0, 1] bcast_S1x64_S50000x64_0_1 : (⟨S1x64, .f32⟩ : BufTy).Contents (Elt F) → (⟨S50000x64, .f32⟩ : BufTy).Contents (Elt F)),
    binary main_v22 main_v24 main_v25 (addf : (⟨S50000x64, .f32⟩ : BufTy).Contents (Elt F) → (⟨S50000x64, .f32⟩ : BufTy).Contents (Elt F) → (⟨S50000x64, .f32⟩ : BufTy).Contents (Elt F)) ]

/-- Operations 31–35: the sum over the nodes and its quotient by 50000: `%cst_2` … `%28`. -/
abbrev ops2 : List (HloOp τ sig (Elt F)) :=
  [ nullary main_cst_2 (constant S_ .f32 0x00000000#32),
    binary main_v25 main_cst_2 main_v26 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    nullary main_cst_3 (constant S_ .f32 0x47435000#32),
    unary main_cst_3 main_v27 (broadcastInDim S64 ![] bcast_S_S64 : (⟨S_, .f32⟩ : BufTy).Contents (Elt F) → (⟨S64, .f32⟩ : BufTy).Contents (Elt F)),
    binary main_v26 main_v27 main_v28 (Host.divf : (⟨S64, .f32⟩ : BufTy).Contents (Elt F) → (⟨S64, .f32⟩ : BufTy).Contents (Elt F) → (⟨S64, .f32⟩ : BufTy).Contents (Elt F)) ]

/-- Operations 36–58: the integer 0 (`ddof`), then `_var`'s nineteen operations over the record `main_call0` and
    `_where`'s three over `main_call0_call0`, whose result is `%29`. -/
abbrev ops3 : List (HloOp τ sig (Elt F)) :=
  [ nullary main_c_4 (constantI S_ 32 0#32),
    TRef.nullary main_call0.cst (constant S_ .f32 0x00000000#32),
    TRef.binary (.of main_v25 : TRef sig ⟨S50000x64, .f32⟩) main_call0.cst main_call0.v0 (fun x v => Host.reduceAdd x v reducesTo_S50000x64_S64_d0 h_S_),
    TRef.unary main_call0.v0 main_call0.v1 (broadcastInDim S1x64 ![1] bcast_S64_S1x64_1),
    TRef.nullary main_call0.cst_0 (constant S_ .f32 0x47435000#32),
    TRef.unary main_call0.cst_0 main_call0.v2 (broadcastInDim S1x64 ![] bcast_S_S1x64),
    TRef.binary main_call0.v1 main_call0.v2 main_call0.v3 Host.divf,
    TRef.unary main_call0.v3 main_call0.v4 (broadcastInDim S50000x64 ![0, 1] bcast_S1x64_S50000x64_0_1),
    TRef.binary (.of main_v25 : TRef sig ⟨S50000x64, .f32⟩) main_call0.v4 main_call0.v5 subf,
    TRef.binary main_call0.v5 main_call0.v5 main_call0.v6 mulf,
    TRef.unary (.of main_c_4 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x64_S64_d0 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b) ]

/-- Operations 59–81: normalisation, scale and shift `%30` … `%44`, `relu`'s three operations over the record
    `main_call1` (its result `%45`), and the second linear layer `%46` … `%49`. -/
abbrev ops4 : List (HloOp τ sig (Elt F)) :=
  [ unary main_v28 main_v30 (broadcastInDim S1x64 ![1] bcast_S64_S1x64_1 : (⟨S64, .f32⟩ : BufTy).Contents (Elt F) → (⟨S1x64, .f32⟩ : BufTy).Contents (Elt F)),
    unary main_v30 main_v31 (broadcastInDim S50000x64 ![0, 1] bcast_S1x64_S50000x64_0_1 : (⟨S1x64, .f32⟩ : BufTy).Contents (Elt F) → (⟨S50000x64, .f32⟩ : BufTy).Contents (Elt F)),
    binary main_v25 main_v31 main_v32 (subf : (⟨S50000x64, .f32⟩ : BufTy).Contents (Elt F) → (⟨S50000x64, .f32⟩ : BufTy).Contents (Elt F) → (⟨S50000x64, .f32⟩ : BufTy).Contents (Elt F)),
    nullary main_cst_5 (constant S_ .f32 0x3727C5AC#32),
    unary main_cst_5 main_v33 (broadcastInDim S64 ![] bcast_S_S64 : (⟨S_, .f32⟩ : BufTy).Contents (Elt F) → (⟨S64, .f32⟩ : BufTy).Contents (Elt F)),
    binary main_v29 main_v33 main_v34 (addf : (⟨S64, .f32⟩ : BufTy).Contents (Elt F) → (⟨S64, .f32⟩ : BufTy).Contents (Elt F) → (⟨S64, .f32⟩ : BufTy).Contents (Elt F)),
    unary main_v34 main_v35 (Host.rsqrt : (⟨S64, .f32⟩ : BufTy).Contents (Elt F) → (⟨S64, .f32⟩ : BufTy).Contents (Elt F)),
    unary main_v35 main_v36 (broadcastInDim S1x64 ![1] bcast_S64_S1x64_1 : (⟨S64, .f32⟩ : BufTy).Contents (Elt F) → (⟨S1x64, .f32⟩ : BufTy).Contents (Elt F)),
    unary main_v36 main_v37 (broadcastInDim S50000x64 ![0, 1] bcast_S1x64_S50000x64_0_1 : (⟨S1x64, .f32⟩ : BufTy).Contents (Elt F) → (⟨S50000x64, .f32⟩ : BufTy).Contents (Elt F)),
    binary main_v32 main_v37 main_v38 (mulf : (⟨S50000x64, .f32⟩ : BufTy).Contents (Elt F) → (⟨S50000x64, .f32⟩ : BufTy).Contents (Elt F) → (⟨S50000x64, .f32⟩ : BufTy).Contents (Elt F)),
    unary main_arg7 main_v39 (broadcastInDim S1x64 ![1] bcast_S64_S1x64_1 : (⟨S64, .f32⟩ : BufTy).Contents (Elt F) → (⟨S1x64, .f32⟩ : BufTy).Contents (Elt F)),
    unary main_v39 main_v40 (broadcastInDim S50000x64 ![0, 1] bcast_S1x64_S50000x64_0_1 : (⟨S1x64, .f32⟩ : BufTy).Contents (Elt F) → (⟨S50000x64, .f32⟩ : BufTy).Contents (Elt F)),
    binary main_v38 main_v40 main_v41 (mulf : (⟨S50000x64, .f32⟩ : BufTy).Contents (Elt F) → (⟨S50000x64, .f32⟩ : BufTy).Contents (Elt F) → (⟨S50000x64, .f32⟩ : BufTy).Contents (Elt F)),
    unary main_arg8 main_v42 (broadcastInDim S1x64 ![1] bcast_S64_S1x64_1 : (⟨S64, .f32⟩ : BufTy).Contents (Elt F) → (⟨S1x64, .f32⟩ : BufTy).Contents (Elt F)),
    unary main_v42 main_v43 (broadcastInDim S50000x64 ![0, 1] bcast_S1x64_S50000x64_0_1 : (⟨S1x64, .f32⟩ : BufTy).Contents (Elt F) → (⟨S50000x64, .f32⟩ : BufTy).Contents (Elt F)),
    binary main_v41 main_v43 main_v44 (addf : (⟨S50000x64, .f32⟩ : BufTy).Contents (Elt F) → (⟨S50000x64, .f32⟩ : BufTy).Contents (Elt F) → (⟨S50000x64, .f32⟩ : BufTy).Contents (Elt F)),
    TRef.nullary main_call1.cst (constant S_ .f32 0x00000000#32),
    TRef.unary main_call1.cst main_call1.v0 (broadcastInDim S50000x64 ![] bcast_S_S50000x64),
    TRef.binary (.of main_v44 : TRef sig ⟨S50000x64, .f32⟩) main_call1.v0 main_call1.v1 maximumf,
    binary main_v45 main_arg9 main_v46 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg10 main_v47 (broadcastInDim S1x64 ![1] bcast_S64_S1x64_1 : (⟨S64, .f32⟩ : BufTy).Contents (Elt F) → (⟨S1x64, .f32⟩ : BufTy).Contents (Elt F)),
    unary main_v47 main_v48 (broadcastInDim S50000x64 ![0, 1] bcast_S1x64_S50000x64_0_1 : (⟨S1x64, .f32⟩ : BufTy).Contents (Elt F) → (⟨S50000x64, .f32⟩ : BufTy).Contents (Elt F)),
    binary main_v46 main_v48 main_v49 (addf : (⟨S50000x64, .f32⟩ : BufTy).Contents (Elt F) → (⟨S50000x64, .f32⟩ : BufTy).Contents (Elt F) → (⟨S50000x64, .f32⟩ : BufTy).Contents (Elt F)) ]

/-- @main's 81 operations, in order, the calls unfolded. -/
abbrev ops : List (HloOp τ sig (Elt F)) := ops1 ++ (ops2 ++ (ops3 ++ ops4))

-- the chain has eighty-one steps, and re-associating it recurses once per step
set_option maxRecDepth 4096 in
/-- @main is that straight line: the callees' definitions unfolded at their calls and the records at their fields, both
    sides are one chain of steps once sequencing is reassociated. -/
theorem main_eq (c : Dev nD) : main (F := F) c = seq ops := by
  simp only [main, fn_var.body, fn_where.body, fn_relu.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub .., binary_bufs_sub .., nullary_bufs_sub .., unary_bufs_sub .., unary_bufs_sub .., ternary_bufs_sub .., nullary_bufs_sub .., unary_bufs_sub .., binary_bufs_sub .., binary_bufs_sub .., binary_bufs_sub .., unary_bufs_sub .., unary_bufs_sub .., binary_bufs_sub ..⟩
theorem ops2_sub : (ops2 : List (HloOp τ sig (Elt F))).Forall fun op => op.bufs ⊆ tcRefs τ sig :=
  ⟨nullary_bufs_sub .., binary_bufs_sub .., nullary_bufs_sub .., unary_bufs_sub .., binary_bufs_sub ..⟩
theorem ops3_sub : (ops3 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem ops4_sub : (ops4 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The contents after two lines run one after the other: the second line's, from the first line's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

end Line

/-! ## What each stage leaves, from any contents -/

section Value

variable (W : Valuation τ sig (Elt Ideal))

attribute [local irreducible] Host.gather Host.scatterAdd Host.reduceAdd in
/-- After the first thirty operations `%25` holds the hidden layer of the arguments. -/
theorem v25_eq : after (ops1 (F := Ideal)) W (main_v25 : DevRef τ sig)
    = stH (W (main_arg0 : DevRef τ sig)) (W (main_arg1 : DevRef τ sig)) (W (main_arg2 : DevRef τ sig))
        (W (main_arg3 : DevRef τ sig)) (W (main_arg4 : DevRef τ sig)) (W (main_arg5 : DevRef τ sig)) (W (main_arg6 : DevRef τ sig)) := by
  after_results_simp
  rfl

attribute [local irreducible] Host.reduceAdd in
/-- The next five leave at `%28` the mean of what `%25` held. -/
theorem v28_eq : after (ops2 (F := Ideal)) W (main_v28 : DevRef τ sig) = stMean (W (main_v25 : DevRef τ sig)) := by
  after_results_simp
  rfl

attribute [local irreducible] Host.reduceAdd in
/-- `_var` and `_where` leave at `%29` the variance of what `%25` held. -/
theorem v29_eq : after (ops3 (F := Ideal)) W (main_v29 : DevRef τ sig) = stVar (W (main_v25 : DevRef τ sig)) := by
  after_results_simp
  rfl

/-- The last twenty-three leave at `%49` the output layer of what `%25`, `%28`, `%29` and the last four arguments held. -/
theorem v49_eq : after (ops4 (F := Ideal)) W (main_v49 : DevRef τ sig)
    = stOut (W (main_v25 : DevRef τ sig)) (W (main_v28 : DevRef τ sig)) (W (main_v29 : DevRef τ sig))
        (W (main_arg7 : DevRef τ sig)) (W (main_arg8 : DevRef τ sig)) (W (main_arg9 : DevRef τ sig)) (W (main_arg10 : DevRef τ sig)) := by
  after_results_simp
  rfl

end Value

/-! ## What each stage leaves alone -/

/-- The eleven argument arrays. -/
abbrev argRefs : List (Ref sig .tc) :=
  [main_arg0, main_arg1, main_arg2, main_arg3, main_arg4, main_arg5, main_arg6, main_arg7, main_arg8, main_arg9, main_arg10]

section Keep

variable {F : FTy → Type} [FloatOps F]

/-- The first thirty operations touch no argument. -/
theorem ops1_args (W : Valuation τ sig (Elt F)) : ∀ r ∈ argRefs,
    after (ops1 : List (HloOp τ sig (Elt F))) W (Proc.devRef .tc r) = W (Proc.devRef .tc r) := by
  intro r hr
  simp only [argRefs, List.mem_cons, List.not_mem_nil, or_false] at hr
  rcases hr with rfl | rfl | rfl | rfl | rfl | rfl | rfl | rfl | rfl | rfl | rfl <;> after_results_simp

/-- The next five touch no argument. -/
theorem ops2_args (W : Valuation τ sig (Elt F)) : ∀ r ∈ argRefs,
    after (ops2 : List (HloOp τ sig (Elt F))) W (Proc.devRef .tc r) = W (Proc.devRef .tc r) := by
  intro r hr
  simp only [argRefs, List.mem_cons, List.not_mem_nil, or_false] at hr
  rcases hr with rfl | rfl | rfl | rfl | rfl | rfl | rfl | rfl | rfl | rfl | rfl <;> after_results_simp

/-- The variance's twenty-three touch no argument. -/
theorem ops3_args (W : Valuation τ sig (Elt F)) : ∀ r ∈ argRefs,
    after (ops3 : List (HloOp τ sig (Elt F))) W (Proc.devRef .tc r) = W (Proc.devRef .tc r) := by
  intro r hr
  simp only [argRefs, List.mem_cons, List.not_mem_nil, or_false] at hr
  rcases hr with rfl | rfl | rfl | rfl | rfl | rfl | rfl | rfl | rfl | rfl | rfl <;> after_results_simp

/-- The last twenty-three touch no argument. -/
theorem ops4_args (W : Valuation τ sig (Elt F)) : ∀ r ∈ argRefs,
    after (ops4 : List (HloOp τ sig (Elt F))) W (Proc.devRef .tc r) = W (Proc.devRef .tc r) := by
  intro r hr
  simp only [argRefs, List.mem_cons, List.not_mem_nil, or_false] at hr
  rcases hr with rfl | rfl | rfl | rfl | rfl | rfl | rfl | rfl | rfl | rfl | rfl <;> after_results_simp

/-- No operation of the line writes an argument. -/
theorem ops_args (V : Valuation τ sig (Elt F)) (r : Ref sig .tc) (hr : r ∈ argRefs) :
    after (ops : List (HloOp τ sig (Elt F))) V (Proc.devRef .tc r) = V (Proc.devRef .tc r) := by
  simp only [ops, after_app]
  rw [ops4_args _ r hr, ops3_args _ r hr, ops2_args _ r hr, ops1_args _ r hr]

/-- The mean's five operations leave `%25` alone. -/
theorem ops2_v25 (W : Valuation τ sig (Elt F)) :
    after (ops2 : List (HloOp τ sig (Elt F))) W (main_v25 : DevRef τ sig) = W (main_v25 : DevRef τ sig) := by
  after_results_simp

/-- The variance's operations leave `%25` alone. -/
theorem ops3_v25 (W : Valuation τ sig (Elt F)) :
    after (ops3 : List (HloOp τ sig (Elt F))) W (main_v25 : DevRef τ sig) = W (main_v25 : DevRef τ sig) := by
  after_results_simp

/-- The variance's operations leave `%28` alone. -/
theorem ops3_v28 (W : Valuation τ sig (Elt F)) :
    after (ops3 : List (HloOp τ sig (Elt F))) W (main_v28 : DevRef τ sig) = W (main_v28 : DevRef τ sig) := by
  after_results_simp

theorem ops_sub : (ops : List (HloOp τ sig (Elt F))).Forall fun op => op.bufs ⊆ tcRefs τ sig :=
  List.forall_append.2 ⟨ops1_sub, List.forall_append.2 ⟨ops2_sub, List.forall_append.2 ⟨ops3_sub, ops4_sub⟩⟩⟩

theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops3_fresh : ∀ op ∈ (ops3 : List (HloOp τ sig (Elt F))), op.fresh = ∅ := by
  intro _ h; (repeat (cases h with | head => rfl | tail _ h => ?_)); exact nomatch h
theorem ops4_fresh : ∀ op ∈ (ops4 : List (HloOp τ sig (Elt F))), op.fresh = ∅ := by
  intro _ h; (repeat (cases h with | head => rfl | tail _ h => ?_)); exact nomatch h

/-- Every operation of the line determines its results. -/
theorem ops_fresh : ∀ op ∈ (ops : List (HloOp τ sig (Elt F))), op.fresh = ∅ := by
  intro op h
  simp only [ops, List.mem_append] at h
  rcases h with h | h | h | h
  exacts [ops1_fresh op h, ops2_fresh op h, ops3_fresh op h, ops4_fresh op h]

end Keep

/-! ## The composed term -/

/-- After the whole line the result holds `refOut` of the arguments: the output stage of the hidden layer, its mean and
    its variance, each stage read from what the stages before it left. -/
theorem out_eq (V : Valuation τ sig (Elt Ideal)) :
    after (ops (F := Ideal)) V (main_v49 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) := by
  have h7 : main_arg7 ∈ argRefs := by decide
  have h8 : main_arg8 ∈ argRefs := by decide
  have h9 : main_arg9 ∈ argRefs := by decide
  have h10 : main_arg10 ∈ argRefs := by decide
  simp only [ops, after_app]
  rw [v49_eq, v29_eq, ops3_v28, v28_eq, ops3_v25, ops2_v25, v25_eq,
    ops3_args _ _ h7, ops2_args _ _ h7, ops1_args _ _ h7, ops3_args _ _ h8, ops2_args _ _ h8, ops1_args _ _ h8,
    ops3_args _ _ h9, ops2_args _ _ h9, ops1_args _ _ h9, ops3_args _ _ h10, ops2_args _ _ h10, ops1_args _ _ h10]
  rfl

variable (m : (ℓ : Loc nD τ sig) → Buf (Elt Ideal) ℓ) (ρ : Dev nD → PrngReg)

/-- The reference runs, its result is `refOut` of the launch memory's arguments, and the arguments end as launched. -/
theorem run : θ_run (defs (F := Ideal)) (onTc (τ := τ) (main (F := Ideal))) ⟨m, fun _ => 0, ρ⟩ (fun r => ∀ c : Dev nD,
      r.2.mem ((c.tc : Thread nD τ).loc main_v49)
        = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun _ h c => ⟨(h c main_v49).trans (out_eq _),
      (h c main_arg0).trans (ops_args _ main_arg0 (by decide)),
      (h c main_arg1).trans (ops_args _ main_arg1 (by decide)),
      (h c main_arg2).trans (ops_args _ main_arg2 (by decide)),
      (h c main_arg3).trans (ops_args _ main_arg3 (by decide)),
      (h c main_arg4).trans (ops_args _ main_arg4 (by decide)),
      (h c main_arg5).trans (ops_args _ main_arg5 (by decide)),
      (h c main_arg6).trans (ops_args _ main_arg6 (by decide)),
      (h c main_arg7).trans (ops_args _ main_arg7 (by decide)),
      (h c main_arg8).trans (ops_args _ main_arg8 (by decide)),
      (h c main_arg9).trans (ops_args _ main_arg9 (by decide)),
      (h c main_arg10).trans (ops_args _ main_arg10 (by decide))⟩)
    (run_seq scopedRefs_eq scopedSems_eq defs main (fun _ => ops) main_eq (fun _ => ops_sub) m ρ (fun _ => ops_fresh))

end Cert.ReferenceIdeal.Val

end
-- ==== Proof.Algebra.lean ====
/-
  The algebra the layer's two programs differ by, on the extended reals.

  A value "is real" when it is the image of a real number; sums and products of real values are real,
  so the edge messages and the hidden layer are real when their inputs are.  For a real column
  a : Fin N → ℝ with S = Σ a, Q = Σ a², μ = S / N the two spellings of the variance agree:
      Q / N − μ²  =  (Σ_r (a r − μ)²) / N ,
  because Σ (a r − μ)² = Q − 2 μ S + N μ² and μ N = S.  The identity is proved over ℝ and carried to
  the extended reals through the coercion, which commutes with +, −, · and finite sums; division by
  the real constant N ≠ 0 is multiplication by the real 1 / N.
-/
import proofs.«141026_j7430293422227_1_alg».proof.Proof.Spec
import Mathlib.Data.EReal.Basic
import Mathlib.Data.EReal.Operations
import Mathlib.Algebra.BigOperators.Group.Finset.Basic
import Mathlib.Algebra.BigOperators.Ring.Finset
import Mathlib.Tactic.Ring
import Mathlib.Tactic.NormNum

noncomputable section

namespace Cert.Gin

open Idealize.ShloMosaic

/-! ### Real values are closed under the ring operations -/

theorem isReal_zero : IsReal (0 : EReal) := ⟨0, EReal.coe_zero.symm⟩

theorem isReal_add {x y : EReal} : IsReal x → IsReal y → IsReal (x + y) := by
  rintro ⟨a, rfl⟩ ⟨b, rfl⟩
  exact ⟨a + b, (EReal.coe_add a b).symm⟩

theorem isReal_mul {x y : EReal} : IsReal x → IsReal y → IsReal (x * y) := by
  rintro ⟨a, rfl⟩ ⟨b, rfl⟩
  exact ⟨a * b, (EReal.coe_mul a b).symm⟩

theorem isReal_sum {ι : Type*} (s : Finset ι) (f : ι → EReal) :
    (∀ i ∈ s, IsReal (f i)) → IsReal (∑ i ∈ s, f i) := by
  classical
  induction s using Finset.induction_on with
  | empty => intro _; rw [Finset.sum_empty]; exact isReal_zero
  | insert a s ha ih =>
    intro h
    rw [Finset.sum_insert ha]
    exact isReal_add (h a (Finset.mem_insert_self a s)) (ih fun i hi => h i (Finset.mem_insert_of_mem hi))

/-- The coercion of the reals commutes with finite sums. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-! ### The constants -/

/-- The word 0x47435000: exponent field 142, fraction field 0x435000, so (2²³ + 4411392) · 2⁻⁸ = 50000. -/
theorem cN_eq : cN = ((50000 : ℝ) : EReal) := by
  simp [Ideal.ofBits, Ideal.ieee, -EReal.coe_mul]; norm_num

/-! ### The two variances -/

/-- Over the reals: mean of squares minus square of mean is the mean of the squared deviations. -/
theorem real_var (a : Fin 50000 → ℝ) :
    (∑ r, a r * a r) * (1 / 50000) - (∑ r, a r) * (1 / 50000) * ((∑ r, a r) * (1 / 50000))
      = (∑ r, (a r - (∑ r, a r) * (1 / 50000)) * (a r - (∑ r, a r) * (1 / 50000))) * (1 / 50000) := by
  generalize hS : (∑ r, a r) = S
  generalize hμ : S * (1 / 50000) = μ
  have hsq : ∀ r, (a r - μ) * (a r - μ) = a r * a r - 2 * μ * a r + μ * μ := fun r => by ring
  have h1 : (∑ r, (a r - μ) * (a r - μ)) = (∑ r, a r * a r) - 2 * μ * S + 50000 * (μ * μ) := by
    simp only [hsq]
    rw [Finset.sum_add_distrib, Finset.sum_sub_distrib, ← Finset.mul_sum, hS, Finset.sum_const, Finset.card_univ,
      Fintype.card_fin, nsmul_eq_mul]
    norm_num
  rw [h1, ← hμ]
  ring

theorem varK_eq_varR (h : Fin 50000 → Fin 64 → EReal) (hreal : ∀ r j, IsReal (h r j)) : varK h = varR h := by
  choose a ha using hreal
  obtain rfl : h = fun r j => ((a r j : ℝ) : EReal) := funext fun r => funext fun j => ha r j
  funext j
  have hN : (50000 : ℝ) ≠ 0 := by norm_num
  simp only [varK, varR, mean, colsum, colsumsq, cN_eq, Ideal.div_coe hN, ← EReal.coe_mul, coe_finset_sum,
    ← EReal.coe_sub]
  exact congrArg _ (real_var fun r => a r j)

/-! ### The edge messages and the hidden layer are real -/

theorem msg_real {xs : Fin 800000 → Fin 64 → EReal} {ea : Fin 800000 → Fin 32 → EReal} {We : Fin 32 → Fin 64 → EReal}
    {be : Fin 64 → EReal} : (∀ e j, IsReal (xs e j)) → (∀ e k, IsReal (ea e k)) → (∀ k j, IsReal (We k j)) →
    (∀ j, IsReal (be j)) → ∀ e j, IsReal (msg xs ea We be e j) := by
  intro hxs hea hWe hbe e j
  exact isReal_add (isReal_add (hxs e j) (isReal_sum _ _ fun k _ => isReal_mul (hea e k) (hWe k j))) (hbe j)

theorem hid_real {agg x : Fin 50000 → Fin 64 → EReal} {W1 : Fin 64 → Fin 64 → EReal} {b1 : Fin 64 → EReal} :
    (∀ r k, IsReal (agg r k)) → (∀ r k, IsReal (x r k)) → (∀ k j, IsReal (W1 k j)) → (∀ j, IsReal (b1 j)) →
    ∀ r j, IsReal (hid agg x W1 b1 r j) := by
  intro hagg hx hW1 hb1 r j
  exact isReal_add (isReal_sum _ _ fun k _ => isReal_mul (isReal_add (hagg r k) (hx r k)) (hW1 k j)) (hb1 j)

/-! ### The zero and the one words -/

/-- The all-zero word: exponent field 0, fraction field 0, so 0 · 2⁻¹⁴⁹ = 0. -/
theorem cZero_eq : cZero = 0 := by
  simp [Ideal.ofBits, Ideal.ieee]

/-- The word 0x3F800000: exponent field 127, fraction field 0, so 2²³ · 2⁻²³ = 1. -/
theorem cOne_eq : Ideal.ofBits .f32 0x3F800000#32 = (1 : EReal) := by
  simp [Ideal.ofBits, Ideal.ieee, -EReal.coe_mul]; norm_num

end Cert.Gin

end
-- ==== Proof.RefValue.lean ====
/-
  The reference's result, stage by stage, is the specification: its edge message is `msg` (addition re-associated),
  its hidden layer is `hid` (the factor 1 dropped), its mean is `mean`, jnp.var's body is `varR` (its divisor
  50000 − 0 is 50000 and positive, so the guard keeps the quotient), and the last stage is `outF`.
-/
import proofs.«141026_j7430293422227_1_alg».proof.Proof.RefStages
import proofs.«141026_j7430293422227_1_alg».proof.Proof.Algebra
import Idealize.ShloMosaic.Lib.IdealHost
import Idealize.ShloMosaic.Lib.Pipeline.Value
import Idealize.ShloMosaic.Lib.KernelVsHost

noncomputable section

namespace Cert.ReferenceIdeal.Val

open Cert.ReferenceIdeal Cert.Gin
open Idealize.ShloMosaic Idealize.ShloMosaic.ValueIdx

/-! ### Rows and scalars broadcast, read at an index -/

/-- A [64] array laid as the one row of a [1, 64] array, read at (0, j). -/
theorem row_of_vec_apply (v : FVec Ideal S64 .f32) (j : Fin 64) :
    broadcastInDim S1x64 ![1] Facts₀.bcast_S64_S1x64_1 v (ix2 (0 : Fin 1) j) = v (ix1 j) := by
  refine broadcastInDim_apply ![1] Facts₀.bcast_S64_S1x64_1 v (ix2 (0 : Fin 1) j) (ix1 j) ?_
  intro a
  match a with
  | ⟨0, _⟩ => rfl

/-- A [64] array as every row of an [800000, 64] array, read at (e, j). -/
theorem rows800000_apply (v : FVec Ideal S64 .f32) (e : Fin 800000) (j : Fin 64) :
    broadcastInDim S800000x64 ![0, 1] Facts₀.bcast_S1x64_S800000x64_0_1
      (broadcastInDim S1x64 ![1] Facts₀.bcast_S64_S1x64_1 v) (ix2 e j) = v (ix1 j) := by
  rw [broadcastInDim_oneRow_apply Facts₀.bcast_S1x64_S800000x64_0_1 _ e j, row_of_vec_apply]

/-- A [64] array as every row of a [50000, 64] array, read at (r, j). -/
theorem rows50000_apply (v : FVec Ideal S64 .f32) (r : Fin 50000) (j : Fin 64) :
    rows50000 v (ix2 r j) = v (ix1 j) := by
  unfold rows50000
  rw [broadcastInDim_oneRow_apply Facts₀.bcast_S1x64_S50000x64_0_1 _ r j, row_of_vec_apply]

/-! ### The first product: [800000, 32] · [32, 64], one contracted axis of extent 32 -/

theorem lhs_msg_0 (i : S800000x64.Idx) (q : dot_S800000x32_S32x64_S800000x64_1_0_0_1_n_n.contr.Idx) :
    (dot_S800000x32_S32x64_S800000x64_1_0_0_1_n_n.lhsIdx i q 0).val = (i 0).val := by
  unfold DotDims.lhsIdx
  rw [dif_neg (show ¬(0 : Fin S800000x32.rank) ∈ dot_S800000x32_S32x64_S800000x64_1_0_0_1_n_n.lhsBatch by decide),
    dif_pos (show (0 : Fin S800000x32.rank) ∈ dot_S800000x32_S32x64_S800000x64_1_0_0_1_n_n.lhsNonContracting by decide)]
  rfl

theorem lhs_msg_1 (i : S800000x64.Idx) (q : dot_S800000x32_S32x64_S800000x64_1_0_0_1_n_n.contr.Idx) :
    (dot_S800000x32_S32x64_S800000x64_1_0_0_1_n_n.lhsIdx i q 1).val = (q ⟨0, by decide⟩).val :=
  dot_S800000x32_S32x64_S800000x64_1_0_0_1_n_n.lhsIdx_val_of_single rfl i q

theorem rhs_msg_0 (i : S800000x64.Idx) (q : dot_S800000x32_S32x64_S800000x64_1_0_0_1_n_n.contr.Idx) :
    (dot_S800000x32_S32x64_S800000x64_1_0_0_1_n_n.rhsIdx i q 0).val = (q ⟨0, by decide⟩).val :=
  dot_S800000x32_S32x64_S800000x64_1_0_0_1_n_n.rhsIdx_val_of_single rfl i q

theorem rhs_msg_1 (i : S800000x64.Idx) (q : dot_S800000x32_S32x64_S800000x64_1_0_0_1_n_n.contr.Idx) :
    (dot_S800000x32_S32x64_S800000x64_1_0_0_1_n_n.rhsIdx i q 1).val = (i 1).val := by
  unfold DotDims.rhsIdx
  rw [dif_neg (show ¬(1 : Fin S32x64.rank) ∈ dot_S800000x32_S32x64_S800000x64_1_0_0_1_n_n.rhsBatch by decide),
    dif_pos (show (1 : Fin S32x64.rank) ∈ dot_S800000x32_S32x64_S800000x64_1_0_0_1_n_n.rhsNonContracting by decide)]
  rfl

/-- The product at (e, j) is the sum over k < 32 of l (e, k) · r (k, j). -/
theorem dot_msg_apply (l : FVec Ideal S800000x32 .f32) (r : FVec Ideal S32x64 .f32) (e : Fin 800000) (j : Fin 64) :
    Host.dotGeneral (F := Ideal) dot_S800000x32_S32x64_S800000x64_1_0_0_1_n_n none l r (ix2 e j)
      = ∑ k : Fin 32, l (ix2 e k) * r (ix2 k j) := by
  simp only [Host.dotGeneral]
  rw [Ideal.dotGeneral_apply,
    ← Equiv.sum_comp (contrEquiv1 dot_S800000x32_S32x64_S800000x64_1_0_0_1_n_n 32 rfl rfl).symm]
  refine Finset.sum_congr rfl fun k _ => ?_
  have hk := contrEquiv1_symm_val dot_S800000x32_S32x64_S800000x64_1_0_0_1_n_n 32 rfl rfl k
  have el : dot_S800000x32_S32x64_S800000x64_1_0_0_1_n_n.lhsIdx (ix2 e j)
      ((contrEquiv1 dot_S800000x32_S32x64_S800000x64_1_0_0_1_n_n 32 rfl rfl).symm k) = ix2 e k :=
    funext fun a => Fin.ext (by
      match a with
      | ⟨0, _⟩ => exact lhs_msg_0 _ _
      | ⟨1, _⟩ => exact (lhs_msg_1 _ _).trans hk)
  have er : dot_S800000x32_S32x64_S800000x64_1_0_0_1_n_n.rhsIdx (ix2 e j)
      ((contrEquiv1 dot_S800000x32_S32x64_S800000x64_1_0_0_1_n_n 32 rfl rfl).symm k) = ix2 k j :=
    funext fun a => Fin.ext (by
      match a with
      | ⟨0, _⟩ => exact (rhs_msg_0 _ _).trans hk
      | ⟨1, _⟩ => exact rhs_msg_1 _ _)
  rw [el, er]

/-! ### Stage 1: the edge message -/

theorem stMsg_eq (x : FVec Ideal S50000x64 .f32) (ei : IVec S2x800000 32) (ea : FVec Ideal S800000x32 .f32)
    (We : FVec Ideal S32x64 .f32) (be : FVec Ideal S64 .f32) :
    stMsg x ei ea We be
      = (arr2 (msg (mat (n0 := 800000) (n1 := 64) (gathered x ei)) (mat (n0 := 800000) (n1 := 32) ea)
          (mat (n0 := 32) (n1 := 64) We) (vec (n := 64) be)) : FVec Ideal S800000x64 .f32) := by
  funext i
  obtain ⟨e, j, rfl⟩ : ∃ (e : Fin 800000) (j : Fin 64), i = ix2 e j := ⟨i 0, i 1, eq_ix2 i⟩
  unfold stMsg
  rw [addf_apply, addf_apply, dot_msg_apply, rows800000_apply]
  show _ = msg _ _ _ _ e j
  unfold msg
  exact (add_assoc _ _ _).symm

/-! ### The second and third products: [50000, 64] · [64, 64], one contracted axis of extent 64 -/

theorem lhs_hid_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide),
    dif_pos (show (0 : Fin S50000x64.rank) ∈ dot_S50000x64_S64x64_S50000x64_1_0_0_1_n_n.lhsNonContracting by decide)]
  rfl

theorem lhs_hid_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q

theorem rhs_hid_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q

theorem rhs_hid_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide),
    dif_pos (show (1 : Fin S64x64.rank) ∈ dot_S50000x64_S64x64_S50000x64_1_0_0_1_n_n.rhsNonContracting by decide)]
  rfl

/-- The product at (r, j) is the sum over k < 64 of l (r, k) · w (k, j). -/
theorem dot_hid_apply (l : FVec Ideal S50000x64 .f32) (w : FVec Ideal S64x64 .f32) (r : Fin 50000) (j : Fin 64) :
    Host.dotGeneral (F := Ideal) dot_S50000x64_S64x64_S50000x64_1_0_0_1_n_n none l w (ix2 r j)
      = ∑ k : Fin 64, l (ix2 r k) * w (ix2 k j) := by
  simp only [Host.dotGeneral]
  rw [Ideal.dotGeneral_apply,
    ← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have el : dot_S50000x64_S64x64_S50000x64_1_0_0_1_n_n.lhsIdx (ix2 r j)
      ((contrEquiv1 dot_S50000x64_S64x64_S50000x64_1_0_0_1_n_n 64 rfl rfl).symm k) = ix2 r k :=
    funext fun a => Fin.ext (by
      match a with
      | ⟨0, _⟩ => exact lhs_hid_0 _ _
      | ⟨1, _⟩ => exact (lhs_hid_1 _ _).trans hk)
  have er : dot_S50000x64_S64x64_S50000x64_1_0_0_1_n_n.rhsIdx (ix2 r j)
      ((contrEquiv1 dot_S50000x64_S64x64_S50000x64_1_0_0_1_n_n 64 rfl rfl).symm k) = ix2 k j :=
    funext fun a => Fin.ext (by
      match a with
      | ⟨0, _⟩ => exact (rhs_hid_0 _ _).trans hk
      | ⟨1, _⟩ => exact rhs_hid_1 _ _)
  rw [el, er]

/-! ### Stage 2: the hidden layer -/

/-- The scalar word of 1.0 broadcast to [50000, 64] reads 1 everywhere. -/
theorem ones_apply (i : S50000x64.Idx) :
    broadcastInDim S50000x64 ![] Facts₀.bcast_S_S50000x64 (constant (F := Ideal) S_ .f32 0x3F800000#32) i = (1 : EReal) := by
  rw [broadcastInDim_scalar_apply, constant_apply, cOne_eq]

theorem stH_eq (x : FVec Ideal S50000x64 .f32) (ei : IVec S2x800000 32) (ea : FVec Ideal S800000x32 .f32)
    (We : FVec Ideal S32x64 .f32) (be : FVec Ideal S64 .f32) (W1 : FVec Ideal S64x64 .f32) (b1 : FVec Ideal S64 .f32) :
    stH x ei ea We be W1 b1 = (arr2 (hidOf x ei ea We be W1 b1) : FVec Ideal S50000x64 .f32) := by
  funext i
  obtain ⟨r, j, rfl⟩ : ∃ (r : Fin 50000) (j : Fin 64), i = ix2 r j := ⟨i 0, i 1, eq_ix2 i⟩
  unfold stH
  rw [stMsg_eq, addf_apply, dot_hid_apply, rows50000_apply]
  show _ = hidOf x ei ea We be W1 b1 r j
  unfold hidOf hid
  refine congrArg (· + b1 (ix1 j)) (Finset.sum_congr rfl fun k _ => ?_)
  rw [addf_apply, mulf_apply, ones_apply, one_mul]

/-! ### Stage 3: the mean -/

/-- The reduction over the node axis, as the library's witness that names the inserted index. -/
theorem reduces_rows : S50000x64.Reduces [0] S64 := by decide

/-- Inserting the node r on the dropped axis of the column index j gives (r, j). -/
theorem lift_rows (j : Fin 64) (r : Fin 50000) : reduces_rows.lift (ix1 j) r = ix2 r j :=
  funext fun a => Fin.ext (by
    match a with
    | ⟨0, _⟩ => rfl
    | ⟨1, _⟩ => rfl)

/-- The sum over the nodes from the zero word, read at column j. -/
theorem colsum_apply (h : FVec Ideal S50000x64 .f32) (j : Fin 64) :
    Host.reduceAdd (F := Ideal) h zero0 Facts₀.reducesTo_S50000x64_S64_d0 Facts₀.h_S_ (ix1 j)
      = ∑ r : Fin 50000, h (ix2 r j) := by
  rw [hostReduceAdd_apply, Ideal.hostReduceAdd_single _ reduces_rows]
  have h0 : zero0 (Shape.Idx.first Facts₀.h_S_) = (0 : EReal) := cZero_eq
  rw [h0, zero_add]
  exact Finset.sum_congr rfl fun r _ => congrArg h (lift_rows j r)

/-- The scalar word of 50000.0 broadcast to [64] reads that constant everywhere. -/
theorem n0_vec_apply (j : S64.Idx) : broadcastInDim S64 ![] Facts₀.bcast_S_S64 n0 j = cN := by
  rw [broadcastInDim_scalar_apply]; rfl

theorem stMean_eq (h : FVec Ideal S50000x64 .f32) :
    vec (n := 64) (stMean h) = mean (mat (n0 := 50000) (n1 := 64) h) := by
  funext j
  show stMean h (ix1 j) = _
  unfold stMean
  rw [hostDivf_apply, colsum_apply, n0_vec_apply]
  rfl

/-! ### Stage 4: the variance as the mean of the squared deviations -/

/-- The divisor 50000 − (the integer 0 as a float) is the real 50000. -/
theorem varDiv_apply : varDiv ix0 = ((50000 : ℝ) : EReal) := by
  have h1 : varDiv ix0 = cN - ((((0#32 : BitVec 32).toInt : ℤ) : ℝ) : EReal) := rfl
  have h2 : (0#32 : BitVec 32).toInt = 0 := by decide
  rw [h1, cN_eq, h2, Int.cast_zero, ← EReal.coe_sub, sub_zero]

/-- The divisor is positive, so the guard's bit is set at every column. -/
theorem guard_apply (j : S64.Idx) :
    broadcastInDim S64 ![] Facts₀.bcast_S_S64 (cmpf .ogt varDiv zero0) j = 1#1 := by
  rw [broadcastInDim_scalar_apply, cmpf_apply]
  show Ideal.cmp .ogt (varDiv ix0) (zero0 ix0) = 1#1
  have h0 : zero0 ix0 = (0 : EReal) := cZero_eq
  have hpos : (0 : EReal) < ((50000 : ℝ) : EReal) := by exact_mod_cast (by norm_num : (0 : ℝ) < 50000)
  rw [varDiv_apply, h0]
  unfold Ideal.cmp
  simp only [hpos, decide_true]
  rfl

/-- The divisor broadcast to [64] reads the constant 50000 everywhere. -/
theorem varDiv_vec_apply (j : S64.Idx) : broadcastInDim S64 ![] Facts₀.bcast_S_S64 varDiv j = cN := by
  rw [broadcastInDim_scalar_apply, varDiv_apply, cN_eq]

/-- The mean kept as a [1, 64] row and laid along every node, read at (r, j), is the mean of column j. -/
theorem meanRows_apply (h : FVec Ideal S50000x64 .f32) (r : Fin 50000) (j : Fin 64) :
    broadcastInDim S50000x64 ![0, 1] Facts₀.bcast_S1x64_S50000x64_0_1
        (Host.divf (F := Ideal) (broadcastInDim S1x64 ![1] Facts₀.bcast_S64_S1x64_1
            (Host.reduceAdd (F := Ideal) h zero0 Facts₀.reducesTo_S50000x64_S64_d0 Facts₀.h_S_))
          (broadcastInDim S1x64 ![] Facts₀.bcast_S_S1x64 n0)) (ix2 r j)
      = mean (mat (n0 := 50000) (n1 := 64) h) j := by
  rw [broadcastInDim_oneRow_apply Facts₀.bcast_S1x64_S50000x64_0_1 _ r j, hostDivf_apply, row_of_vec_apply, colsum_apply,
    broadcastInDim_scalar_apply]
  rfl

theorem stVar_eq (h : FVec Ideal S50000x64 .f32) :
    vec (n := 64) (stVar h) = varR (mat (n0 := 50000) (n1 := 64) h) := by
  funext j
  show stVar h (ix1 j) = _
  unfold stVar
  rw [select_apply, guard_apply, select_one, hostDivf_apply, colsum_apply, varDiv_vec_apply]
  unfold varR
  refine congrArg (Ideal.div · cN) (Finset.sum_congr rfl fun r _ => ?_)
  rw [mulf_apply, subf_apply, meanRows_apply]

/-! ### Stage 5: normalisation, scale, shift, positive part, the second linear layer -/

/-- The scalar epsilon word broadcast to [64] reads that constant everywhere. -/
theorem eps_vec_apply (k : S64.Idx) :
    broadcastInDim S64 ![] Facts₀.bcast_S_S64 (constant (F := Ideal) S_ .f32 0x3727C5AC#32) k = cEps := by
  rw [broadcastInDim_scalar_apply]; rfl

/-- The scalar zero word broadcast to [50000, 64] reads that constant everywhere. -/
theorem zeros_apply (i : S50000x64.Idx) :
    broadcastInDim S50000x64 ![] Facts₀.bcast_S_S50000x64 zero0 i = cZero := by
  rw [broadcastInDim_scalar_apply]; rfl

/-- The reciprocal square root of the variance plus epsilon, read at column k. -/
theorem rsqrt_vec_apply (v : FVec Ideal S64 .f32) (k : Fin 64) :
    Host.rsqrt (F := Ideal) (addf v (broadcastInDim S64 ![] Facts₀.bcast_S_S64 (constant (F := Ideal) S_ .f32 0x3727C5AC#32)))
        (ix1 k) = Ideal.rsqrt (v (ix1 k) + cEps) := by
  show Ideal.rsqrt (addf v _ (ix1 k)) = _
  rw [addf_apply, eps_vec_apply]

theorem stOut_eq (h : FVec Ideal S50000x64 .f32) (mu v gamma beta : FVec Ideal S64 .f32) (W2 : FVec Ideal S64x64 .f32)
    (b2 : FVec Ideal S64 .f32) :
    stOut h mu v gamma beta W2 b2
      = (arr2 (outF (mat (n0 := 50000) (n1 := 64) h) (vec (n := 64) mu) (vec (n := 64) v) (vec (n := 64) gamma)
          (vec (n := 64) beta) (mat (n0 := 64) (n1 := 64) W2) (vec (n := 64) b2)) : FVec Ideal S50000x64 .f32) := by
  funext i
  obtain ⟨r, j, rfl⟩ : ∃ (r : Fin 50000) (j : Fin 64), i = ix2 r j := ⟨i 0, i 1, eq_ix2 i⟩
  unfold stOut
  rw [addf_apply, dot_hid_apply, rows50000_apply]
  show _ = outF _ _ _ _ _ _ _ r j
  unfold outF
  refine congrArg (· + b2 (ix1 j)) (Finset.sum_congr rfl fun k _ => ?_)
  rw [maximumf_apply, addf_apply, mulf_apply, mulf_apply, subf_apply, rows50000_apply, rows50000_apply, rows50000_apply,
    rows50000_apply, rsqrt_vec_apply, zeros_apply]

/-! ### The whole reference -/

/-- The reference's result is `outF` of the hidden layer `hidOf` of its arguments, its mean and its variance as the
    mean of the squared deviations. -/
theorem refOut_eq (x : FVec Ideal S50000x64 .f32) (ei : IVec S2x800000 32) (ea : FVec Ideal S800000x32 .f32)
    (We : FVec Ideal S32x64 .f32) (be : FVec Ideal S64 .f32) (W1 : FVec Ideal S64x64 .f32) (b1 gamma beta : FVec Ideal S64 .f32)
    (W2 : FVec Ideal S64x64 .f32) (b2 : FVec Ideal S64 .f32) :
    refOut x ei ea We be W1 b1 gamma beta W2 b2
      = (arr2 (outF (hidOf x ei ea We be W1 b1) (mean (hidOf x ei ea We be W1 b1)) (varR (hidOf x ei ea We be W1 b1))
          (vec (n := 64) gamma) (vec (n := 64) beta) (mat (n0 := 64) (n1 := 64) W2) (vec (n := 64) b2)) : FVec Ideal S50000x64 .f32) := by
  unfold refOut
  rw [stH_eq, stOut_eq, stMean_eq, stVar_eq, mat_arr2]

end Cert.ReferenceIdeal.Val

end
-- ==== Proof.PreReal.lean ====
/-
  The precondition, decoded. The printed predicate says, of each float argument `a`, that the conjunction over all
  indices of `|a i| < +∞` is the word 1. On the extended reals `|x| = max x (-x)` and the word 0x7F800000 denotes `⊤`,
  so `|x| < ⊤` excludes both infinities, and what is left of the extended reals is the real numbers.
-/
import proofs.«141026_j7430293422227_1_alg».proof.Defs
import proofs.«141026_j7430293422227_1_alg».proof.Proof.Gen.KernelIdeal
import proofs.«141026_j7430293422227_1_alg».proof.Proof.Gen.Pre_finite_inputs
import proofs.«141026_j7430293422227_1_alg».proof.Proof.Spec
import Idealize.ShloMosaic.Lib.ReduceAll

namespace Cert.KernelIdeal.Val

open Idealize.ShloMosaic Idealize.SL.Sem

/-- The rank-0 shape has one index. -/
instance : Subsingleton Cert.Pre_finite_inputs.S_.Idx := ⟨fun a b => funext fun d => d.elim0⟩

/-- An extended real whose absolute value `max x (-x)` lies below `+∞` is neither infinity: it is a real number. -/
theorem isReal_of_abs_lt_top (x : EReal) (h : max x (-x) < ⊤) : Cert.Gin.IsReal x := by
  induction x using EReal.rec with
  | bot => simp at h
  | coe r => exact ⟨r, rfl⟩
  | top => simp at h

/-- One conjunct of the printed predicate, read back: if `all (|a| < +∞)` is the word 1 then every entry of `a` is real. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf a)
            (broadcastInDim s ![] hb (constant (F := Ideal) Cert.Pre_finite_inputs.S_ .f32 0x7F800000#32)))
          init hr hu ValueIdx.ix0 = 1#1)
    (i : s.Idx) : Cert.Gin.IsReal (a i) := by
  have h1 := Host.reduce_andi_all _ init hr hu _ e i
  have htop : Ideal.ofBits .f32 0x7F800000#32 = ⊤ := by simp [Ideal.ofBits, Ideal.ieee]
  have h2 : Ideal.cmp .olt (max (a i : EReal) (-(a i : EReal))) (Ideal.ofBits .f32 0x7F800000#32) = 1#1 := h1
  rw [htop] at h2
  refine isReal_of_abs_lt_top (a i) ?_
  unfold Ideal.cmp at h2
  by_contra hn
  simp [hn] at h2

/-- The precondition decoded: every entry of arguments 0, 2, 3, 4, 5 and 6 is a real number. The printed predicate is a
    left-nested conjunction of ten `all (|x| < +∞)`, one per float argument in argument order (argument 1 holds
    integers and has no conjunct); the last four conjuncts are dropped, the first six read back. -/
theorem pre_real (m : (ℓ : Loc Cert.KernelIdeal.nD Cert.KernelIdeal.τ Cert.KernelIdeal.sig) → Buf (Elt Ideal) ℓ) (hpre : Cert.Pre_KernelIdeal m) (c : Dev Cert.KernelIdeal.nD) :
      (∀ i, Cert.Gin.IsReal (m ((c.tc : Thread Cert.KernelIdeal.nD Cert.KernelIdeal.τ).loc Cert.KernelIdeal.main_arg0) i))
    ∧ (∀ i, Cert.Gin.IsReal (m ((c.tc : Thread _ _).loc Cert.KernelIdeal.main_arg2) i))
    ∧ (∀ i, Cert.Gin.IsReal (m ((c.tc : Thread _ _).loc Cert.KernelIdeal.main_arg3) i))
    ∧ (∀ i, Cert.Gin.IsReal (m ((c.tc : Thread _ _).loc Cert.KernelIdeal.main_arg4) i))
    ∧ (∀ i, Cert.Gin.IsReal (m ((c.tc : Thread _ _).loc Cert.KernelIdeal.main_arg5) i))
    ∧ (∀ i, Cert.Gin.IsReal (m ((c.tc : Thread _ _).loc Cert.KernelIdeal.main_arg6) i)) := by
  have h := congrFun (hpre c) ValueIdx.ix0
  dsimp only [Cert.Pre_finite_inputs.fn, Cert.Pre_finite_inputs.fn_part1, Cert.Pre_finite_inputs.fn_part2] at h
  obtain ⟨h, -⟩ := IntOp.andi_eq_one.1 h
  obtain ⟨h, -⟩ := IntOp.andi_eq_one.1 h
  obtain ⟨h, -⟩ := IntOp.andi_eq_one.1 h
  obtain ⟨h, -⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h0, h2⟩ := IntOp.andi_eq_one.1 h
  exact ⟨real_of_all _ _ _ _ _ h0, real_of_all _ _ _ _ _ h2, real_of_all _ _ _ _ _ h3,
    real_of_all _ _ _ _ _ h4, real_of_all _ _ _ _ _ h5, real_of_all _ _ _ _ _ h6⟩

end Cert.KernelIdeal.Val
-- ==== Proof.Bridge.lean ====
/-
  The two programs meet. Both results are `outF` of one hidden layer `h` — the same function of the arguments on
  both sides, operation for operation — of its mean, and of its variance: the kernel's as the mean of the squares
  minus the square of the mean, the reference's as the mean of the squared deviations. The two variances agree
  because every entry of `h` is a real number: the float arguments are finite by the precondition, a gathered row
  is a row of `x`, a scatter-add from zero is a finite sum of message entries, and sums and products of reals are
  real.
-/
import proofs.«141026_j7430293422227_1_alg».proof.Proof.KernelHost
import proofs.«141026_j7430293422227_1_alg».proof.Proof.RefStages
import proofs.«141026_j7430293422227_1_alg».proof.Proof.Algebra
import proofs.«141026_j7430293422227_1_alg».proof.Proof.PreReal

noncomputable section

namespace Cert.Proof.Bridge

open Cert.Gin
open Idealize.ShloMosaic Idealize.ShloMosaic.ValueIdx Idealize.SL.Sem

/-! ## One hidden layer in both programs -/

/-- The gather of the source rows is the same operation, at the same dimension numbers and the same start
    indices, in both programs. -/
theorem gathered_agree (x : FVec Ideal Cert.KernelIdeal.S50000x64 .f32) (ei : IVec Cert.KernelIdeal.S2x800000 32) :
    Cert.ReferenceIdeal.Val.gathered x ei = Cert.KernelIdeal.Val.gathered x ei := rfl

/-- The scatter-add into the target nodes is the same operation, from the same zeros at the same indices, in both
    programs. -/
theorem aggregate_agree (ei : IVec Cert.KernelIdeal.S2x800000 32) (upd : FVec Ideal Cert.KernelIdeal.S800000x64 .f32) :
    Cert.ReferenceIdeal.Val.aggregate ei upd = Cert.KernelIdeal.Val.aggregate ei upd := rfl

/-- The hidden layer is one function of the arguments in both programs. -/
theorem hidOf_agree (x : FVec Ideal Cert.KernelIdeal.S50000x64 .f32) (ei : IVec Cert.KernelIdeal.S2x800000 32)
    (ea : FVec Ideal Cert.KernelIdeal.S800000x32 .f32) (We : FVec Ideal Cert.KernelIdeal.S32x64 .f32)
    (be : FVec Ideal Cert.KernelIdeal.S64 .f32) (W1 : FVec Ideal Cert.KernelIdeal.S64x64 .f32) (b1 : FVec Ideal Cert.KernelIdeal.S64 .f32) :
    Cert.ReferenceIdeal.Val.hidOf x ei ea We be W1 b1 = Cert.KernelIdeal.Val.hidOf x ei ea We be W1 b1 := by
  unfold Cert.ReferenceIdeal.Val.hidOf Cert.KernelIdeal.Val.hidOf
  rw [gathered_agree, aggregate_agree]

/-! ## Every entry of the hidden layer is a real number -/

/-- A gathered row is a row of the operand: real when the operand is. -/
theorem gathered_real (x : FVec Ideal Cert.KernelIdeal.S50000x64 .f32) (ei : IVec Cert.KernelIdeal.S2x800000 32)
    (hx : ∀ i, IsReal (x i)) (i) : IsReal (Cert.KernelIdeal.Val.gathered x ei i) := hx _

/-- A scatter-add is, at each element, the operand's element plus a finite sum of update entries: real when the
    operand and the updates are (stated at any shapes: nothing about the extents is used). -/
theorem scatterAdd_real {s si su : Shape} (d : ScatterDims s si su) {w : Nat} (x : FVec Ideal s .f32) (idx : IVec si w)
    (upd : FVec Ideal su .f32) (hx : ∀ i, IsReal (x i)) (hu : ∀ j, IsReal (upd j)) (i : s.Idx) :
    IsReal (Host.scatterAdd d x idx upd i) := by
  show IsReal (x i + ∑ j ∈ _, upd j)
  exact isReal_add (hx i) (isReal_sum _ _ fun j _ => hu j)

/-- The aggregate, a scatter-add from zero, is real when the per-edge rows are. -/
theorem aggregate_real (ei : IVec Cert.KernelIdeal.S2x800000 32) (upd : FVec Ideal Cert.KernelIdeal.S800000x64 .f32)
    (hu : ∀ i, IsReal (upd i)) (i) : IsReal (Cert.KernelIdeal.Val.aggregate ei upd i) := by
  unfold Cert.KernelIdeal.Val.aggregate
  refine scatterAdd_real _ _ _ _ (fun i => ?_) hu i
  show IsReal cZero
  rw [cZero_eq]; exact isReal_zero

/-- Under the precondition every entry of the hidden layer is a real number. -/
theorem hK_real (m : (ℓ : Loc Cert.KernelIdeal.nD Cert.KernelIdeal.τ Cert.KernelIdeal.sig) → Buf (Elt Ideal) ℓ)
    (hpre : Cert.Pre_KernelIdeal m) (c : Dev Cert.KernelIdeal.nD) (r : Fin 50000) (j : Fin 64) :
    IsReal (Cert.KernelIdeal.Val.hK m c r j) := by
  obtain ⟨h0, h2, h3, h4, h5, h6⟩ := Cert.KernelIdeal.Val.pre_real m hpre c
  unfold Cert.KernelIdeal.Val.hK Cert.KernelIdeal.Val.hidOf
  refine hid_real (fun r k => aggregate_real _ _ (fun i => ?_) _) (fun r k => h0 _) (fun k j => h5 _) (fun j => h6 _) r j
  exact msg_real (fun e j => gathered_real _ _ h0 _) (fun e k => h2 _) (fun k j => h3 _) (fun j => h4 _) _ _

end Cert.Proof.Bridge

end
-- ==== Proof.lean ====
/-
  The certificate of the graph-convolution layer against its jnp reference, over the extended reals.

  Both programs compute, for nodes r and features j,
      h r j   = Σ_k (agg r k + x r k) · W1 k j + b1 j,   agg = the edge messages x[src] + ea·We + be summed into their targets,
      out r j = Σ_k max(((h r k − μ k) · rsqrt(v k + ε)) · γ k + β k, 0) · W2 k j + b2 j,   μ = (Σ_r h r ·)/50000,
  the kernel in three grid-tiled regions with the gather and the scatter-add on the host between them, the reference as
  one straight line of host operations. They differ in the variance v: the kernel accumulates Σ h and Σ h² block by
  block and forms (Σ h²)/N − μ², the reference forms (Σ (h − μ)²)/N. The two are equal when every h r j is a real number,
  which the precondition (every float argument finite) gives.

  The three frames: the kernel's two are the generated frame certificates; the reference's is its run with the result
  dropped. `preserves` is trivial (the idealization rewrote nothing). `algebraic`: the kernel's run with its result named,
  read back region by region and stretch by stretch as `outF` of `h`, its mean and the kernel's variance; the reference's
  run, read stage by stage as `outF` of the same `h`, its mean and the reference's variance; the two variances joined.
-/
import proofs.«141026_j7430293422227_1_alg».proof.Defs
import proofs.«141026_j7430293422227_1_alg».proof.Proof.Gen.Kernel
import proofs.«141026_j7430293422227_1_alg».proof.Proof.Gen.Kernel.Skeleton
import proofs.«141026_j7430293422227_1_alg».proof.Proof.Gen.Kernel.Launch
import proofs.«141026_j7430293422227_1_alg».proof.Proof.Gen.Kernel.Points
import proofs.«141026_j7430293422227_1_alg».proof.Proof.Gen.Kernel.Frame
import proofs.«141026_j7430293422227_1_alg».proof.Proof.Gen.KernelIdeal
import proofs.«141026_j7430293422227_1_alg».proof.Proof.Gen.KernelIdeal.Skeleton
import proofs.«141026_j7430293422227_1_alg».proof.Proof.Gen.KernelIdeal.Launch
import proofs.«141026_j7430293422227_1_alg».proof.Proof.Gen.KernelIdeal.Points
import proofs.«141026_j7430293422227_1_alg».proof.Proof.Gen.KernelIdeal.Frame
import proofs.«141026_j7430293422227_1_alg».proof.Proof.Gen.ReferenceIdeal
import proofs.«141026_j7430293422227_1_alg».proof.Proof.Gen.Pre_finite_inputs
import proofs.«141026_j7430293422227_1_alg».proof.Proof.KernelRun
import proofs.«141026_j7430293422227_1_alg».proof.Proof.KernelHost
import proofs.«141026_j7430293422227_1_alg».proof.Proof.RefRun
import proofs.«141026_j7430293422227_1_alg».proof.Proof.RefValue
import proofs.«141026_j7430293422227_1_alg».proof.Proof.Bridge
import Idealize.ShloMosaic.Adequacy
import Idealize.ShloMosaic.Init

noncomputable section

namespace Cert.Proof

open Idealize.ShloMosaic Idealize.SL.Sem Cert.Gin

/-- The kernel's frame at the word-level instance: the generated frame certificate. -/
theorem frame_k : Cert.frame_Kernel := fun m ρ _ => Cert.Kernel.Gen.frame m ρ

/-- The idealized kernel's frame: the generated frame certificate at the ideal instance. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Val.run m ρ)

/-- From memories agreeing on the arguments both programs end at `outF` of one hidden layer, its mean and its
    variance, the variance in two forms that agree on real entries. -/
theorem algebraic : Cert.algebraic_KernelIdeal_ReferenceIdeal := by
  intro m ρ m' ρ' hpre hagree
  refine ⟨fun c => Cert.KernelIdeal.Gen.W6 (F := Ideal) m ρ c (Proc.devRef .tc Cert.KernelIdeal.main_v27),
    Cert.KernelIdeal.Run.run_named (F := Ideal) m ρ, ?_⟩
  refine (θ_run Cert.ReferenceIdeal.defs _ _).mono (fun r h c => ⟨(h c).1.trans ?_, (h c).2⟩)
    (Cert.ReferenceIdeal.Val.run m' ρ')
  obtain ⟨h0, h1, h2, h3, h4, h5, h6, h7, h8, h9, h10⟩ := hagree c
  show _ = Cert.KernelIdeal.Gen.W6 (F := Ideal) m ρ c (Proc.devRef .tc Cert.KernelIdeal.main_v27)
  rw [Cert.KernelIdeal.Val.kernel_value, Cert.ReferenceIdeal.Val.refOut_eq, h0, h1, h2, h3, h4, h5, h6, h7, h8, h9, h10]
  have hh : Cert.ReferenceIdeal.Val.hidOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      = Cert.KernelIdeal.Val.hK m c := Cert.Proof.Bridge.hidOf_agree _ _ _ _ _ _ _
  rw [hh, varK_eq_varR _ (Cert.Proof.Bridge.hK_real m hpre c)]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
